-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S100000 : Shape := ⟨1, ![100000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S64 .f32) (main_arg7 : FVec F S64x2 .f32) (main_arg8 : FVec F S2 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg7
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x3 .f32) (main_arg1 : IVec S2x3200000 32) (main_arg2 : IVec S100000 32) (main_arg3 : FVec F S3x32 .f32) (main_arg4 : FVec F S32 .f32) (main_arg5 : FVec F S32x64 .f32) (main_arg6 : FVec F S64 .f32) (main_arg7 : FVec F S64x2 .f32) (main_arg8 : FVec F S2 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x32 .f32 := Host.absf main_arg3
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg6 main_arg7 main_arg8 main_v13 main_v16
-- ==== Kernel.lean ====
abbrev S100000x3 : Shape := ⟨2, ![100000, 3]⟩
abbrev S2x3200000 : Shape := ⟨2, ![2, 3200000]⟩
abbrev S100000 : Shape := ⟨1, ![100000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x3 : Shape := ⟨2, ![3300000, 3]⟩
abbrev S1x32 : Shape := ⟨2, ![1, 32]⟩
abbrev S100000x32 : Shape := ⟨2, ![100000, 32]⟩
abbrev S10000x3 : Shape := ⟨2, ![10000, 3]⟩
abbrev S10000x32 : Shape := ⟨2, ![10000, 32]⟩
abbrev S3300000x32 : Shape := ⟨2, ![3300000, 32]⟩
abbrev S1x64 : Shape := ⟨2, ![1, 64]⟩
abbrev S100000x64 : Shape := ⟨2, ![100000, 64]⟩
abbrev S10000x64 : Shape := ⟨2, ![10000, 64]⟩
abbrev S3300000x64 : Shape := ⟨2, ![3300000, 64]⟩
abbrev S1x2 : Shape := ⟨2, ![1, 2]⟩
abbrev S100000x2 : Shape := ⟨2, ![100000, 2]⟩
abbrev S10000x2 : Shape := ⟨2, ![10000, 2]⟩
abbrev S100000x1 : Shape := ⟨2, ![100000, 1]⟩
abbrev S128x2 : Shape := ⟨2, ![128, 2]⟩
abbrev S128x1 : Shape := ⟨2, ![128, 1]⟩
abbrev S5000x2 : Shape := ⟨2, ![5000, 2]⟩
abbrev S5000x1 : Shape := ⟨2, ![5000, 1]⟩
abbrev S5000x128 : Shape := ⟨2, ![5000, 128]⟩

abbrev nBuf : Space → Nat
  | .hbm => 107
  | .vmem => 26
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S100000, .i32⟩
  | .hbm, ⟨3, _⟩ => ⟨S3x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S3300000x1, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x3, .f32⟩
  | .hbm, ⟨55, _⟩ => ⟨S3300000x3, .f32⟩
  | .hbm, ⟨56, _⟩ => ⟨S3300000x3, .f32⟩
  | .hbm, ⟨57, _⟩ => ⟨S_, .f32⟩
  | .hbm, ⟨58, _⟩ => ⟨S100000x3, .f32⟩
  | .hbm, ⟨59, _⟩ => ⟨S3300000x1, .i32⟩
  | .hbm, ⟨60, _⟩ => ⟨S100000x3, .f32⟩
  | .hbm, ⟨61, _⟩ => ⟨S1x32, .f32⟩
  | .hbm, ⟨62, _⟩ => ⟨S100000x32, .f32⟩
  | .hbm, ⟨63, _⟩ => ⟨S3300000x1, .f32⟩
  | .hbm, ⟨64, _⟩ => ⟨S_, .i32⟩
  | .hbm, ⟨65, _⟩ => ⟨S3300000, .i32⟩
  | .hbm, ⟨66, _⟩ => ⟨S3300000, .i1⟩
  | .hbm, ⟨67, _⟩ => ⟨S_, .i32⟩
  | .hbm, ⟨68, _⟩ => ⟨S3300000, .i32⟩
  | .hbm, ⟨69, _⟩ => ⟨S3300000, .i32⟩
  | .hbm, ⟨70, _⟩ => ⟨S3300000, .i32⟩
  | .hbm, ⟨71, _⟩ => ⟨S3300000x1, .i32⟩
  | .hbm, ⟨72, _⟩ => ⟨S3300000x32, .f32⟩
  | .hbm, ⟨73, _⟩ => ⟨S3300000x32, .f32⟩
  | .hbm, ⟨74, _⟩ => ⟨S3300000x32, .f32⟩
  | .hbm, ⟨75, _⟩ => ⟨S_, .f32⟩
  | .hbm, ⟨76, _⟩ => ⟨S100000x32, .f32⟩
  | .hbm, ⟨77, _⟩ => ⟨S3300000x1, .i32⟩
  | .hbm, ⟨78, _⟩ => ⟨S100000x32, .f32⟩
  | .hbm, ⟨79, _⟩ => ⟨S1x64, .f32⟩
  | .hbm, ⟨80, _⟩ => ⟨S100000x64, .f32⟩
  | .hbm, ⟨81, _⟩ => ⟨S3300000x1, .f32⟩
  | .hbm, ⟨82, _⟩ => ⟨S_, .i32⟩
  | .hbm, ⟨83, _⟩ => ⟨S3300000, .i32⟩
  | .hbm, ⟨84, _⟩ => ⟨S3300000, .i1⟩
  | .hbm, ⟨85, _⟩ => ⟨S_, .i32⟩
  | .hbm, ⟨86, _⟩ => ⟨S3300000, .i32⟩
  | .hbm, ⟨87, _⟩ => ⟨S3300000, .i32⟩
  | .hbm, ⟨88, _⟩ => ⟨S3300000, .i32⟩
  | .hbm, ⟨89, _⟩ => ⟨S3300000x1, .i32⟩
  | .hbm, ⟨90, _⟩ => ⟨S3300000x64, .f32⟩
  | .hbm, ⟨91, _⟩ => ⟨S3300000x64, .f32⟩
  | .hbm, ⟨92, _⟩ => ⟨S3300000x64, .f32⟩
  | .hbm, ⟨93, _⟩ => ⟨S_, .f32⟩
  | .hbm, ⟨94, _⟩ => ⟨S100000x64, .f32⟩
  | .hbm, ⟨95, _⟩ => ⟨S3300000x1, .i32⟩
  | .hbm, ⟨96, _⟩ => ⟨S100000x64, .f32⟩
  | .hbm, ⟨97, _⟩ => ⟨S1x2, .f32⟩
  | .hbm, ⟨98, _⟩ => ⟨S100000x2, .f32⟩
  | .hbm, ⟨99, _⟩ => ⟨S100000x1, .i32⟩
  | .hbm, ⟨100, _⟩ => ⟨S128x2, .f32⟩
  | .hbm, ⟨101, _⟩ => ⟨S128x1, .f32⟩
  | .hbm, ⟨102, _⟩ => ⟨S_, .f32⟩
  | .hbm, ⟨103, _⟩ => ⟨S128x1, .f32⟩
  | .hbm, ⟨104, _⟩ => ⟨S128x1, .f32⟩
  | .hbm, ⟨105, _⟩ => ⟨S128x2, .f32⟩
  | .hbm, ⟨106, _⟩ => ⟨S128x2, .f32⟩
  | .local _ .vmem, ⟨0, _⟩ => ⟨S10000x3, .f32⟩
  | .local _ .vmem, ⟨1, _⟩ => ⟨S10000x3, .f32⟩
  | .local _ .vmem, ⟨2, _⟩ => ⟨S3x32, .f32⟩
  | .local _ .vmem, ⟨3, _⟩ => ⟨S1x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S32x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x2, .f32⟩
  | .local _ .vmem, ⟨15, _⟩ => ⟨S1x2, .f32⟩
  | .local _ .vmem, ⟨16, _⟩ => ⟨S10000x2, .f32⟩
  | .local _ .vmem, ⟨17, _⟩ => ⟨S10000x2, .f32⟩
  | .local _ .vmem, ⟨18, _⟩ => ⟨S5000x2, .f32⟩
  | .local _ .vmem, ⟨19, _⟩ => ⟨S5000x2, .f32⟩
  | .local _ .vmem, ⟨20, _⟩ => ⟨S5000x1, .i32⟩
  | .local _ .vmem, ⟨21, _⟩ => ⟨S5000x1, .i32⟩
  | .local _ .vmem, ⟨22, _⟩ => ⟨S128x2, .f32⟩
  | .local _ .vmem, ⟨23, _⟩ => ⟨S128x1, .f32⟩
  | .local _ .vmem, ⟨24, _⟩ => ⟨S128x2, .f32⟩
  | .local _ .vmem, ⟨25, _⟩ => ⟨S128x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75_0 : Ref sig .tc := ⟨.hbm, 100, rfl⟩
abbrev main_v75_1 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_scratch0 : Ref sig .tc := ⟨.vmem, 24, rfl⟩
abbrev cc3_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  shapeCasts_S32_S1x32 : S32.ShapeCasts S1x32
  inb_S10000x3_S10000x3_0_0 : ∀ a, (![0, 0] : Fin 2 → Nat) a + S10000x3.size a ≤ S10000x3.size a
  h_S10000x3 : 0 < S10000x3.numel
  shapeCasts_S10000x3_S10000x3 : S10000x3.ShapeCasts S10000x3
  bitsLt_bf16_f32 : FTy.bits .bf16 < FTy.bits .f32
  inb_S3x32_S3x32_0_0 : ∀ a, (![0, 0] : Fin 2 → Nat) a + S3x32.size a ≤ S3x32.size a
  h_S3x32 : 0 < S3x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S64_S1x64 : S64.ShapeCasts S1x64
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S2_S1x2 : S2.ShapeCasts S1x2
  shapeCasts_S10000x64_S10000x64 : S10000x64.ShapeCasts S10000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  shapeCasts_S100000_S100000x1 : S100000.ShapeCasts S100000x1
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  bcast_S_S128x1 : S_.BroadcastsInDim S128x1 (![] : Fin 0 → Fin S128x1.rank)
  bcast_S128x1_S128x2_0_1 : S128x1.BroadcastsInDim S128x2 (![0, 1] : Fin 2 → Fin S128x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  dot_S10000x3_S3x32_S10000x32_1_0_0_1_n_n_wf : DotDims.WF S10000x3 S3x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x64_S10000x64_1_0_0_1_n_n_wf : DotDims.WF S10000x32 S32x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x2_S10000x2_1_0_0_1_n_n_wf : DotDims.WF S10000x64 S64x2 S10000x2 [1] [0] [0] [1] [] []
  dot_S5000x128_S5000x2_S128x2_0_0_1_1_n_n_wf : DotDims.WF S5000x128 S5000x2 S128x2 [0] [0] [1] [1] [] []
  dot_S5000x128_S5000x1_S128x1_0_0_1_1_n_n_wf : DotDims.WF S5000x128 S5000x1 S128x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x32.size a ≤ S3x32.size a
  hwx0_1 : ∀ i : grid0.Coords, EltTy.bits .f32 = 32 ∨ (Rect.block (s := S3x32) S3x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x2.size a ≤ S100000x2.size a
  hwx2_3 : ∀ i : grid2.Coords, EltTy.bits .f32 = 32 ∨ (Rect.block (s := S100000x2) S10000x2.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .i32 = 32 ∨ (Rect.block (s := S100000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x2.size a ≤ S128x2.size a
  hwx3_2 : ∀ i : grid3.Coords, EltTy.bits .f32 = 32 ∨ (Rect.block (s := S128x2) S128x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x1.size a ≤ S128x1.size a
  hwx3_3 : ∀ i : grid3.Coords, EltTy.bits .f32 = 32 ∨ (Rect.block (s := S128x1) S128x1.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf
def dot_S10000x3_S3x32_S10000x32_1_0_0_1_n_n : DotDims S10000x3 S3x32 S10000x32 where
  lhsContracting := [1]
  rhsContracting := [0]
  lhsNonContracting := [0]
  rhsNonContracting := [1]
  lhsBatch := []
  rhsBatch := []
  wf := dot_S10000x3_S3x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def dot_S5000x128_S5000x2_S128x2_0_0_1_1_n_n : DotDims S5000x128 S5000x2 S128x2 where
  lhsContracting := [0]
  rhsContracting := [0]
  lhsNonContracting := [1]
  rhsNonContracting := [1]
  lhsBatch := []
  rhsBatch := []
  wf := dot_S5000x128_S5000x2_S128x2_0_0_1_1_n_n_wf
def dot_S5000x128_S5000x1_S128x1_0_0_1_1_n_n : DotDims S5000x128 S5000x1 S128x1 where
  lhsContracting := [0]
  rhsContracting := [0]
  lhsNonContracting := [1]
  rhsNonContracting := [1]
  lhsBatch := []
  rhsBatch := []
  wf := dot_S5000x128_S5000x1_S128x1_0_0_1_1_n_n_wf

abbrev win0_0 : Pipeline.Window sig grid0 :=
  Pipeline.Window.ofSpec (Memref.whole main_v41) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v56) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v71) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v73) S10000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75_0) S128x2.size cc3_transform_2 reads3_2 true true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75_1) S128x1.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S100000 : Shape := ⟨1, ![100000]⟩
abbrev S3x32 : Shape := ⟨2, ![3, 32]⟩
abbrev S32 : Shape := ⟨1, ![32]⟩
abbrev S32x64 : Shape := ⟨2, ![32, 64]⟩
abbrev S64 : Shape := ⟨1, ![64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x64 : Shape := ⟨2, ![100000, 64]⟩
abbrev S3300000x64 : Shape := ⟨2, ![3300000, 64]⟩
abbrev S1x64 : Shape := ⟨2, ![1, 64]⟩
abbrev S100000x2 : Shape := ⟨2, ![100000, 2]⟩
abbrev S3300000x2 : Shape := ⟨2, ![3300000, 2]⟩
abbrev S1x2 : Shape := ⟨2, ![1, 2]⟩
abbrev S128x2 : Shape := ⟨2, ![128, 2]⟩
abbrev S100000x1 : Shape := ⟨2, ![100000, 1]⟩
abbrev S128 : Shape := ⟨1, ![128]⟩
abbrev S128x1 : Shape := ⟨2, ![128, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S100000, .i32⟩
  | .hbm, ⟨3, _⟩ => ⟨S3x32, .f32⟩
  | .hbm, ⟨4, _⟩ => ⟨S32, .f32⟩
  | .hbm, ⟨5, _⟩ => ⟨S32x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S100000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S_, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x32, .f32⟩
  | .hbm, ⟨46, _⟩ => ⟨S3300000x1, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x32, .f32⟩
  | .hbm, ⟨57, _⟩ => ⟨S3300000x32, .f32⟩
  | .hbm, ⟨58, _⟩ => ⟨S_, .f32⟩
  | .hbm, ⟨59, _⟩ => ⟨S100000x32, .f32⟩
  | .hbm, ⟨60, _⟩ => ⟨S3300000x1, .i32⟩
  | .hbm, ⟨61, _⟩ => ⟨S100000x32, .f32⟩
  | .hbm, ⟨62, _⟩ => ⟨S1x32, .f32⟩
  | .hbm, ⟨63, _⟩ => ⟨S100000x32, .f32⟩
  | .hbm, ⟨64, _⟩ => ⟨S100000x32, .f32⟩
  | .hbm, ⟨65, _⟩ => ⟨S_, .f32⟩
  | .hbm, ⟨66, _⟩ => ⟨S100000x32, .f32⟩
  | .hbm, ⟨67, _⟩ => ⟨S100000x32, .f32⟩
  | .hbm, ⟨68, _⟩ => ⟨S100000x64, .f32⟩
  | .hbm, ⟨69, _⟩ => ⟨S3300000x1, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x64, .f32⟩
  | .hbm, ⟨79, _⟩ => ⟨S3300000x64, .f32⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S100000x2, .f32⟩
  | .hbm, ⟨92, _⟩ => ⟨S3300000x1, .f32⟩
  | .hbm, ⟨93, _⟩ => ⟨S_, .i32⟩
  | .hbm, ⟨94, _⟩ => ⟨S3300000, .i32⟩
  | .hbm, ⟨95, _⟩ => ⟨S3300000, .i1⟩
  | .hbm, ⟨96, _⟩ => ⟨S_, .i32⟩
  | .hbm, ⟨97, _⟩ => ⟨S3300000, .i32⟩
  | .hbm, ⟨98, _⟩ => ⟨S3300000, .i32⟩
  | .hbm, ⟨99, _⟩ => ⟨S3300000, .i32⟩
  | .hbm, ⟨100, _⟩ => ⟨S3300000x1, .i32⟩
  | .hbm, ⟨101, _⟩ => ⟨S3300000x2, .f32⟩
  | .hbm, ⟨102, _⟩ => ⟨S3300000x2, .f32⟩
  | .hbm, ⟨103, _⟩ => ⟨S3300000x2, .f32⟩
  | .hbm, ⟨104, _⟩ => ⟨S_, .f32⟩
  | .hbm, ⟨105, _⟩ => ⟨S100000x2, .f32⟩
  | .hbm, ⟨106, _⟩ => ⟨S3300000x1, .i32⟩
  | .hbm, ⟨107, _⟩ => ⟨S100000x2, .f32⟩
  | .hbm, ⟨108, _⟩ => ⟨S1x2, .f32⟩
  | .hbm, ⟨109, _⟩ => ⟨S100000x2, .f32⟩
  | .hbm, ⟨110, _⟩ => ⟨S100000x2, .f32⟩
  | .hbm, ⟨111, _⟩ => ⟨S_, .f32⟩
  | .hbm, ⟨112, _⟩ => ⟨S128x2, .f32⟩
  | .hbm, ⟨113, _⟩ => ⟨S100000x1, .i32⟩
  | .hbm, ⟨114, _⟩ => ⟨S128x2, .f32⟩
  | .hbm, ⟨115, _⟩ => ⟨S_, .f32⟩
  | .hbm, ⟨116, _⟩ => ⟨S100000, .f32⟩
  | .hbm, ⟨117, _⟩ => ⟨S_, .f32⟩
  | .hbm, ⟨118, _⟩ => ⟨S128, .f32⟩
  | .hbm, ⟨119, _⟩ => ⟨S100000x1, .i32⟩
  | .hbm, ⟨120, _⟩ => ⟨S128, .f32⟩
  | .hbm, ⟨121, _⟩ => ⟨S_, .f32⟩
  | .hbm, ⟨122, _⟩ => ⟨S128, .f32⟩
  | .hbm, ⟨123, _⟩ => ⟨S128, .f32⟩
  | .hbm, ⟨124, _⟩ => ⟨S128x1, .f32⟩
  | .hbm, ⟨125, _⟩ => ⟨S128x2, .f32⟩
  | .hbm, ⟨126, _⟩ => ⟨S128x2, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_11 : Ref sig .tc := ⟨.hbm, 93, rfl⟩
abbrev main_v67 : Ref sig .tc := ⟨.hbm, 94, rfl⟩
abbrev main_v68 : Ref sig .tc := ⟨.hbm, 95, rfl⟩
abbrev main_c_12 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_14 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_15 : Ref sig .tc := ⟨.hbm, 115, rfl⟩
abbrev main_v85 : Ref sig .tc := ⟨.hbm, 116, rfl⟩
abbrev main_cst_16 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_17 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S128x2 : S_.BroadcastsInDim S128x2 (![] : Fin 0 → Fin S128x2.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x2_0_1 : S128x1.BroadcastsInDim S128x2 (![0, 1] : Fin 2 → Fin S128x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x3_S3x32_S100000x32_1_0_0_1_n_n_wf : DotDims.WF S100000x3 S3x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x64_S100000x64_1_0_0_1_n_n_wf : DotDims.WF S100000x32 S32x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x2_S100000x2_1_0_0_1_n_n_wf : DotDims.WF S100000x64 S64x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  scatter_S128x2_S100000x1_S100000x2_1_0_0_1_wf : ScatterDims.WF S128x2 S100000x1 S100000x2 [1] [0] [0] 1
  scatter_S128_S100000x1_S100000_n_0_0_1_wf : ScatterDims.WF S128 S100000x1 S100000 [] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x3_S3x32_S100000x32_1_0_0_1_n_n : DotDims S100000x3 S3x32 S100000x32 where
  lhsContracting := [1]
  rhsContracting := [0]
  lhsNonContracting := [0]
  rhsNonContracting := [1]
  lhsBatch := []
  rhsBatch := []
  wf := dot_S100000x3_S3x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf
def scatter_S128x2_S100000x1_S100000x2_1_0_0_1 : ScatterDims S128x2 S100000x1 S100000x2 where
  updateWindowDims := [1]
  insertedWindowDims := [0]
  scatterDimsToOperandDims := [0]
  indexVectorDim := 1
  wf := scatter_S128x2_S100000x1_S100000x2_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

class Facts : Prop extends Facts₀ where

variable [Facts]
-- ==== Proof.KI.Lin0.lean ====
/-
  Dense layer 0 as a grid of ten row blocks: block t of the input table (10000 rows), the whole weight matrix and
  the whole bias row go in; block t of the output table comes out as the body's one stored value.  This module
  fixes what each staging buffer holds before and after the body at a point and shows the body meets it.
-/
import proofs.«418470_j49907519979654_1_alg».proof.Proof.Gen.KernelIdeal.Launch
import proofs.«418470_j49907519979654_1_alg».proof.Proof.Gen.KernelIdeal.Skeleton
import proofs.«418470_j49907519979654_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, on every core
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S10000x3 := Rect.unit (s := S10000x3) ![0, 0] S10000x3.size inb_S10000x3_S10000x3_0_0
abbrev r0_w : Rect S3x32 := Rect.unit (s := S3x32) ![0, 0] S3x32.size inb_S3x32_S3x32_0_0
abbrev r0_b : Rect S1x32 := Rect.unit (s := S1x32) ![0, 0] S1x32.size inb_S1x32_S1x32_0_0
abbrev r0_o : Rect S10000x32 := Rect.unit (s := S10000x32) ![0, 0] S10000x32.size inb_S10000x32_S10000x32_0_0

/-- The output block the body leaves, from the three input blocks: its one whole-block store. -/
def out0_3 (x0 : Vec F S10000x3 .f32) (x1 : Vec F S3x32 .f32) (x2 : Vec F S1x32 .f32) : Vec F S10000x32 .f32 :=
  View.canon [⟨r0_o, k0_pay1 (View.ld x0 r0_x) (View.ld x1 r0_w) (View.ld x2 r0_b)⟩]

/-- The proof data of this layer's pipeline: arrays as entered; inputs left in place; the output at out0_3. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Input window 0's current staging buffer holds its block at every point, whether or not it is fetched there:
    where it is not fetched its block index has not moved, and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not it is fetched there:
    where it is not fetched its block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not it is fetched there:
    where it is not fetched its block index has not moved, and the body left the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one store is the whole output block, so it covers every index of it. -/
theorem cover0_3 (p0 : Vec F S10000x32 .f32) (y : S10000x32.Idx) :
    ∃ pc ∈ ([⟨r0_o, p0⟩] : List (View.Piece (Elt F) S10000x32 .f32)), y ∈ pc.1.set :=
  View.cover_of_tiled [⟨r0_o, p0⟩] S10000x32.size (by rfl) y

set_option maxHeartbeats 1000000 in
/-- The body on whole staging buffers: the three inputs at contents x0, x1, x2 and the output at anything run to a
    state with the inputs as they were and the output at out0_3 of them.  The three input loads return the
    contents, the load of the output buffer is unused, and the single whole-block store overwrites it. -/
theorem sound_kernel0 (c : Dev nD) (E : Set ℕ) (i : grid0.Coords)
    (arg1 : Memref sig .tc .vmem S10000x3 .f32) (harg1 : arg1.IsWhole) (arg2 : Memref sig .tc .vmem S3x32 .f32) (harg2 : arg2.IsWhole)
    (arg3 : Memref sig .tc .vmem S1x32 .f32) (harg3 : arg3.IsWhole) (arg4 : Memref sig .tc .vmem S10000x32 .f32) (harg4 : arg4.IsWhole)
    (x0 : Vec F S10000x3 .f32) (x1 : Vec F S3x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t: the invariant, what is owed, and the four current staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it returns: the same invariant and debt, and each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and the
    debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Pool.lean ====
/-
  The group read-out as a grid of twenty row blocks.  Two accumulators live beside the pipeline and are carried
  from point to point: a 128 x 2 table of feature sums and a 128 x 1 column of counts.  The first point clears them;
  every point adds its block's contribution (rows selected by comparing each node's group number with 0..127) and
  copies both accumulators into the two output blocks, which the pipeline writes back after the last point.
-/
import proofs.«418470_j49907519979654_1_alg».proof.Proof.Gen.KernelIdeal.Launch
import proofs.«418470_j49907519979654_1_alg».proof.Proof.Gen.KernelIdeal.Skeleton
import proofs.«418470_j49907519979654_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents the region is entered with, on every core
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The two accumulators' memrefs. -/
abbrev scM3_0 : Memref sig .tc .vmem S128x2 .f32 := Memref.whole cc3_scratch0
abbrev scM3_1 : Memref sig .tc .vmem S128x1 .f32 := Memref.whole cc3_scratch1

/-- The two accumulators (sums, counts) after the body at point n: the first point starts from zeros, every later
    point from what the point before left. -/
def accAt3 (c : Dev nD) : (n : ℕ) → n < cfg3.N → Vec F S128x2 .f32 × Vec F S128x1 .f32
  | 0, hn => (k3_pay4 (iblk3 V c 0 ⟨0, hn⟩) (iblk3 V c 1 ⟨0, hn⟩) k3_pay1, k3_pay5 (iblk3 V c 1 ⟨0, hn⟩) k3_pay2)
  | n + 1, hn => (k3_pay4 (iblk3 V c 0 ⟨n + 1, hn⟩) (iblk3 V c 1 ⟨n + 1, hn⟩) (accAt3 c n (Nat.lt_of_succ_lt hn)).1,
      k3_pay5 (iblk3 V c 1 ⟨n + 1, hn⟩) (accAt3 c n (Nat.lt_of_succ_lt hn)).2)

theorem accAt3_zero (c : Dev nD) (hn : 0 < cfg3.N) :
    accAt3 V c 0 hn = (k3_pay4 (iblk3 V c 0 ⟨0, hn⟩) (iblk3 V c 1 ⟨0, hn⟩) k3_pay1, k3_pay5 (iblk3 V c 1 ⟨0, hn⟩) k3_pay2) := rfl

theorem accAt3_succ (c : Dev nD) (n : ℕ) (hn : n + 1 < cfg3.N) :
    accAt3 V c (n + 1) hn = (k3_pay4 (iblk3 V c 0 ⟨n + 1, hn⟩) (iblk3 V c 1 ⟨n + 1, hn⟩) (accAt3 V c n (Nat.lt_of_succ_lt hn)).1,
      k3_pay5 (iblk3 V c 1 ⟨n + 1, hn⟩) (accAt3 V c n (Nat.lt_of_succ_lt hn)).2) := rfl

/-- The region invariant before position n: before the first point every scoped buffer at anything; afterwards the
    two accumulators at what the point before left, every other scoped buffer that is no staging buffer of this
    pipeline at anything, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((accAt3 V c n hn).1) ∗ owns (c : Thread nD τ) scM3_1 fullShare ((accAt3 V c n hn).2))
      ∗ Pipeline.scopedRestBut (Ix := Unit) (Name := ℕ) (U := UR sig nD τ) (Lvl := ℕ) (Val := Elt F) spec3 c [cc3_scratch0, cc3_scratch1]) ∗ (∃ r, prngReg c r))

/-- The proof data of the read-out's pipeline: arrays as entered; inputs left in place; both output blocks at the
    accumulators after the point; the invariant PhiS3; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (accAt3 V c t.val t.isLt).1
    | ⟨3, _⟩ => (accAt3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (accAt3 V c t.val t.isLt).1 := by dsimp only [dat3]
theorem after3_3 (c : Dev nD) (t : Fin cfg3.N) : (dat3 V c).after 3 t = (accAt3 V c t.val t.isLt).2 := by dsimp only [dat3]

/-! ## A whole-buffer store read back -/

theorem zeroOff3 : (![0, 0] : Fin 2 → Nat) = fun _ => 0 := funext fun a => by fin_cases a <;> rfl

/-- What a buffer reads through a view when the LAST store went through the whole-shape rectangle: that store's
    value, whatever the earlier stores and the contents before them. -/
theorem read_store_whole3 {sp : Space} {S : Shape} {e : EltTy} (v : View sig .tc sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩), View.canon_cons_unit_zero hz]

/-! ## The body's one condition -/

/-- The condition of the body's conditional (clear the accumulators), from the grid coordinates. -/
abbrev cond3 (i : grid3.Coords) : Prop := (Scalar.cmpi .ne (Scalar.extui (Scalar.cmpi .eq (BitVec.ofNat 32 (i 0).val) 0#32)) 0#32) = 1#1

/-- It holds at the first point only: decided over the grid's twenty points. -/
theorem hcond3 : ∀ t : Fin cfg3.N, cond3 (grid3.coords t) ↔ t.val = 0 :=
  (by decide +kernel : ∀ t : Fin grid3.N, cond3 (grid3.coords t) ↔ t.val = 0)

/-! ## The whole body, case by case

On whole memrefs — the two input blocks at x0, x1, the two output buffers and the two accumulators at any contents —
the body runs to a state where both input blocks are as they were and each output buffer holds the same as its
accumulator: the block's contribution added to what the accumulator held when the additions began. -/

set_option maxHeartbeats 1000000 in
/-- At the first point the accumulators are cleared first: the additions start from the zero tables. -/
theorem run_reset3 (c : Dev nD) (i : grid3.Coords) (arg1 : Memref sig .tc .vmem S5000x2 .f32) (harg1 : arg1.IsWhole) (arg2 : Memref sig .tc .vmem S5000x1 .i32) (harg2 : arg2.IsWhole) (arg3 : Memref sig .tc .vmem S128x2 .f32) (harg3 : arg3.IsWhole) (arg4 : Memref sig .tc .vmem S128x1 .f32) (harg4 : arg4.IsWhole) (arg5 : Memref sig .tc .vmem S128x2 .f32) (harg5 : arg5.IsWhole) (arg6 : Memref sig .tc .vmem S128x1 .f32) (harg6 : arg6.IsWhole)
    (hc : cond3 i)
    (x0 : Vec F S5000x2 .f32) (x1 : Vec F S5000x1 .i32) (o0 : Vec F S128x2 .f32) (o1 : Vec F S128x1 .f32) (s0 : Vec F S128x2 .f32) (s1 : Vec F S128x1 .f32)
    (E : Set ℕ) (K : PUnit → sProp 𝕄) :
    iprop(owns (c : Thread nD τ) arg1 fullShare x0 ∗ owns (c : Thread nD τ) arg2 fullShare x1 ∗ owns (c : Thread nD τ) arg3 fullShare o0 ∗ owns (c : Thread nD τ) arg4 fullShare o1
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k3_pay4 x0 x1 k3_pay1) ∗ owns (c : Thread nD τ) arg4 fullShare (k3_pay5 x1 k3_pay2)
            ∗ owns (c : Thread nD τ) arg5 fullShare (k3_pay4 x0 x1 k3_pay1) ∗ owns (c : Thread nD τ) arg6 fullShare (k3_pay5 x1 k3_pay2)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  simp only [k3_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hfs0; obtain rfl := harg6.eq_unread hfs1
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_store_whole3 _ _ zeroOff3]
    simp only [View.readAt_eq_ld, harg1.read_unread, harg2.read_unread, harg5.read_unread, harg6.read_unread,
      View.ld_unit_zero (S := S5000x2) zeroOff3, View.ld_unit_zero (S := S5000x1) zeroOff3, View.ld_unit_zero (S := S128x2) zeroOff3,
      View.ld_unit_zero (S := S128x1) zeroOff3, View.readCov_cons_toLoadRect]
  isplitl [H3]
  · iexists _; isplitr
    swap; · iexact H3
    ipureintro
    sl_unfold_words
    rw [read_store_whole3 _ _ zeroOff3]
    simp only [View.readAt_eq_ld, harg1.read_unread, harg2.read_unread, harg5.read_unread, harg6.read_unread,
      View.ld_unit_zero (S := S5000x2) zeroOff3, View.ld_unit_zero (S := S5000x1) zeroOff3, View.ld_unit_zero (S := S128x2) zeroOff3,
      View.ld_unit_zero (S := S128x1) zeroOff3, View.readCov_cons_toLoadRect]
  isplitl [HS0]
  · iexists _; isplitr
    swap; · iexact HS0
    ipureintro
    sl_unfold_words
    rw [read_store_whole3 _ _ zeroOff3]
    simp only [View.readAt_eq_ld, harg1.read_unread, harg2.read_unread, harg5.read_unread, harg6.read_unread,
      View.ld_unit_zero (S := S5000x2) zeroOff3, View.ld_unit_zero (S := S5000x1) zeroOff3, View.ld_unit_zero (S := S128x2) zeroOff3,
      View.ld_unit_zero (S := S128x1) zeroOff3, View.readCov_cons_toLoadRect]
  · iexists _; isplitr
    swap; · iexact HS1
    ipureintro
    sl_unfold_words
    rw [read_store_whole3 _ _ zeroOff3]
    simp only [View.readAt_eq_ld, harg1.read_unread, harg2.read_unread, harg5.read_unread, harg6.read_unread,
      View.ld_unit_zero (S := S5000x2) zeroOff3, View.ld_unit_zero (S := S5000x1) zeroOff3, View.ld_unit_zero (S := S128x2) zeroOff3,
      View.ld_unit_zero (S := S128x1) zeroOff3, View.readCov_cons_toLoadRect]

set_option maxHeartbeats 1000000 in
/-- At every later point nothing is cleared: the additions start from what the accumulators held, s0 and s1. -/
theorem run_acc3 (c : Dev nD) (i : grid3.Coords) (arg1 : Memref sig .tc .vmem S5000x2 .f32) (harg1 : arg1.IsWhole) (arg2 : Memref sig .tc .vmem S5000x1 .i32) (harg2 : arg2.IsWhole) (arg3 : Memref sig .tc .vmem S128x2 .f32) (harg3 : arg3.IsWhole) (arg4 : Memref sig .tc .vmem S128x1 .f32) (harg4 : arg4.IsWhole) (arg5 : Memref sig .tc .vmem S128x2 .f32) (harg5 : arg5.IsWhole) (arg6 : Memref sig .tc .vmem S128x1 .f32) (harg6 : arg6.IsWhole)
    (hc : ¬cond3 i)
    (x0 : Vec F S5000x2 .f32) (x1 : Vec F S5000x1 .i32) (o0 : Vec F S128x2 .f32) (o1 : Vec F S128x1 .f32) (s0 : Vec F S128x2 .f32) (s1 : Vec F S128x1 .f32)
    (E : Set ℕ) (K : PUnit → sProp 𝕄) :
    iprop(owns (c : Thread nD τ) arg1 fullShare x0 ∗ owns (c : Thread nD τ) arg2 fullShare x1 ∗ owns (c : Thread nD τ) arg3 fullShare o0 ∗ owns (c : Thread nD τ) arg4 fullShare o1
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k3_pay4 x0 x1 s0) ∗ owns (c : Thread nD τ) arg4 fullShare (k3_pay5 x1 s1)
            ∗ owns (c : Thread nD τ) arg5 fullShare (k3_pay4 x0 x1 s0) ∗ owns (c : Thread nD τ) arg6 fullShare (k3_pay5 x1 s1)) -∗ K ⟨⟩))
      ⊢ wp frame (wpE (defs₀ (F := F)) Variants.none c none) E (cc3__pool_kernel i arg1 harg1 arg2 harg2 arg3 harg3 arg4 harg4 arg5 harg5 arg6 harg6) K := by
  simp only [cc3__pool_kernel_eq_skeleton]; unfold cc3__pool_kernel_skel
  simp only [k3_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg5.eq_unread hfs0; obtain rfl := harg6.eq_unread hfs1
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_store_whole3 _ _ zeroOff3]
    simp only [View.readAt_eq_ld, harg1.read_unread, harg2.read_unread, harg5.read_unread, harg6.read_unread,
      View.ld_unit_zero (S := S5000x2) zeroOff3, View.ld_unit_zero (S := S5000x1) zeroOff3, View.ld_unit_zero (S := S128x2) zeroOff3,
      View.ld_unit_zero (S := S128x1) zeroOff3, View.readCov_cons_toLoadRect]
  isplitl [H3]
  · iexists _; isplitr
    swap; · iexact H3
    ipureintro
    sl_unfold_words
    rw [read_store_whole3 _ _ zeroOff3]
    simp only [View.readAt_eq_ld, harg1.read_unread, harg2.read_unread, harg5.read_unread, harg6.read_unread,
      View.ld_unit_zero (S := S5000x2) zeroOff3, View.ld_unit_zero (S := S5000x1) zeroOff3, View.ld_unit_zero (S := S128x2) zeroOff3,
      View.ld_unit_zero (S := S128x1) zeroOff3, View.readCov_cons_toLoadRect]
  isplitl [HS0]
  · iexists _; isplitr
    swap; · iexact HS0
    ipureintro
    sl_unfold_words
    rw [read_store_whole3 _ _ zeroOff3]
    simp only [View.readAt_eq_ld, harg1.read_unread, harg2.read_unread, harg5.read_unread, harg6.read_unread,
      View.ld_unit_zero (S := S5000x2) zeroOff3, View.ld_unit_zero (S := S5000x1) zeroOff3, View.ld_unit_zero (S := S128x2) zeroOff3,
      View.ld_unit_zero (S := S128x1) zeroOff3, View.readCov_cons_toLoadRect]
  · iexists _; isplitr
    swap; · iexact HS1
    ipureintro
    sl_unfold_words
    rw [read_store_whole3 _ _ zeroOff3]
    simp only [View.readAt_eq_ld, harg1.read_unread, harg2.read_unread, harg5.read_unread, harg6.read_unread,
      View.ld_unit_zero (S := S5000x2) zeroOff3, View.ld_unit_zero (S := S5000x1) zeroOff3, View.ld_unit_zero (S := S128x2) zeroOff3,
      View.ld_unit_zero (S := S128x1) zeroOff3, View.readCov_cons_toLoadRect]

/-! ## The accumulators point by point -/

theorem accAt3_first (c : Dev nD) (t : Fin cfg3.N) (hz : t.val = 0) :
    accAt3 V c t.val t.isLt = (k3_pay4 (iblk3 V c 0 t) (iblk3 V c 1 t) k3_pay1, k3_pay5 (iblk3 V c 1 t) k3_pay2) := by
  obtain ⟨n, hn⟩ := t
  cases n with
  | zero => rfl
  | succ n => exact absurd hz (Nat.succ_ne_zero n)

theorem accAt3_pos (c : Dev nD) (t : Fin cfg3.N) (hz : t.val ≠ 0) :
    accAt3 V c t.val t.isLt = (k3_pay4 (iblk3 V c 0 t) (iblk3 V c 1 t) (accAt3 V c (t.val - 1) (Nat.lt_of_le_of_lt (Nat.sub_le _ _) t.isLt)).1,
      k3_pay5 (iblk3 V c 1 t) (accAt3 V c (t.val - 1) (Nat.lt_of_le_of_lt (Nat.sub_le _ _) t.isLt)).2) := by
  obtain ⟨n, hn⟩ := t
  cases n with
  | zero => exact absurd rfl hz
  | succ n => rfl

/-! ## The invariant, opened -/

/-- The scoped rest of this pipeline split at its two accumulators; the remainder (the other calls' staging
    buffers) stays unopened. -/
theorem scopedRest3_split (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f))
          ∗ Pipeline.scopedRestBut (Ix := Unit) (Name := ℕ) (U := UR sig nD τ) (Lvl := ℕ) (Val := Elt F) spec3 c [cc3_scratch0, cc3_scratch1]) :=
  Pipeline.scopedRest_split_of_list spec3 c [cc3_scratch0, cc3_scratch1] (by decide) (by decide)

/-- The class invariant with the two accumulators as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((accAt3 V c n hn).1) ∗ owns (c : Thread nD τ) scM3_1 fullShare ((accAt3 V c n hn).2))
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((accAt3 V c (n - 1) (by omega)).1) ∗ owns (c : Thread nD τ) scM3_1 fullShare ((accAt3 V c (n - 1) (by omega)).2))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

theorem PhiS3_castSucc (c : Dev nD) (t : Fin cfg3.N) :
    (dat3 V c).Φ t.castSucc = PhiS3 V c t.val (Nat.le_of_lt t.isLt) := by
  dsimp only [dat3]; simp only [Fin.coe_castSucc]

/-! ## What the body is handed in the two input windows -/

/-- Each input's current staging buffer holds its block at every point. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

/-! ## The body obligation at a point -/

/-- Each window's current staging memref at point t, as the pipeline passes it to the body, and its wholeness. -/
abbrev ms3_0 (t : Fin cfg3.N) : Memref sig .tc .vmem S5000x2 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x2 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x1 .f32 := win3_3.stage (cfg3.slots t 3)
abbrev hs3_3 (t : Fin cfg3.N) : (ms3_3 t).IsWhole := hstage3_3 ((cfg3.slots t 3).cast nbuf3_3)

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

/-- No window of this pipeline is ever idle: each buffer is left at what the proof data names. -/
theorem leaves3_0 (c : Dev nD) (t : Fin cfg3.N) : (dat3 V c).leavesExact 0 t = owns (c : Thread nD τ) (ms3_0 t) fullShare (iblk3 V c 0 t) := by
  show owns (c : Thread nD τ) (ms3_0 t) fullShare ((dat3 V c).after 0 t) = _; rw [after3_0]
theorem leaves3_1 (c : Dev nD) (t : Fin cfg3.N) : (dat3 V c).leavesExact 1 t = owns (c : Thread nD τ) (ms3_1 t) fullShare (iblk3 V c 1 t) := by
  show owns (c : Thread nD τ) (ms3_1 t) fullShare ((dat3 V c).after 1 t) = _; rw [after3_1]
theorem leaves3_2 (c : Dev nD) (t : Fin cfg3.N) : (dat3 V c).leavesExact 2 t = owns (c : Thread nD τ) (ms3_2 t) fullShare ((accAt3 V c t.val t.isLt).1) := by
  show owns (c : Thread nD τ) (ms3_2 t) fullShare ((dat3 V c).after 2 t) = _; rw [after3_2]
theorem leaves3_3 (c : Dev nD) (t : Fin cfg3.N) : (dat3 V c).leavesExact 3 t = owns (c : Thread nD τ) (ms3_3 t) fullShare ((accAt3 V c t.val t.isLt).2) := by
  show owns (c : Thread nD τ) (ms3_3 t) fullShare ((dat3 V c).after 3 t) = _; rw [after3_3]

set_option maxHeartbeats 1600000 in
/-- The body at any point.  The inputs' memrefs hold their blocks; the point is the first or not; the invariant hands
    the body the two accumulators (at anything at the first point, at what the point before left afterwards), the
    body's run for that case applies, and the invariant takes the accumulators back at this point's contents, which
    both output buffers hold as well; the other scoped buffers and the generator register pass through untouched,
    and the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3]
  by_cases hz : t.val = 0
  · rw [accAt3_first V c t hz]; dsimp only
    rw [PhiS3_castSucc V c t, PhiS3_zero V c _ _ hz, PhiA3_eq]
    iintro ⟨⟨⟨⟨⟨%s0, HS0⟩, ⟨%s1, HS1⟩⟩, Hr⟩, Hg⟩, Ho, ⟨%d0, H0⟩, ⟨%d1, H1⟩, ⟨%d2, H2⟩, ⟨%d3, H3⟩⟩
    iapply (run_reset3 c (grid3.coords t) (ms3_0 t) (hs3_0 t) (ms3_1 t) (hs3_1 t) (ms3_2 t) (hs3_2 t) (ms3_3 t) (hs3_3 t) scM3_0 (Memref.isWhole_whole _) scM3_1 (Memref.isWhole_whole _)
      ((hcond3 t).mpr hz) (iblk3 V c 0 t) (iblk3 V c 1 t) _ _ s0 s1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    iexact H3
  · rw [accAt3_pos V c t hz]; dsimp only
    rw [PhiS3_castSucc V c t, PhiS3_pos V c _ _ hz]
    iintro ⟨⟨⟨⟨HS0, HS1⟩, Hr⟩, Hg⟩, Ho, ⟨%d0, H0⟩, ⟨%d1, H1⟩, ⟨%d2, H2⟩, ⟨%d3, H3⟩⟩
    iapply (run_acc3 c (grid3.coords t) (ms3_0 t) (hs3_0 t) (ms3_1 t) (hs3_1 t) (ms3_2 t) (hs3_2 t) (ms3_3 t) (hs3_3 t) scM3_0 (Memref.isWhole_whole _) scM3_1 (Memref.isWhole_whole _)
      (fun h => hz ((hcond3 t).mp h)) (iblk3 V c 0 t) (iblk3 V c 1 t) _ _ _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    iexact H3

/-- The body obligation of the pipeline library, at every point. -/
theorem body_obligation3 (c : Dev nD) : BodyObligation (dat3 (F := F) V c) (defs₀ (F := F)) Variants.none () Set.univ := fun t => by
  rw [bigSep_W3, bigSep_W3]
  exact sound_body3 V c t

/-- The class invariant gives the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives the class invariant back: the accumulators' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The invariant after the last point gives the class invariant back. -/
theorem hout3 (c : Dev nD) : (dat3 V c).Φ (Fin.last cfg3.N) ⊢ Pipeline.ΦA spec3 c :=
  Phi_out3 V c _ (by rw [Fin.val_last]; have : cfg3.N = 20 := N_3; omega)

end Cert.KernelIdeal.Hand

end
-- ==== Proof.KI.Fold.lean ====
/-
  The contents of every unscoped buffer at each boundary between the items of the program: launch memory, then
  alternately a stretch of host operations and a kernel call.  A host stretch's contents are its operations
  applied in order; after a kernel call its window arrays hold what the pipeline's write-backs leave and every
  other buffer is as entered.  Each kernel call's proof data are taken at its entry contents.
-/
import proofs.«418470_j49907519979654_1_alg».proof.Proof.Gen.KernelIdeal.Launch
import proofs.«418470_j49907519979654_1_alg».proof.Proof.Gen.KernelIdeal.Skeleton
import proofs.«418470_j49907519979654_1_alg».proof.Proof.Gen.KernelIdeal.Points
import proofs.«418470_j49907519979654_1_alg».proof.Proof.KI.Lin0
import proofs.«418470_j49907519979654_1_alg».proof.Proof.KI.Lin1
import proofs.«418470_j49907519979654_1_alg».proof.Proof.KI.Lin2
import proofs.«418470_j49907519979654_1_alg».proof.Proof.KI.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m ((c : Dev nD), b)

/-- After the host stretch hostOps0. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At kernel call 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch hostOps1. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At kernel call 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch hostOps2. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At kernel call 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host stretch hostOps3. -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b

/-- At kernel call 3's exit: its arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references. -/
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-- After the host stretch hostOps4. -/
abbrev W9 : Dev nD → Valuation τ sig (Elt F) := fun c => StableHlo.after hostOps4 (W8 m c)
abbrev V9 : (c : Dev nD) → (b : Ref sig .tc) → Buf (Elt F) ((c : Thread nD τ).loc b) := fun c b => W9 m c b

/-! ## The proof data family -/

/-- No kernel call has a prefetched table. -/
abbrev adm : (p : Fin 4) → (pcfgs (F := F) p).Adm := fun p => (cfgs p).toPCfg_adm

/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c

end Cert.KernelIdeal.Hand

end
-- ==== Proof.KI.Run.lean ====
/-
  The run of the whole program as a list of segments: five stretches of host operations and four kernel calls,
  alternating.  Between two segments a core holds every unscoped buffer at that boundary's contents (the fold of
  the launch memory through the items so far), its generator register at some state, and owes nothing.  A kernel
  call splits its window arrays out of the unscoped buffers, runs its pipeline from the entry contents, and puts
  the arrays back at what the write-backs leave.  At the end every unscoped buffer is read off the last contents:
  the result buffer holds the fold's value there and every argument buffer holds what it was launched with.
-/
import proofs.«418470_j49907519979654_1_alg».proof.Proof.KI.Fold
import proofs.«418470_j49907519979654_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arguments end as launched

No host operation writes an argument, and a kernel call either does not touch it or reads it through an input
window, whose array the pipeline leaves as entered. -/

/-- A buffer that no host stretch writes and that every kernel call leaves as entered holds its launch contents
    at the end. -/
theorem W9_keep (c : Dev nD) (r : Ref sig .tc)
    (h0 : r ∉ hostOps0_W) (h1 : r ∉ hostOps1_W) (h2 : r ∉ hostOps2_W) (h3 : r ∉ hostOps3_W) (h4 : r ∉ hostOps4_W)
    (k0 : W2 m c (Proc.devRef .tc r) = W1 m c (Proc.devRef .tc r))
    (k1 : W4 m c (Proc.devRef .tc r) = W3 m c (Proc.devRef .tc r))
    (k2 : W6 m c (Proc.devRef .tc r) = W5 m c (Proc.devRef .tc r))
    (k3 : W8 m c (Proc.devRef .tc r) = W7 m c (Proc.devRef .tc r)) :
    W9 m c (Proc.devRef .tc r) = m ((c : Thread nD τ).loc r) :=
  calc W9 m c (Proc.devRef .tc r)
    _ = W8 m c (Proc.devRef .tc r) := StableHlo.after_of_writes_sub hostOps4 _ hostOps4_writes h4
    _ = W7 m c (Proc.devRef .tc r) := k3
    _ = W6 m c (Proc.devRef .tc r) := StableHlo.after_of_writes_sub hostOps3 _ hostOps3_writes h3
    _ = W5 m c (Proc.devRef .tc r) := k2
    _ = W4 m c (Proc.devRef .tc r) := StableHlo.after_of_writes_sub hostOps2 _ hostOps2_writes h2
    _ = W3 m c (Proc.devRef .tc r) := k1
    _ = W2 m c (Proc.devRef .tc r) := StableHlo.after_of_writes_sub hostOps1 _ hostOps1_writes h1
    _ = W1 m c (Proc.devRef .tc r) := k0
    _ = W0 m c (Proc.devRef .tc r) := StableHlo.after_of_writes_sub hostOps0 _ hostOps0_writes h0
    _ = m ((c : Thread nD τ).loc r) := rfl

theorem W9_main_arg0 (c : Dev nD) : W9 m c (Proc.devRef .tc main_arg0) = m ((c : Thread nD τ).loc main_arg0) :=
  W9_keep m c main_arg0 (by decide) (by decide) (by decide) (by decide) (by decide)
    (W2_of_ne m c _ (by decide)) (W4_of_ne m c _ (by decide)) (W6_of_ne m c _ (by decide)) (W8_of_ne m c _ (by decide))
theorem W9_main_arg1 (c : Dev nD) : W9 m c (Proc.devRef .tc main_arg1) = m ((c : Thread nD τ).loc main_arg1) :=
  W9_keep m c main_arg1 (by decide) (by decide) (by decide) (by decide) (by decide)
    (W2_of_ne m c _ (by decide)) (W4_of_ne m c _ (by decide)) (W6_of_ne m c _ (by decide)) (W8_of_ne m c _ (by decide))
theorem W9_main_arg2 (c : Dev nD) : W9 m c (Proc.devRef .tc main_arg2) = m ((c : Thread nD τ).loc main_arg2) :=
  W9_keep m c main_arg2 (by decide) (by decide) (by decide) (by decide) (by decide)
    (W2_of_ne m c _ (by decide)) (W4_of_ne m c _ (by decide)) (W6_of_ne m c _ (by decide)) (W8_of_ne m c _ (by decide))
/-- The first layer's weight matrix is input window 1 of kernel call 0. -/
theorem W9_main_arg3 (c : Dev nD) : W9 m c (Proc.devRef .tc main_arg3) = m ((c : Thread nD τ).loc main_arg3) :=
  W9_keep m c main_arg3 (by decide) (by decide) (by decide) (by decide) (by decide)
    ((W2_arr m c 1).trans (((dat0 (V1 m) c).arrAt_in 1 rfl _).trans (A_eq0 (V1 m) c 1)))
    (W4_of_ne m c _ (by decide)) (W6_of_ne m c _ (by decide)) (W8_of_ne m c _ (by decide))
theorem W9_main_arg4 (c : Dev nD) : W9 m c (Proc.devRef .tc main_arg4) = m ((c : Thread nD τ).loc main_arg4) :=
  W9_keep m c main_arg4 (by decide) (by decide) (by decide) (by decide) (by decide)
    (W2_of_ne m c _ (by decide)) (W4_of_ne m c _ (by decide)) (W6_of_ne m c _ (by decide)) (W8_of_ne m c _ (by decide))
/-- The second layer's weight matrix is input window 1 of kernel call 1. -/
theorem W9_main_arg5 (c : Dev nD) : W9 m c (Proc.devRef .tc main_arg5) = m ((c : Thread nD τ).loc main_arg5) :=
  W9_keep m c main_arg5 (by decide) (by decide) (by decide) (by decide) (by decide)
    (W2_of_ne m c _ (by decide))
    ((W4_arr m c 1).trans (((dat1 (V3 m) c).arrAt_in 1 rfl _).trans (A_eq1 (V3 m) c 1)))
    (W6_of_ne m c _ (by decide)) (W8_of_ne m c _ (by decide))
theorem W9_main_arg6 (c : Dev nD) : W9 m c (Proc.devRef .tc main_arg6) = m ((c : Thread nD τ).loc main_arg6) :=
  W9_keep m c main_arg6 (by decide) (by decide) (by decide) (by decide) (by decide)
    (W2_of_ne m c _ (by decide)) (W4_of_ne m c _ (by decide)) (W6_of_ne m c _ (by decide)) (W8_of_ne m c _ (by decide))
/-- The third layer's weight matrix is input window 1 of kernel call 2. -/
theorem W9_main_arg7 (c : Dev nD) : W9 m c (Proc.devRef .tc main_arg7) = m ((c : Thread nD τ).loc main_arg7) :=
  W9_keep m c main_arg7 (by decide) (by decide) (by decide) (by decide) (by decide)
    (W2_of_ne m c _ (by decide)) (W4_of_ne m c _ (by decide))
    ((W6_arr m c 1).trans (((dat2 (V5 m) c).arrAt_in 1 rfl _).trans (A_eq2 (V5 m) c 1)))
    (W8_of_ne m c _ (by decide))
theorem W9_main_arg8 (c : Dev nD) : W9 m c (Proc.devRef .tc main_arg8) = m ((c : Thread nD τ).loc main_arg8) :=
  W9_keep m c main_arg8 (by decide) (by decide) (by decide) (by decide) (by decide)
    (W2_of_ne m c _ (by decide)) (W4_of_ne m c _ (by decide)) (W6_of_ne m c _ (by decide)) (W8_of_ne m c _ (by decide))

/-! ## The thread state between segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along; it ends at
    those references at the stretch's operations applied to W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W9 m c) ∗ ∃ r, prngReg c r)

/-! ## The kernel calls as segments -/

set_option backward.isDefEq.respectTransparency.types false in
/-- Kernel call 0 over the thread state: entered from every unscoped buffer at the contents before it, left at
    the contents after it.  Its window arrays are split out of the unscoped buffers and put back at what the
    write-backs leave; the generator register goes into the class invariant and comes back; nothing is owed; the
    kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 1 over the thread state: entered from every unscoped buffer at the contents before it, left at
    the contents after it.  Its window arrays are split out of the unscoped buffers and put back at what the
    write-backs leave; the generator register goes into the class invariant and comes back; nothing is owed; the
    kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 2 over the thread state: entered from every unscoped buffer at the contents before it, left at
    the contents after it.  Its window arrays are split out of the unscoped buffers and put back at what the
    write-backs leave; the generator register goes into the class invariant and comes back; nothing is owed; the
    kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 3 over the thread state: entered from every unscoped buffer at the contents before it, left at
    the contents after it.  Its window arrays are split out of the unscoped buffers and put back at what the
    write-backs leave; the generator register goes into the class invariant and comes back; nothing is owed; the
    kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 3).pre c (fun _ => fullShare) (adm (F := F) 3).1
          ∗ Pipeline.scopedRest (Pipeline.pin (pcfgs (F := F)) adm 3).spec c)
        ⊢ (Pipeline.ΦA spec3 c : sProp 𝕄) := by
      unfold Pipeline.ΦA
      iintro ⟨Hp, -, Hr⟩
      isplitl [Hr]; · iexact Hr
      iexact Hp
    exact hA.trans (hin3 (V7 m) c)
  hout c := by
    rw [Pipeline.ownSems0_none]
    have hA : (Pipeline.ΦA spec3 c : sProp 𝕄)
        ⊢ iprop((∃ r, prngReg c r) ∗ BI.emp ∗ Pipeline.scopedRest (Pipeline.pin (pcfgs (F := F)) adm 3).spec c) := by
      unfold Pipeline.ΦA
      iintro ⟨Hr, Hp⟩
      isplitl [Hp]; · iexact Hp
      isplitr; · iempintro
      iexact Hr
    exact (hout3 (V7 m) c).trans hA
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's nine segments in order: a host segment per stretch from its boundary's contents, a region per
    kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]

/-- The program is the run of the segments: both are the chain of the same nine fragments. -/
theorem main_run (c : Dev nD) : main (F := F) c = Pipeline.Seg.run (segs m) := by
  rewrite [main_chain c, Pipeline.Seg.run_eq_chain,
    show (segs m).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4 ] from rfl]
  rfl

set_option backward.isDefEq.respectTransparency.types false in
/-- At the compiled mesh, from any memory with zero counters, every weakly fair execution of the program on the
    TensorCores terminates, nothing faulting, and every final state holds, in every unscoped buffer, the last
    contents of the fold. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun c =>
        show iprop(StableHlo.held (c : Thread nD τ) (Pipeline.ucRefs τ sig) (W9 m c) ∗ R c)
          ⊢ iprop(Tₙ m c ∗ ∃ W, owes (c : Thread nD τ) (0 : CellTallies nD τ sig Unit) W) from by
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- Every weakly fair execution terminates without fault, the result buffer ends at the fold's last contents and
    every argument buffer as launched. -/
theorem run_value (ρ : Dev nD → PrngReg) : θ_run defs (onTc (τ := τ) (main (F := F))) ⟨m, fun _ => 0, ρ⟩ (fun r => ∀ c : Dev nD,
      r.2.mem ((c.tc : Thread nD τ).loc main_v79) = W9 m c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨h c _ (mem_uc main_v79 (by decide)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c)⟩) (run_all m ρ)

/-- Every weakly fair execution terminates without fault and every argument buffer ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_value m ρ)

end Cert.KernelIdeal.Hand

end
-- ==== Proof.KI.Prefix.lean ====
/-
  The part of the program that depends on the edge list alone, as functions of the 2 x 3200000 edge array:
  the 3300000 source and target numbers (the given edges followed by one self-loop per node), the source numbers
  with negative values wrapped by the node count and laid out as a column (what the row gathers take), the raw
  target numbers as a column (what the scatter-adds take), each node's inverse root degree
  rsqrt (max (number of edges into the node) 1), and each edge's weight: the product of the inverse root degrees
  at its wrapped source and wrapped target.
-/
import proofs.«418470_j49907519979654_1_alg».proof.KernelIdeal
import proofs.«418470_j49907519979654_1_alg».proof.Proof.Gen.KernelIdeal

noncomputable section

namespace Cert.KernelIdeal.Hand

open Cert.KernelIdeal Cert.KernelIdeal.Gen
open Idealize.ShloMosaic Idealize.ShloMosaic.TcCoe Idealize.SL.Sem

variable {F : FTy → Type} [FloatOps F]

/-- Row r of the edge array followed by the node numbers 0 .. 99999. -/
def esrcK (a1 : (⟨S2x3200000, .i32⟩ : BufTy).Contents (Elt F)) : (⟨S3300000, .i32⟩ : BufTy).Contents (Elt F) :=
  concatenate S3300000 0 [⟨S3200000, shapeCast _ (extractStridedSlice S1x3200000 ![0, 0] a1 slices_S2x3200000_S1x3200000_0_0) shapeCasts_S1x3200000_S3200000⟩,
    ⟨S100000, iotaInDim S100000 32 0⟩] concatenates_S3200000_S100000_S3300000_d0

def edstK (a1 : (⟨S2x3200000, .i32⟩ : BufTy).Contents (Elt F)) : (⟨S3300000, .i32⟩ : BufTy).Contents (Elt F) :=
  concatenate S3300000 0 [⟨S3200000, shapeCast _ (extractStridedSlice S1x3200000 ![1, 0] a1 slices_S2x3200000_S1x3200000_1_0) shapeCasts_S1x3200000_S3200000⟩,
    ⟨S100000, iotaInDim S100000 32 0⟩] concatenates_S3200000_S100000_S3300000_d0

/-- A negative number is raised by the node count; the others are kept. -/
def wrapK (v : (⟨S3300000, .i32⟩ : BufTy).Contents (Elt F)) : (⟨S3300000, .i32⟩ : BufTy).Contents (Elt F) :=
  select (cmpi .slt v (broadcastInDim S3300000 ![] bcast_S_S3300000 (constantI S_ 32 0#32)))
    (addi v (broadcastInDim S3300000 ![] bcast_S_S3300000 (constantI S_ 32 100000#32))) v

/-- The wrapped source numbers as a column: the index every row gather takes. -/
def gidxK (a1 : (⟨S2x3200000, .i32⟩ : BufTy).Contents (Elt F)) : (⟨S3300000x1, .i32⟩ : BufTy).Contents (Elt F) :=
  broadcastInDim S3300000x1 ![0] bcast_S3300000_S3300000x1_0 (wrapK (F := F) (esrcK (F := F) a1))

/-- The raw target numbers as a column: the index every scatter-add takes. -/
def didxK (a1 : (⟨S2x3200000, .i32⟩ : BufTy).Contents (Elt F)) : (⟨S3300000x1, .i32⟩ : BufTy).Contents (Elt F) :=
  broadcastInDim S3300000x1 ![0] bcast_S3300000_S3300000x1_0 (edstK (F := F) a1)

/-- Each node's inverse root degree. -/
def dinvK (a1 : (⟨S2x3200000, .i32⟩ : BufTy).Contents (Elt F)) : (⟨S100000, .f32⟩ : BufTy).Contents (Elt F) :=
  Host.rsqrt (maximumf
    (Host.scatterAdd scatter_S100000_S3300000x1_S3300000_n_0_0_1
      (broadcastInDim S100000 ![] bcast_S_S100000 (constant S_ .f32 0x00000000#32))
      (didxK (F := F) a1)
      (broadcastInDim S3300000 ![] bcast_S_S3300000 (constant S_ .f32 0x3F800000#32)))
    (broadcastInDim S100000 ![] bcast_S_S100000 (constant S_ .f32 0x3F800000#32)))

/-- Each edge's weight. -/
def nrmK (a1 : (⟨S2x3200000, .i32⟩ : BufTy).Contents (Elt F)) : (⟨S3300000, .f32⟩ : BufTy).Contents (Elt F) :=
  mulf (Host.gather gather_S100000_S3300000x1_S3300000_n_0_n_n_0_1_1 (dinvK (F := F) a1) (gidxK (F := F) a1))
    (Host.gather gather_S100000_S3300000x1_S3300000_n_0_n_n_0_1_1 (dinvK (F := F) a1)
      (broadcastInDim S3300000x1 ![0] bcast_S3300000_S3300000x1_0 (wrapK (F := F) (edstK (F := F) a1))))

end Cert.KernelIdeal.Hand

end
-- ==== Proof.Spec.lean ====
/-
  The mathematics both programs compute, over the extended reals and arbitrary sizes.

  A graph on N nodes is given by E edges: edge e carries a weight nrm e, reads the node src e, and adds into
  the node whose signed number is dst e (an edge whose target is no node 0..N-1 adds nowhere).  Aggregation sends
  node features h to  agg h n f = sum over the edges e into n of nrm e * h (src e) f.  A dense map is the matrix
  product mm.  One network layer is "aggregate, multiply by the weights, add the bias" (layerK) on one side and
  "multiply by the weights, aggregate, add the bias" (layerR) on the other; the two agree on real-valued data
  because aggregation is linear and acts on the node axis while the weights act on the feature axis.
  The read-out averages the node features over the nodes assigned to each of G groups.
-/
import Idealize.ShloMosaic.PureOps.Ideal

noncomputable section

namespace Cert.Spec

open Idealize.ShloMosaic

/-- Weighted aggregation of node features along the edges. -/
def agg {E N C : ℕ} (nrm : Fin E → EReal) (src : Fin E → Fin N) (dst : Fin E → ℤ)
    (h : Fin N → Fin C → EReal) (n : Fin N) (f : Fin C) : EReal :=
  ∑ e : Fin E, if dst e = (n.val : ℤ) then nrm e * h (src e) f else 0

/-- The matrix product of node features with a weight matrix. -/
def mm {N K C : ℕ} (h : Fin N → Fin K → EReal) (W : Fin K → Fin C → EReal) (n : Fin N) (o : Fin C) : EReal :=
  ∑ k : Fin K, h n k * W k o

/-- A layer that aggregates first and multiplies by the weights after. -/
def layerK {E N K C : ℕ} (nrm : Fin E → EReal) (src : Fin E → Fin N) (dst : Fin E → ℤ)
    (h : Fin N → Fin K → EReal) (W : Fin K → Fin C → EReal) (b : Fin C → EReal) (n : Fin N) (o : Fin C) : EReal :=
  mm (agg nrm src dst h) W n o + b o

/-- A layer that multiplies by the weights first and aggregates after. -/
def layerR {E N K C : ℕ} (nrm : Fin E → EReal) (src : Fin E → Fin N) (dst : Fin E → ℤ)
    (h : Fin N → Fin K → EReal) (W : Fin K → Fin C → EReal) (b : Fin C → EReal) (n : Fin N) (o : Fin C) : EReal :=
  agg nrm src dst (mm h W) n o + b o

/-- The positive part, entry by entry. -/
def relu {N C : ℕ} (h : Fin N → Fin C → EReal) (n : Fin N) (o : Fin C) : EReal := max (h n o) 0

/-- The sum of the features of the nodes assigned to group s. -/
def poolSum {N G C : ℕ} (bat : Fin N → ℤ) (h : Fin N → Fin C → EReal) (s : Fin G) (o : Fin C) : EReal :=
  ∑ n : Fin N, if bat n = (s.val : ℤ) then h n o else 0

/-- The number of nodes assigned to group s. -/
def poolCnt {N G : ℕ} (bat : Fin N → ℤ) (s : Fin G) : EReal :=
  ∑ n : Fin N, if bat n = (s.val : ℤ) then (1 : EReal) else 0

/-- The mean over each group, an empty group's count read as one. -/
def meanPool {N G C : ℕ} (bat : Fin N → ℤ) (h : Fin N → Fin C → EReal) (s : Fin G) (o : Fin C) : EReal :=
  Ideal.div (poolSum bat h s o) (max (poolCnt (G := G) bat s) 1)

/-- Three aggregate-first layers, the first two followed by the positive part, then the group means. -/
def netK {E N G C0 C1 C2 C3 : ℕ} (nrm : Fin E → EReal) (src : Fin E → Fin N) (dst : Fin E → ℤ) (bat : Fin N → ℤ)
    (x : Fin N → Fin C0 → EReal) (W1 : Fin C0 → Fin C1 → EReal) (b1 : Fin C1 → EReal)
    (W2 : Fin C1 → Fin C2 → EReal) (b2 : Fin C2 → EReal) (W3 : Fin C2 → Fin C3 → EReal) (b3 : Fin C3 → EReal) :
    Fin G → Fin C3 → EReal :=
  meanPool bat (layerK nrm src dst (relu (layerK nrm src dst (relu (layerK nrm src dst x W1 b1)) W2 b2)) W3 b3)

/-- The same network with multiply-first layers. -/
def netR {E N G C0 C1 C2 C3 : ℕ} (nrm : Fin E → EReal) (src : Fin E → Fin N) (dst : Fin E → ℤ) (bat : Fin N → ℤ)
    (x : Fin N → Fin C0 → EReal) (W1 : Fin C0 → Fin C1 → EReal) (b1 : Fin C1 → EReal)
    (W2 : Fin C1 → Fin C2 → EReal) (b2 : Fin C2 → EReal) (W3 : Fin C2 → Fin C3 → EReal) (b3 : Fin C3 → EReal) :
    Fin G → Fin C3 → EReal :=
  meanPool bat (layerR nrm src dst (relu (layerR nrm src dst (relu (layerR nrm src dst x W1 b1)) W2 b2)) W3 b3)

/-- Every entry of a table is a real number. -/
def Real2 {N C : ℕ} (h : Fin N → Fin C → EReal) : Prop := ∀ n f, ∃ r : ℝ, h n f = (r : EReal)

/-- Every entry of a vector is a real number. -/
def Real1 {N : ℕ} (v : Fin N → EReal) : Prop := ∀ n, ∃ r : ℝ, v n = (r : EReal)

end Cert.Spec

end
-- ==== Proof.KI.LinVal0.lean ====
/-
  The value of dense layer 0's output table after its call: row n, column o holds the sum over k of
  x (n, k) * w (k, o), plus the bias b (0, o), cut below at zero.  Block t of the output is rows 10000 t .. 10000 t + 9999; the
  ten blocks cover the table.
-/
import proofs.«418470_j49907519979654_1_alg».proof.Proof.KI.Lin0
import proofs.«418470_j49907519979654_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)
open Idealize.ShloMosaic.ValueIdx

/-- The store's rectangle starts at the block's origin. -/
theorem lin0_off_zero : (![0, 0] : Fin 2 → Nat) = fun _ => 0 := funext fun a => by fin_cases a <;> rfl

/-! ## The block product at an index -/

/-- On its row axis the left operand is read at the output's row. -/
theorem lin0_lhs_0 (i : S10000x32.Idx) (q : dot_S10000x3_S3x32_S10000x32_1_0_0_1_n_n.contr.Idx) :
    (dot_S10000x3_S3x32_S10000x32_1_0_0_1_n_n.lhsIdx i q 0).val = (i 0).val := by
  unfold DotDims.lhsIdx
  rw [dif_neg (show ¬(0 : Fin S10000x3.rank) ∈ dot_S10000x3_S3x32_S10000x32_1_0_0_1_n_n.lhsBatch by decide), dif_pos (show (0 : Fin S10000x3.rank) ∈ dot_S10000x3_S3x32_S10000x32_1_0_0_1_n_n.lhsNonContracting by decide)]
  rfl
/-- On its column axis the left operand is read at the summation position. -/
theorem lin0_lhs_1 (i : S10000x32.Idx) (q : dot_S10000x3_S3x32_S10000x32_1_0_0_1_n_n.contr.Idx) :
    (dot_S10000x3_S3x32_S10000x32_1_0_0_1_n_n.lhsIdx i q 1).val = (q ⟨0, by decide⟩).val :=
  dot_S10000x3_S3x32_S10000x32_1_0_0_1_n_n.lhsIdx_val_of_single rfl i q
/-- On its row axis the right operand is read at the summation position. -/
theorem lin0_rhs_0 (i : S10000x32.Idx) (q : dot_S10000x3_S3x32_S10000x32_1_0_0_1_n_n.contr.Idx) :
    (dot_S10000x3_S3x32_S10000x32_1_0_0_1_n_n.rhsIdx i q 0).val = (q ⟨0, by decide⟩).val :=
  dot_S10000x3_S3x32_S10000x32_1_0_0_1_n_n.rhsIdx_val_of_single rfl i q
/-- On its column axis the right operand is read at the output's column. -/
theorem lin0_rhs_1 (i : S10000x32.Idx) (q : dot_S10000x3_S3x32_S10000x32_1_0_0_1_n_n.contr.Idx) :
    (dot_S10000x3_S3x32_S10000x32_1_0_0_1_n_n.rhsIdx i q 1).val = (i 1).val := by
  unfold DotDims.rhsIdx
  rw [dif_neg (show ¬(1 : Fin S3x32.rank) ∈ dot_S10000x3_S3x32_S10000x32_1_0_0_1_n_n.rhsBatch by decide), dif_pos (show (1 : Fin S3x32.rank) ∈ dot_S10000x3_S3x32_S10000x32_1_0_0_1_n_n.rhsNonContracting by decide)]
  rfl

/-- The block product into a zero accumulator, at row p and column q: the sum over k of l (p, k) * r (k, q). -/
theorem lin0_matmul_apply (l : FVec Ideal S10000x3 .bf16) (r : FVec Ideal S3x32 .bf16) (p : Fin 10000) (q : Fin 32) :
    FloatOps.matmul dot_S10000x3_S3x32_S10000x32_1_0_0_1_n_n none l r (constant (F := Ideal) S10000x32 .f32 0x00000000#32) (ix2 p q)
      = ∑ k : Fin 3, l (ix2 p k) * r (ix2 k q) := by
  rw [Ideal.matmul_constant_zero_apply, ← Equiv.sum_comp (ValueIdx.contrEquiv1 dot_S10000x3_S3x32_S10000x32_1_0_0_1_n_n 3 rfl rfl).symm]
  refine Finset.sum_congr rfl fun k _ => ?_
  have hk := ValueIdx.contrEquiv1_symm_val dot_S10000x3_S3x32_S10000x32_1_0_0_1_n_n 3 rfl rfl k
  have el : dot_S10000x3_S3x32_S10000x32_1_0_0_1_n_n.lhsIdx (ix2 p q) ((ValueIdx.contrEquiv1 dot_S10000x3_S3x32_S10000x32_1_0_0_1_n_n 3 rfl rfl).symm k) = ix2 p k := funext fun a => Fin.ext (by
    match a with
    | ⟨0, _⟩ => exact lin0_lhs_0 _ _
    | ⟨1, _⟩ => exact (lin0_lhs_1 _ _).trans hk)
  have er : dot_S10000x3_S3x32_S10000x32_1_0_0_1_n_n.rhsIdx (ix2 p q) ((ValueIdx.contrEquiv1 dot_S10000x3_S3x32_S10000x32_1_0_0_1_n_n 3 rfl rfl).symm k) = ix2 k q := funext fun a => Fin.ext (by
    match a with
    | ⟨0, _⟩ => exact (lin0_rhs_0 _ _).trans hk
    | ⟨1, _⟩ => exact lin0_rhs_1 _ _)
  rw [el, er]

/-- The body's stored value at row p and column q of the block: the product of the input block with the weights
    there, plus the bias row's entry of that column, cut below at zero.  The change of float format is the identity
    on extended reals and the two casts are to the same shape. -/
theorem lin0_pay_apply (x0 : Vec Ideal S10000x3 .f32) (x1 : Vec Ideal S3x32 .f32) (x2 : Vec Ideal S1x32 .f32)
    (p : Fin 10000) (q : Fin 32) :
    k0_pay1 (F := Ideal) x0 x1 x2 (ix2 p q) = max ((∑ k : Fin 3, x0 (ix2 p k) * x1 (ix2 k q)) + x2 (ix2 0 q)) 0 := by
  unfold k0_pay1
  simp only [shapeCast_self]
  refine (maximumf_apply _ _ (ix2 p q)).trans ?_
  rw [broadcast_apply, addf_apply]
  refine congrArg₂ max (congrArg₂ (· + ·) ?_ ?_) Ideal.ofBits_zero_f32
  · exact lin0_matmul_apply _ _ p q
  · exact broadcastTo_1b_ab_apply x2 broadcasts_S1x32_S10000x32 p q

/-! ## The output table as one function, and each block of it -/

/-- The layer's output table as one function of the three input tables: row n, column o holds the product of
    the node table with the weights there, plus the bias of column o, cut below at zero. -/
def denseOut0 (x : S100000x3.Idx → EReal) (w : S3x32.Idx → EReal) (b : S1x32.Idx → EReal) : S100000x32.Idx → EReal :=
  fun i => max (Cert.Spec.mm (fun n k => x (ix2 n k)) (fun k o => w (ix2 k o)) ⟨(i 0).val, idx2_lt0 i⟩ ⟨(i 1).val, idx2_lt1 i⟩
    + b (ix2 0 ⟨(i 1).val, idx2_lt1 i⟩)) 0

/-- The body's value on a block of rows that starts at row 10000 r is the table's function on those rows: a row
    of the product reads only that row of the left operand. -/
theorem lin0_block_apply (x : S100000x3.Idx → EReal) (w : S3x32.Idx → EReal) (b : S1x32.Idx → EReal)
    (xb : Vec Ideal S10000x3 .f32) (wb : Vec Ideal S3x32 .f32) (bb : Vec Ideal S1x32 .f32) (r : ℕ)
    (hxb : ∀ (p : Fin 10000) (k : Fin 3) (n : Fin 100000), n.val = 10000 * r + p.val → xb (ix2 p k) = x (ix2 n k))
    (hwb : wb = w) (hbb : bb = b) (p : Fin 10000) (q : Fin 32) (i : S100000x32.Idx)
    (hi0 : (i 0).val = 10000 * r + p.val) (hi1 : (i 1).val = q.val) :
    k0_pay1 (F := Ideal) xb wb bb (ix2 p q) = denseOut0 x w b i := by
  rw [lin0_pay_apply, hwb, hbb]
  unfold denseOut0 Cert.Spec.mm
  have e1 : (⟨(i 1).val, idx2_lt1 i⟩ : Fin 32) = q := Fin.ext hi1
  rw [e1]
  refine congrArg₂ max (congrArg₂ (· + ·) (Finset.sum_congr rfl fun k _ => ?_) rfl) rfl
  show xb (ix2 p k) * w (ix2 k q) = x (ix2 ⟨(i 0).val, idx2_lt0 i⟩ k) * w (ix2 k q)
  rw [hxb p k ⟨(i 0).val, idx2_lt0 i⟩ hi0]

/-- The printed index maps, decided over the ten points: the node table's and the output's block index is the
    point's number on the row axis and zero on the column axis; the weights and the bias row stay at block zero. -/
theorem lin0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b)) (c : Dev nD)
variable (x : S100000x3.Idx → EReal) (w : S3x32.Idx → EReal) (b : S1x32.Idx → EReal)

/-- The node table's block at point t is its rows 10000 t .. 10000 t + 9999. -/
theorem lin0_xblk_apply (hx : V c main_v41 = x) (t : Fin cfg0.N) (p : Fin 10000) (k : Fin 3) (n : Fin 100000)
    (hn : n.val = 10000 * t.val + p.val) :
    (iblk0 (F := Ideal) V c 0 t : Vec Ideal S10000x3 .f32) (ix2 p k) = x (ix2 n k) := by
  obtain ⟨e0, e1, -⟩ := lin0_idx_facts t
  unfold iblk0
  rw [View.read_apply]
  show V c main_v41 _ = x _
  rw [hx]
  congr 1
  funext a
  apply Fin.ext
  match a with
  | ⟨0, _⟩ => show win0_0.index t (0 : Fin 2) * 10000 + 1 * p.val = n.val; rw [e0, hn]; omega
  | ⟨1, _⟩ => show win0_0.index t (1 : Fin 2) * 3 + 1 * k.val = k.val; rw [e1]; omega

/-- The weights' block at every point is the whole matrix. -/
theorem lin0_wblk_eq (hw : V c main_arg3 = w) (t : Fin cfg0.N) :
    (iblk0 (F := Ideal) V c 1 t : Vec Ideal S3x32 .f32) = w := by
  obtain ⟨-, -, e0, e1, -⟩ := lin0_idx_facts t
  funext y
  unfold iblk0
  rw [View.read_apply]
  show V c main_arg3 _ = w y
  rw [hw]
  congr 1
  funext a
  apply Fin.ext
  match a with
  | ⟨0, _⟩ => show win0_1.index t (0 : Fin 2) * 3 + 1 * (y 0).val = (y 0).val; rw [e0]; omega
  | ⟨1, _⟩ => show win0_1.index t (1 : Fin 2) * 32 + 1 * (y 1).val = (y 1).val; rw [e1]; omega

/-- The bias row's block at every point is the whole row. -/
theorem lin0_bblk_eq (hb : V c main_v42 = b) (t : Fin cfg0.N) :
    (iblk0 (F := Ideal) V c 2 t : Vec Ideal S1x32 .f32) = b := by
  obtain ⟨-, -, -, -, e0, e1, -⟩ := lin0_idx_facts t
  funext y
  unfold iblk0
  rw [View.read_apply]
  show V c main_v42 _ = b y
  rw [hb]
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

/-- What point t writes back is block t of the table's function. -/
theorem lin0_flushed_eq (hx : V c main_v41 = x) (hw : V c main_arg3 = w) (hb : V c main_v42 = b) (t : Fin cfg0.N) :
    (dat0 (F := Ideal) V c).flushed 3 t = ((cfg0.win 3).blk t).view.read (Elt Ideal) (denseOut0 x w b) := by
  show (cfg0.win 3).cut (grid0.coords t) ((dat0 (F := Ideal) V c).after 3 t) = _
  rw [after0_3]
  unfold out0_3
  rw [View.canon_unit_zero lin0_off_zero]
  simp only [View.ld_unit_zero (S := S10000x3) lin0_off_zero, View.ld_unit_zero (S := S3x32) lin0_off_zero,
    View.ld_unit_zero (S := S1x32) lin0_off_zero]
  obtain ⟨-, -, -, -, -, -, e0, e1⟩ := lin0_idx_facts t
  funext j
  obtain ⟨p, q, rfl⟩ : ∃ (p : Fin 10000) (q : Fin 32), j = ix2 p q := ⟨j 0, j 1, eq_ix2 j⟩
  show k0_pay1 (F := Ideal) (iblk0 (F := Ideal) V c 0 t) (iblk0 (F := Ideal) V c 1 t) (iblk0 (F := Ideal) V c 2 t) (ix2 p q)
    = denseOut0 x w b (((cfg0.win 3).blk t).view.emb (ix2 p q))
  refine lin0_block_apply x w b (iblk0 (F := Ideal) V c 0 t) (iblk0 (F := Ideal) V c 1 t) (iblk0 (F := Ideal) V c 2 t) t.val
    (fun p k n hn => lin0_xblk_apply V c x hx t p k n hn) (lin0_wblk_eq V c w hw t) (lin0_bblk_eq V c b hb t) p q
    (((cfg0.win 3).blk t).view.emb (ix2 p q)) ?_ ?_
  · show win0_3.index t (0 : Fin 2) * 10000 + 1 * p.val = 10000 * t.val + p.val; rw [e0]; omega
  · show win0_3.index t (1 : Fin 2) * 32 + 1 * q.val = q.val; rw [e1]; omega

end

/-! ## From the ten blocks to the table -/

/-- An index of the table is in point t's block iff each coordinate is in the block's range on its axis. -/
theorem lin0_mem_blk (t : Fin cfg0.N) (i : S100000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v43).slice (win0_3.rect t)).set ↔ _
  rw [View.set_slice_whole, Rect.mem_set_unit]
  exact Iff.rfl

/-- Row r of the table lies in the block of point r / 10000, which is written back. -/
theorem lin0_cover (i : S100000x32.Idx) :
    ∃ t : Fin cfg0.N, (cfg0.win 3).flush t = true ∧ i ∈ ((cfg0.win 3).blk t).view.set := by
  have hi0 : (i 0).val < 100000 := idx2_lt0 i
  have hi1 : (i 1).val < 32 := idx2_lt1 i
  have hN : cfg0.N = 10 := N_0
  let t : Fin cfg0.N := ⟨(i 0).val / 10000, by rw [hN]; omega⟩
  obtain ⟨-, -, -, -, -, -, e0, e1⟩ := lin0_idx_facts t
  have ht : t.val = (i 0).val / 10000 := rfl
  refine ⟨t, flush0_3 t, ?_⟩
  rw [lin0_mem_blk]
  intro a
  match a with
  | ⟨0, _⟩ =>
    show win0_3.index t (0 : Fin 2) * 10000 ≤ (i 0).val ∧ (i 0).val < win0_3.index t (0 : Fin 2) * 10000 + 10000
    rw [e0, ht]; omega
  | ⟨1, _⟩ =>
    show win0_3.index t (1 : Fin 2) * 32 ≤ (i 1).val ∧ (i 1).val < win0_3.index t (1 : Fin 2) * 32 + 32
    rw [e1]; omega

/-- The output table after the call is the table's function of the three input tables. -/
theorem lin0_final (V : (c : Dev nD) → (b : Ref sig .tc) → Buf (Elt Ideal) ((c : Thread nD τ).loc b)) (c : Dev nD)
    (x : S100000x3.Idx → EReal) (w : S3x32.Idx → EReal) (b : S1x32.Idx → EReal)
    (hx : V c main_v41 = x) (hw : V c main_arg3 = w) (hb : V c main_v42 = b) :
    (dat0 (F := Ideal) V c).arrAt 3 cfg0.N = denseOut0 x w b :=
  (dat0 (F := Ideal) V c).arrAt_eq_of_cover 3 (denseOut0 x w b) (fun t _ => lin0_flushed_eq V c x w b hx hw hb t) lin0_cover

theorem lin_val0 (V : (c : Dev nD) → (b : Ref sig .tc) → Buf (Elt Ideal) ((c : Thread nD τ).loc b)) (c : Dev nD)
    (x : S100000x3.Idx → EReal) (w : S3x32.Idx → EReal) (b : S1x32.Idx → EReal)
    (hx : V c main_v41 = x) (hw : V c main_arg3 = w) (hb : V c main_v42 = b) (n : Fin 100000) (o : Fin 32) :
    (dat0 (F := Ideal) V c).arrAt 3 cfg0.N (ValueIdx.ix2 n o)
      = max (Cert.Spec.mm (fun n k => x (ValueIdx.ix2 n k)) (fun k o => w (ValueIdx.ix2 k o)) n o + b (ValueIdx.ix2 0 o)) 0 := by
  rw [lin0_final V c x w b hx hw hb]
  rfl

end Cert.KernelIdeal.Hand

end
-- ==== Proof.KI.LinVal2.lean ====
/-
  The value of dense layer 2's output table after its call: row n, column o holds the sum over k of
  x (n, k) * w (k, o), plus the bias b (0, o); this last layer has no cut at zero.  Block t of the output is rows
  10000 t .. 10000 t + 9999; the ten blocks cover the table.
-/
import proofs.«418470_j49907519979654_1_alg».proof.Proof.KI.Lin2
import proofs.«418470_j49907519979654_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)
open Idealize.ShloMosaic.ValueIdx

/-- The store's rectangle starts at the block's origin. -/
theorem lin2_off_zero : (![0, 0] : Fin 2 → Nat) = fun _ => 0 := funext fun a => by fin_cases a <;> rfl

/-! ## The block product at an index -/

/-- On its row axis the left operand is read at the output's row. -/
theorem lin2_lhs_0 (i : S10000x2.Idx) (q : dot_S10000x64_S64x2_S10000x2_1_0_0_1_n_n.contr.Idx) :
    (dot_S10000x64_S64x2_S10000x2_1_0_0_1_n_n.lhsIdx i q 0).val = (i 0).val := by
  unfold DotDims.lhsIdx
  rw [dif_neg (show ¬(0 : Fin S10000x64.rank) ∈ dot_S10000x64_S64x2_S10000x2_1_0_0_1_n_n.lhsBatch by decide), dif_pos (show (0 : Fin S10000x64.rank) ∈ dot_S10000x64_S64x2_S10000x2_1_0_0_1_n_n.lhsNonContracting by decide)]
  rfl
/-- On its column axis the left operand is read at the summation position. -/
theorem lin2_lhs_1 (i : S10000x2.Idx) (q : dot_S10000x64_S64x2_S10000x2_1_0_0_1_n_n.contr.Idx) :
    (dot_S10000x64_S64x2_S10000x2_1_0_0_1_n_n.lhsIdx i q 1).val = (q ⟨0, by decide⟩).val :=
  dot_S10000x64_S64x2_S10000x2_1_0_0_1_n_n.lhsIdx_val_of_single rfl i q
/-- On its row axis the right operand is read at the summation position. -/
theorem lin2_rhs_0 (i : S10000x2.Idx) (q : dot_S10000x64_S64x2_S10000x2_1_0_0_1_n_n.contr.Idx) :
    (dot_S10000x64_S64x2_S10000x2_1_0_0_1_n_n.rhsIdx i q 0).val = (q ⟨0, by decide⟩).val :=
  dot_S10000x64_S64x2_S10000x2_1_0_0_1_n_n.rhsIdx_val_of_single rfl i q
/-- On its column axis the right operand is read at the output's column. -/
theorem lin2_rhs_1 (i : S10000x2.Idx) (q : dot_S10000x64_S64x2_S10000x2_1_0_0_1_n_n.contr.Idx) :
    (dot_S10000x64_S64x2_S10000x2_1_0_0_1_n_n.rhsIdx i q 1).val = (i 1).val := by
  unfold DotDims.rhsIdx
  rw [dif_neg (show ¬(1 : Fin S64x2.rank) ∈ dot_S10000x64_S64x2_S10000x2_1_0_0_1_n_n.rhsBatch by decide), dif_pos (show (1 : Fin S64x2.rank) ∈ dot_S10000x64_S64x2_S10000x2_1_0_0_1_n_n.rhsNonContracting by decide)]
  rfl

/-- The block product into a zero accumulator, at row p and column q: the sum over k of l (p, k) * r (k, q). -/
theorem lin2_matmul_apply (l : FVec Ideal S10000x64 .bf16) (r : FVec Ideal S64x2 .bf16) (p : Fin 10000) (q : Fin 2) :
    FloatOps.matmul dot_S10000x64_S64x2_S10000x2_1_0_0_1_n_n none l r (constant (F := Ideal) S10000x2 .f32 0x00000000#32) (ix2 p q)
      = ∑ k : Fin 64, l (ix2 p k) * r (ix2 k q) := by
  rw [Ideal.matmul_constant_zero_apply, ← Equiv.sum_comp (ValueIdx.contrEquiv1 dot_S10000x64_S64x2_S10000x2_1_0_0_1_n_n 64 rfl rfl).symm]
  refine Finset.sum_congr rfl fun k _ => ?_
  have hk := ValueIdx.contrEquiv1_symm_val dot_S10000x64_S64x2_S10000x2_1_0_0_1_n_n 64 rfl rfl k
  have el : dot_S10000x64_S64x2_S10000x2_1_0_0_1_n_n.lhsIdx (ix2 p q) ((ValueIdx.contrEquiv1 dot_S10000x64_S64x2_S10000x2_1_0_0_1_n_n 64 rfl rfl).symm k) = ix2 p k := funext fun a => Fin.ext (by
    match a with
    | ⟨0, _⟩ => exact lin2_lhs_0 _ _
    | ⟨1, _⟩ => exact (lin2_lhs_1 _ _).trans hk)
  have er : dot_S10000x64_S64x2_S10000x2_1_0_0_1_n_n.rhsIdx (ix2 p q) ((ValueIdx.contrEquiv1 dot_S10000x64_S64x2_S10000x2_1_0_0_1_n_n 64 rfl rfl).symm k) = ix2 k q := funext fun a => Fin.ext (by
    match a with
    | ⟨0, _⟩ => exact (lin2_rhs_0 _ _).trans hk
    | ⟨1, _⟩ => exact lin2_rhs_1 _ _)
  rw [el, er]

/-- The body's stored value at row p and column q of the block: the product of the input block with the weights
    there, plus the bias row's entry of that column.  The change of float format is the identity on extended reals
    and the two casts are to the same shape. -/
theorem lin2_pay_apply (x0 : Vec Ideal S10000x64 .f32) (x1 : Vec Ideal S64x2 .f32) (x2 : Vec Ideal S1x2 .f32)
    (p : Fin 10000) (q : Fin 2) :
    k2_pay1 (F := Ideal) x0 x1 x2 (ix2 p q) = (∑ k : Fin 64, x0 (ix2 p k) * x1 (ix2 k q)) + x2 (ix2 0 q) := by
  unfold k2_pay1
  simp only [shapeCast_self]
  refine (addf_apply _ _ (ix2 p q)).trans ?_
  refine congrArg₂ (· + ·) ?_ ?_
  · exact lin2_matmul_apply _ _ p q
  · exact broadcastTo_1b_ab_apply x2 broadcasts_S1x2_S10000x2 p q

/-! ## The output table as one function, and each block of it -/

/-- The layer's output table as one function of the three input tables: row n, column o holds the product of
    the node table with the weights there, plus the bias of column o. -/
def denseOut2 (x : S100000x64.Idx → EReal) (w : S64x2.Idx → EReal) (b : S1x2.Idx → EReal) : S100000x2.Idx → EReal :=
  fun i => Cert.Spec.mm (fun n k => x (ix2 n k)) (fun k o => w (ix2 k o)) ⟨(i 0).val, idx2_lt0 i⟩ ⟨(i 1).val, idx2_lt1 i⟩
    + b (ix2 0 ⟨(i 1).val, idx2_lt1 i⟩)

/-- The body's value on a block of rows that starts at row 10000 r is the table's function on those rows: a row
    of the product reads only that row of the left operand. -/
theorem lin2_block_apply (x : S100000x64.Idx → EReal) (w : S64x2.Idx → EReal) (b : S1x2.Idx → EReal)
    (xb : Vec Ideal S10000x64 .f32) (wb : Vec Ideal S64x2 .f32) (bb : Vec Ideal S1x2 .f32) (r : ℕ)
    (hxb : ∀ (p : Fin 10000) (k : Fin 64) (n : Fin 100000), n.val = 10000 * r + p.val → xb (ix2 p k) = x (ix2 n k))
    (hwb : wb = w) (hbb : bb = b) (p : Fin 10000) (q : Fin 2) (i : S100000x2.Idx)
    (hi0 : (i 0).val = 10000 * r + p.val) (hi1 : (i 1).val = q.val) :
    k2_pay1 (F := Ideal) xb wb bb (ix2 p q) = denseOut2 x w b i := by
  rw [lin2_pay_apply, hwb, hbb]
  unfold denseOut2 Cert.Spec.mm
  have e1 : (⟨(i 1).val, idx2_lt1 i⟩ : Fin 2) = q := Fin.ext hi1
  rw [e1]
  refine congrArg₂ (· + ·) (Finset.sum_congr rfl fun k _ => ?_) rfl
  show xb (ix2 p k) * w (ix2 k q) = x (ix2 ⟨(i 0).val, idx2_lt0 i⟩ k) * w (ix2 k q)
  rw [hxb p k ⟨(i 0).val, idx2_lt0 i⟩ hi0]

/-- The printed index maps, decided over the ten points: the node table's and the output's block index is the
    point's number on the row axis and zero on the column axis; the weights and the bias row stay at block zero. -/
theorem lin2_idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b)) (c : Dev nD)
variable (x : S100000x64.Idx → EReal) (w : S64x2.Idx → EReal) (b : S1x2.Idx → EReal)

/-- The node table's block at point t is its rows 10000 t .. 10000 t + 9999. -/
theorem lin2_xblk_apply (hx : V c main_v71 = x) (t : Fin cfg2.N) (p : Fin 10000) (k : Fin 64) (n : Fin 100000)
    (hn : n.val = 10000 * t.val + p.val) :
    (iblk2 (F := Ideal) V c 0 t : Vec Ideal S10000x64 .f32) (ix2 p k) = x (ix2 n k) := by
  obtain ⟨e0, e1, -⟩ := lin2_idx_facts t
  unfold iblk2
  rw [View.read_apply]
  show V c main_v71 _ = x _
  rw [hx]
  congr 1
  funext a
  apply Fin.ext
  match a with
  | ⟨0, _⟩ => show win2_0.index t (0 : Fin 2) * 10000 + 1 * p.val = n.val; rw [e0, hn]; omega
  | ⟨1, _⟩ => show win2_0.index t (1 : Fin 2) * 64 + 1 * k.val = k.val; rw [e1]; omega

/-- The weights' block at every point is the whole matrix. -/
theorem lin2_wblk_eq (hw : V c main_arg7 = w) (t : Fin cfg2.N) :
    (iblk2 (F := Ideal) V c 1 t : Vec Ideal S64x2 .f32) = w := by
  obtain ⟨-, -, e0, e1, -⟩ := lin2_idx_facts t
  funext y
  unfold iblk2
  rw [View.read_apply]
  show V c main_arg7 _ = w y
  rw [hw]
  congr 1
  funext a
  apply Fin.ext
  match a with
  | ⟨0, _⟩ => show win2_1.index t (0 : Fin 2) * 64 + 1 * (y 0).val = (y 0).val; rw [e0]; omega
  | ⟨1, _⟩ => show win2_1.index t (1 : Fin 2) * 2 + 1 * (y 1).val = (y 1).val; rw [e1]; omega

/-- The bias row's block at every point is the whole row. -/
theorem lin2_bblk_eq (hb : V c main_v72 = b) (t : Fin cfg2.N) :
    (iblk2 (F := Ideal) V c 2 t : Vec Ideal S1x2 .f32) = b := by
  obtain ⟨-, -, -, -, e0, e1, -⟩ := lin2_idx_facts t
  funext y
  unfold iblk2
  rw [View.read_apply]
  show V c main_v72 _ = b y
  rw [hb]
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 2 + 1 * (y 1).val = (y 1).val; rw [e1]; omega

/-- What point t writes back is block t of the table's function. -/
theorem lin2_flushed_eq (hx : V c main_v71 = x) (hw : V c main_arg7 = w) (hb : V c main_v72 = b) (t : Fin cfg2.N) :
    (dat2 (F := Ideal) V c).flushed 3 t = ((cfg2.win 3).blk t).view.read (Elt Ideal) (denseOut2 x w b) := by
  show (cfg2.win 3).cut (grid2.coords t) ((dat2 (F := Ideal) V c).after 3 t) = _
  rw [after2_3]
  unfold out2_3
  rw [View.canon_unit_zero lin2_off_zero]
  simp only [View.ld_unit_zero (S := S10000x64) lin2_off_zero, View.ld_unit_zero (S := S64x2) lin2_off_zero,
    View.ld_unit_zero (S := S1x2) lin2_off_zero]
  obtain ⟨-, -, -, -, -, -, e0, e1⟩ := lin2_idx_facts t
  funext j
  obtain ⟨p, q, rfl⟩ : ∃ (p : Fin 10000) (q : Fin 2), j = ix2 p q := ⟨j 0, j 1, eq_ix2 j⟩
  show k2_pay1 (F := Ideal) (iblk2 (F := Ideal) V c 0 t) (iblk2 (F := Ideal) V c 1 t) (iblk2 (F := Ideal) V c 2 t) (ix2 p q)
    = denseOut2 x w b (((cfg2.win 3).blk t).view.emb (ix2 p q))
  refine lin2_block_apply x w b (iblk2 (F := Ideal) V c 0 t) (iblk2 (F := Ideal) V c 1 t) (iblk2 (F := Ideal) V c 2 t) t.val
    (fun p k n hn => lin2_xblk_apply V c x hx t p k n hn) (lin2_wblk_eq V c w hw t) (lin2_bblk_eq V c b hb t) p q
    (((cfg2.win 3).blk t).view.emb (ix2 p q)) ?_ ?_
  · show win2_3.index t (0 : Fin 2) * 10000 + 1 * p.val = 10000 * t.val + p.val; rw [e0]; omega
  · show win2_3.index t (1 : Fin 2) * 2 + 1 * q.val = q.val; rw [e1]; omega

end

/-! ## From the ten blocks to the table -/

/-- An index of the table is in point t's block iff each coordinate is in the block's range on its axis. -/
theorem lin2_mem_blk (t : Fin cfg2.N) (i : S100000x2.Idx) :
    i ∈ ((cfg2.win 3).blk t).view.set ↔ ∀ a : Fin 2, win2_3.index t a * S10000x2.size a ≤ (i a).val
      ∧ (i a).val < win2_3.index t a * S10000x2.size a + S10000x2.size a := by
  show i ∈ ((View.whole main_v73).slice (win2_3.rect t)).set ↔ _
  rw [View.set_slice_whole, Rect.mem_set_unit]
  exact Iff.rfl

/-- Row r of the table lies in the block of point r / 10000, which is written back. -/
theorem lin2_cover (i : S100000x2.Idx) :
    ∃ t : Fin cfg2.N, (cfg2.win 3).flush t = true ∧ i ∈ ((cfg2.win 3).blk t).view.set := by
  have hi0 : (i 0).val < 100000 := idx2_lt0 i
  have hi1 : (i 1).val < 2 := idx2_lt1 i
  have hN : cfg2.N = 10 := N_2
  let t : Fin cfg2.N := ⟨(i 0).val / 10000, by rw [hN]; omega⟩
  obtain ⟨-, -, -, -, -, -, e0, e1⟩ := lin2_idx_facts t
  have ht : t.val = (i 0).val / 10000 := rfl
  refine ⟨t, flush2_3 t, ?_⟩
  rw [lin2_mem_blk]
  intro a
  match a with
  | ⟨0, _⟩ =>
    show win2_3.index t (0 : Fin 2) * 10000 ≤ (i 0).val ∧ (i 0).val < win2_3.index t (0 : Fin 2) * 10000 + 10000
    rw [e0, ht]; omega
  | ⟨1, _⟩ =>
    show win2_3.index t (1 : Fin 2) * 2 ≤ (i 1).val ∧ (i 1).val < win2_3.index t (1 : Fin 2) * 2 + 2
    rw [e1]; omega

/-- The output table after the call is the table's function of the three input tables. -/
theorem lin2_final (V : (c : Dev nD) → (b : Ref sig .tc) → Buf (Elt Ideal) ((c : Thread nD τ).loc b)) (c : Dev nD)
    (x : S100000x64.Idx → EReal) (w : S64x2.Idx → EReal) (b : S1x2.Idx → EReal)
    (hx : V c main_v71 = x) (hw : V c main_arg7 = w) (hb : V c main_v72 = b) :
    (dat2 (F := Ideal) V c).arrAt 3 cfg2.N = denseOut2 x w b :=
  (dat2 (F := Ideal) V c).arrAt_eq_of_cover 3 (denseOut2 x w b) (fun t _ => lin2_flushed_eq V c x w b hx hw hb t) lin2_cover

theorem lin_val2 (V : (c : Dev nD) → (b : Ref sig .tc) → Buf (Elt Ideal) ((c : Thread nD τ).loc b)) (c : Dev nD)
    (x : S100000x64.Idx → EReal) (w : S64x2.Idx → EReal) (b : S1x2.Idx → EReal)
    (hx : V c main_v71 = x) (hw : V c main_arg7 = w) (hb : V c main_v72 = b) (n : Fin 100000) (o : Fin 2) :
    (dat2 (F := Ideal) V c).arrAt 3 cfg2.N (ValueIdx.ix2 n o)
      = Cert.Spec.mm (fun n k => x (ValueIdx.ix2 n k)) (fun k o => w (ValueIdx.ix2 k o)) n o + b (ValueIdx.ix2 0 o) := by
  rw [lin2_final V c x w b hx hw hb]
  rfl

end Cert.KernelIdeal.Hand

end
-- ==== Proof.KI.PoolVal.lean ====
/-
  The values the group read-out leaves in its two output arrays: the table of feature sums and the column of
  counts per group, as sums over all nodes.

  Both output blocks are written back once, after the last of the twenty points, and each block is its whole
  array; so the arrays end holding the two accumulators as they stand after the last point.  One point adds to
  the table of sums, at (s, o), the product of the block's selection table (row r, column s: one when the group
  word of row r is the word of s, else zero) with the block's features, contracted over the rows; that is the sum
  of feature o over the block's rows of group s.  The counts are the same product with a column of ones.  By
  induction on the point the accumulators hold the contributions of the blocks met so far, and the sum over the
  twenty blocks of 5000 rows is the sum over the 100000 nodes.
-/
import proofs.«418470_j49907519979654_1_alg».proof.Proof.KI.Pool
import proofs.«418470_j49907519979654_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)
open Idealize.ShloMosaic.ValueIdx (ix2 eq_ix2)

/-! ## One point's step, read at an index -/

/-- Whether a 32-bit word is the word of a group number, as an extended real: one or zero. -/
theorem onehot_val (a b : BitVec 32) :
    ((((IntOp.cmpi .eq a b).setWidth 32).toInt : ℝ) : EReal) = if a = b then (1 : EReal) else 0 := by
  by_cases h : a = b
  · subst h
    rw [if_pos rfl]
    have : IntOp.cmpi .eq a a = 1#1 := by simp [IntOp.cmpi]
    rw [this]
    simp
  · rw [if_neg h]
    have hb : (a == b) = false := by simpa using h
    have : IntOp.cmpi .eq a b = 0#1 := by simp [IntOp.cmpi, hb]
    rw [this]
    simp

/-- The selection table of one block: entry (r, s) is one when row r's group word is the word of s, else zero. -/
theorem pay3_apply (bt : IVec S5000x1 32) (r : Fin 5000) (s : Fin 128) :
    k3_pay3 (F := Ideal) bt (ix2 r s) = if bt (ix2 r 0) = BitVec.ofNat 32 s.val then (1 : EReal) else 0 := by
  unfold k3_pay3
  dsimp only
  rw [shapeCast_self]
  refine Eq.trans ?_ (onehot_val (bt (ix2 r 0)) (BitVec.ofNat 32 s.val))
  show ((((IntOp.cmpi .eq (broadcastTo S5000x128 bt broadcasts_S5000x1_S5000x128 (ix2 r s)) (iota .tc S5000x128 32 [1] iota_S5000x128_d1_w32 (ix2 r s))).setWidth 32).toInt : ℝ) : EReal) = _
  rw [iota_single_apply, broadcastTo_apply bt broadcasts_S5000x1_S5000x128 (ix2 r s) (ix2 r 0) (fun a => by
    match a with
    | ⟨0, _⟩ => rfl
    | ⟨1, _⟩ => rfl)]

abbrev D2 := dot_S5000x128_S5000x2_S128x2_0_0_1_1_n_n
abbrev D1 := dot_S5000x128_S5000x1_S128x1_0_0_1_1_n_n

theorem D2_lhs1 (j : S128x2.Idx) (q : D2.contr.Idx) : (D2.lhsIdx j q 1).val = (j 0).val := by
  unfold DotDims.lhsIdx
  rw [dif_neg (show ¬(1 : Fin S5000x128.rank) ∈ D2.lhsBatch by decide), dif_pos (show (1 : Fin S5000x128.rank) ∈ D2.lhsNonContracting by decide)]
  rfl
theorem D2_rhs1 (j : S128x2.Idx) (q : D2.contr.Idx) : (D2.rhsIdx j q 1).val = (j 1).val := by
  unfold DotDims.rhsIdx
  rw [dif_neg (show ¬(1 : Fin S5000x2.rank) ∈ D2.rhsBatch by decide), dif_pos (show (1 : Fin S5000x2.rank) ∈ D2.rhsNonContracting by decide)]
  rfl
theorem D1_lhs1 (j : S128x1.Idx) (q : D1.contr.Idx) : (D1.lhsIdx j q 1).val = (j 0).val := by
  unfold DotDims.lhsIdx
  rw [dif_neg (show ¬(1 : Fin S5000x128.rank) ∈ D1.lhsBatch by decide), dif_pos (show (1 : Fin S5000x128.rank) ∈ D1.lhsNonContracting by decide)]
  rfl
theorem D1_rhs1 (j : S128x1.Idx) (q : D1.contr.Idx) : (D1.rhsIdx j q 1).val = (j 1).val := by
  unfold DotDims.rhsIdx
  rw [dif_neg (show ¬(1 : Fin S5000x1.rank) ∈ D1.rhsBatch by decide), dif_pos (show (1 : Fin S5000x1.rank) ∈ D1.rhsNonContracting by decide)]
  rfl

/-- The product's left operand is read at (row k, group s), -/
theorem D2_lhs (s : Fin 128) (o : Fin 2) (k : Fin 5000) :
    D2.lhsIdx (ix2 s o) ((ValueIdx.contrEquiv1 D2 5000 rfl rfl).symm k) = ix2 k s := by
  have hk := ValueIdx.contrEquiv1_symm_val D2 5000 rfl rfl k
  refine funext fun a => Fin.ext ?_
  match a with
  | ⟨0, _⟩ => exact (D2.lhsIdx_val_of_single rfl (ix2 s o) _).trans hk
  | ⟨1, _⟩ => exact D2_lhs1 _ _
/-- and its right operand at (row k, feature o). -/
theorem D2_rhs (s : Fin 128) (o : Fin 2) (k : Fin 5000) :
    D2.rhsIdx (ix2 s o) ((ValueIdx.contrEquiv1 D2 5000 rfl rfl).symm k) = ix2 k o := by
  have hk := ValueIdx.contrEquiv1_symm_val D2 5000 rfl rfl k
  refine funext fun a => Fin.ext ?_
  match a with
  | ⟨0, _⟩ => exact (D2.rhsIdx_val_of_single rfl (ix2 s o) _).trans hk
  | ⟨1, _⟩ => exact D2_rhs1 _ _
theorem D1_lhs (s : Fin 128) (o : Fin 1) (k : Fin 5000) :
    D1.lhsIdx (ix2 s o) ((ValueIdx.contrEquiv1 D1 5000 rfl rfl).symm k) = ix2 k s := by
  have hk := ValueIdx.contrEquiv1_symm_val D1 5000 rfl rfl k
  refine funext fun a => Fin.ext ?_
  match a with
  | ⟨0, _⟩ => exact (D1.lhsIdx_val_of_single rfl (ix2 s o) _).trans hk
  | ⟨1, _⟩ => exact D1_lhs1 _ _

/-- One point's step on the table of sums: entry (s, o) gains the sum of feature o over the block's rows whose
    group word is the word of s. -/
theorem pay4_apply (x : Vec Ideal S5000x2 .f32) (bt : IVec S5000x1 32) (acc : Vec Ideal S128x2 .f32) (s : Fin 128) (o : Fin 2) :
    k3_pay4 (F := Ideal) x bt acc (ix2 s o)
      = acc (ix2 s o) + ∑ r : Fin 5000, if bt (ix2 r 0) = BitVec.ofNat 32 s.val then x (ix2 r o) else 0 := by
  unfold k3_pay4
  rw [shapeCast_self, shapeCast_self]
  simp only [matmul]
  rw [ValueIdx.addf_apply, Ideal.matmul_constant_zero_apply, ← Equiv.sum_comp (ValueIdx.contrEquiv1 D2 5000 rfl rfl).symm]
  refine congrArg (acc (ix2 s o) + ·) (Finset.sum_congr rfl fun k _ => ?_)
  rw [D2_lhs, D2_rhs, ValueIdx.truncf_apply, pay3_apply]
  split
  · exact one_mul _
  · exact zero_mul _

/-- One point's step on the column of counts: entry s gains the number of the block's rows whose group word is
    the word of s. -/
theorem pay5_apply (bt : IVec S5000x1 32) (acc : Vec Ideal S128x1 .f32) (s : Fin 128) :
    k3_pay5 (F := Ideal) bt acc (ix2 s 0)
      = acc (ix2 s 0) + ∑ r : Fin 5000, if bt (ix2 r 0) = BitVec.ofNat 32 s.val then (1 : EReal) else 0 := by
  unfold k3_pay5
  rw [shapeCast_self]
  simp only [matmul]
  rw [ValueIdx.addf_apply, Ideal.matmul_constant_zero_apply, ← Equiv.sum_comp (ValueIdx.contrEquiv1 D1 5000 rfl rfl).symm]
  refine congrArg (acc (ix2 s 0) + ·) (Finset.sum_congr rfl fun k _ => ?_)
  rw [D1_lhs, pay3_apply, ValueIdx.broadcast_apply]
  have h1 : (Scalar.ofBits (F := Ideal) .bf16 0x3F80#16 : EReal) = 1 := Ideal.ofBits_one_bf16
  rw [h1, mul_one]

/-! ## The arrays after the run are the accumulators after the last point -/

variable (V : (c : Dev nD) → (b : Ref sig .tc) → Buf (Elt Ideal) ((c : Thread nD τ).loc b))

theorem lt19 : 19 < cfg3.N := by rw [show cfg3.N = 20 from N_3]; decide

/-- The last point of the grid. -/
abbrev t3_19 : Fin cfg3.N := ⟨19, lt19⟩

/-- The one write-back of the table of sums, after the last point, writes the accumulator as it then stands:
    the block is the whole array. -/
theorem flushed3_2 (c : Dev nD) (t : Fin cfg3.N) (hf : (cfg3.win 2).flush t = true) :
    (dat3 (F := Ideal) V c).flushed 2 t = ((cfg3.win 2).blk t).view.read (Elt Ideal) ((accAt3 (F := Ideal) V c 19 lt19).1) := by
  have hN : cfg3.N = 20 := N_3
  have h3 : t.val = 19 := by have := (flush3_2 t).mp hf; have := t.isLt; omega
  obtain rfl : t = t3_19 := Fin.ext h3
  show (cfg3.win 2).cut (grid3.coords t3_19) ((dat3 (F := Ideal) V c).after 2 t3_19) = _
  rw [after3_2]
  have hz' : (fun a => win3_2.index t3_19 a * main_v75_0.ty.shape.size a) = fun _ => 0 := funext fun a => by fin_cases a <;> decide
  exact (Memref.read_access_unit_zero (Elt Ideal) main_v75_0 hz' (fun a => by rw [congrFun hz' a]; simp) _).symm

theorem flushed3_3 (c : Dev nD) (t : Fin cfg3.N) (hf : (cfg3.win 3).flush t = true) :
    (dat3 (F := Ideal) V c).flushed 3 t = ((cfg3.win 3).blk t).view.read (Elt Ideal) ((accAt3 (F := Ideal) V c 19 lt19).2) := by
  have hN : cfg3.N = 20 := N_3
  have h3 : t.val = 19 := by have := (flush3_3 t).mp hf; have := t.isLt; omega
  obtain rfl : t = t3_19 := Fin.ext h3
  show (cfg3.win 3).cut (grid3.coords t3_19) ((dat3 (F := Ideal) V c).after 3 t3_19) = _
  rw [after3_3]
  have hz' : (fun a => win3_3.index t3_19 a * main_v75_1.ty.shape.size a) = fun _ => 0 := funext fun a => by fin_cases a <;> decide
  exact (Memref.read_access_unit_zero (Elt Ideal) main_v75_1 hz' (fun a => by rw [congrFun hz' a]; simp) _).symm

/-- So the array of sums ends holding the accumulator after the last point, -/
theorem final3_2 (c : Dev nD) : (dat3 (F := Ideal) V c).arrAt 2 cfg3.N = (accAt3 (F := Ideal) V c 19 lt19).1 :=
  (dat3 (F := Ideal) V c).arrAt_eq_of_cover 2 ((accAt3 (F := Ideal) V c 19 lt19).1) (flushed3_2 V c) fun i =>
    ⟨t3_19, (flush3_2 t3_19).mpr rfl, by
      show i ∈ ((View.whole main_v75_0).slice (win3_2.rect t3_19)).set
      rw [View.set_slice_whole, Rect.mem_set_unit]
      intro a
      have h0 : (i 0 : Nat) < 128 := (i 0).isLt
      have h1 : (i 1 : Nat) < 2 := (i 1).isLt
      match a with
      | ⟨0, _⟩ => show win3_2.index t3_19 0 * win3_2.size 0 ≤ (i 0 : Nat) ∧ (i 0 : Nat) < win3_2.index t3_19 0 * win3_2.size 0 + win3_2.xsize (grid3.coords t3_19) 0
                  rw [show win3_2.index t3_19 0 * win3_2.size 0 = 0 from by decide +kernel, show win3_2.xsize (grid3.coords t3_19) 0 = 128 from by decide +kernel]; omega
      | ⟨1, _⟩ => show win3_2.index t3_19 1 * win3_2.size 1 ≤ (i 1 : Nat) ∧ (i 1 : Nat) < win3_2.index t3_19 1 * win3_2.size 1 + win3_2.xsize (grid3.coords t3_19) 1
                  rw [show win3_2.index t3_19 1 * win3_2.size 1 = 0 from by decide +kernel, show win3_2.xsize (grid3.coords t3_19) 1 = 2 from by decide +kernel]; omega⟩

/-- and the array of counts likewise. -/
theorem final3_3 (c : Dev nD) : (dat3 (F := Ideal) V c).arrAt 3 cfg3.N = (accAt3 (F := Ideal) V c 19 lt19).2 :=
  (dat3 (F := Ideal) V c).arrAt_eq_of_cover 3 ((accAt3 (F := Ideal) V c 19 lt19).2) (flushed3_3 V c) fun i =>
    ⟨t3_19, (flush3_3 t3_19).mpr rfl, by
      show i ∈ ((View.whole main_v75_1).slice (win3_3.rect t3_19)).set
      rw [View.set_slice_whole, Rect.mem_set_unit]
      intro a
      have h0 : (i 0 : Nat) < 128 := (i 0).isLt
      have h1 : (i 1 : Nat) < 1 := (i 1).isLt
      match a with
      | ⟨0, _⟩ => show win3_3.index t3_19 0 * win3_3.size 0 ≤ (i 0 : Nat) ∧ (i 0 : Nat) < win3_3.index t3_19 0 * win3_3.size 0 + win3_3.xsize (grid3.coords t3_19) 0
                  rw [show win3_3.index t3_19 0 * win3_3.size 0 = 0 from by decide +kernel, show win3_3.xsize (grid3.coords t3_19) 0 = 128 from by decide +kernel]; omega
      | ⟨1, _⟩ => show win3_3.index t3_19 1 * win3_3.size 1 ≤ (i 1 : Nat) ∧ (i 1 : Nat) < win3_3.index t3_19 1 * win3_3.size 1 + win3_3.xsize (grid3.coords t3_19) 1
                  rw [show win3_3.index t3_19 1 * win3_3.size 1 = 0 from by decide +kernel, show win3_3.xsize (grid3.coords t3_19) 1 = 1 from by decide +kernel]; omega⟩

/-! ## The input blocks are rows of the arrays -/

/-- The block index of the two input windows at point t is (t, 0). -/
theorem idx3_0 : ∀ t : Fin cfg3.N, win3_0.index t 0 = t.val ∧ win3_0.index t 1 = 0 :=
  (by decide +kernel : ∀ t : Fin grid3.N, win3_0.index t 0 = t.val ∧ win3_0.index t 1 = 0)
theorem idx3_1 : ∀ t : Fin cfg3.N, win3_1.index t 0 = t.val ∧ win3_1.index t 1 = 0 :=
  (by decide +kernel : ∀ t : Fin grid3.N, win3_1.index t 0 = t.val ∧ win3_1.index t 1 = 0)

/-- Row r of block t is node 5000 t + r. -/
abbrev node (t : Fin cfg3.N) (r : Fin 5000) : Fin 100000 :=
  ⟨5000 * t.val + r.val, by have := t.isLt; have hN : cfg3.N = 20 := N_3; have := r.isLt; omega⟩

/-- The feature block the read-out sees at point t: rows 5000 t .. 5000 t + 4999 of the node features. -/
theorem iblk3_0_apply (c : Dev nD) (h : S100000x2.Idx → EReal) (hh : V c main_v73 = h) (t : Fin cfg3.N) (r : Fin 5000) (o : Fin 2) :
    (iblk3 (F := Ideal) V c 0 t : Vec Ideal S5000x2 .f32) (ix2 r o) = h (ix2 (node t r) o) := by
  have hi := idx3_0 t
  unfold iblk3
  rw [View.read_apply]
  show V c main_v73 _ = _
  rw [hh]
  congr 1
  funext a
  apply Fin.ext
  match a with
  | ⟨0, _⟩ => show win3_0.index t 0 * 5000 + 1 * r.val = 5000 * t.val + r.val; rw [hi.1]; omega
  | ⟨1, _⟩ => show win3_0.index t 1 * 2 + 1 * o.val = o.val; rw [hi.2]; omega

/-- The block of group words at point t: the same rows of the group column. -/
theorem iblk3_1_apply (c : Dev nD) (bt : IVec S100000x1 32) (hb : V c main_v74 = bt) (t : Fin cfg3.N) (r : Fin 5000) :
    (iblk3 (F := Ideal) V c 1 t : IVec S5000x1 32) (ix2 r 0) = bt (ix2 (node t r) 0) := by
  have hi := idx3_1 t
  unfold iblk3
  rw [View.read_apply]
  show V c main_v74 _ = _
  rw [hb]
  congr 1
  funext a
  apply Fin.ext
  match a with
  | ⟨0, _⟩ => show win3_1.index t 0 * 5000 + 1 * r.val = 5000 * t.val + r.val; rw [hi.1]; omega
  | ⟨1, _⟩ => show win3_1.index t 1 * 1 + 1 * (0 : Fin 1).val = (0 : Fin 1).val; rw [hi.2]; rfl

/-! ## The accumulators after every point, and the sum over all nodes -/

/-- The word of a group number below 128, read as a signed integer, is that number. -/
theorem toInt_ofNat_small (s : Fin 128) : (BitVec.ofNat 32 s.val).toInt = (s.val : ℤ) := by
  have hs := s.isLt
  have hn : (BitVec.ofNat 32 s.val).toNat = s.val := by
    rw [BitVec.toNat_ofNat]; exact Nat.mod_eq_of_lt (by omega)
  rw [BitVec.toInt_eq_toNat_of_lt (by rw [hn]; omega), hn]

/-- A 32-bit word is the word of group s exactly when it reads, as a signed integer, s. -/
theorem word_eq_iff (a : BitVec 32) (s : Fin 128) : a = BitVec.ofNat 32 s.val ↔ a.toInt = (s.val : ℤ) :=
  ⟨fun e => e ▸ toInt_ofNat_small s, fun e => BitVec.eq_of_toInt_eq (e.trans (toInt_ofNat_small s).symm)⟩

theorem node_lt (k : Fin 20) (r : Fin 5000) : 5000 * k.val + r.val < 100000 := by
  have h1 := k.isLt
  have h2 := r.isLt
  omega

/-- Nodes as pairs (block, row): node 5000 k + r is row r of block k. -/
def nodeEquiv : Fin 20 × Fin 5000 ≃ Fin 100000 := finProdFinEquiv.trans (finCongr (by norm_num))

theorem nodeEquiv_val (k : Fin 20) (r : Fin 5000) : (nodeEquiv (k, r)).val = 5000 * k.val + r.val := by
  show r.val + 5000 * k.val = 5000 * k.val + r.val
  omega

/-- A sum over the 100000 nodes is the sum over the 20 blocks of the sums over each block's 5000 rows. -/
theorem sum_blocks (f : Fin 100000 → EReal) :
    ∑ n : Fin 100000, f n = ∑ k : Fin 20, ∑ r : Fin 5000, f ⟨5000 * k.val + r.val, node_lt k r⟩ := by
  rw [← Equiv.sum_comp nodeEquiv f, Fintype.sum_prod_type]
  refine Finset.sum_congr rfl fun k _ => Finset.sum_congr rfl fun r _ => ?_
  exact congrArg f (Fin.ext (nodeEquiv_val k r))

/-- The cleared table of sums is zero everywhere, -/
theorem pay1_apply (j : S128x2.Idx) : k3_pay1 (F := Ideal) j = 0 := by
  unfold k3_pay1
  rw [shapeCast_self]
  exact Ideal.ofBits_zero_f32
/-- and so is the cleared column of counts. -/
theorem pay2_apply (j : S128x1.Idx) : k3_pay2 (F := Ideal) j = 0 := by
  unfold k3_pay2
  rw [shapeCast_self]
  exact Ideal.ofBits_zero_f32

/-- Block t's contribution to the sum of feature o over group s, -/
def blkSum (c : Dev nD) (t : Fin cfg3.N) (s : Fin 128) (o : Fin 2) : EReal :=
  ∑ r : Fin 5000, if (iblk3 (F := Ideal) V c 1 t : IVec S5000x1 32) (ix2 r 0) = BitVec.ofNat 32 s.val
    then (iblk3 (F := Ideal) V c 0 t : Vec Ideal S5000x2 .f32) (ix2 r o) else 0
/-- and to the count of group s. -/
def blkCnt (c : Dev nD) (t : Fin cfg3.N) (s : Fin 128) : EReal :=
  ∑ r : Fin 5000, if (iblk3 (F := Ideal) V c 1 t : IVec S5000x1 32) (ix2 r 0) = BitVec.ofNat 32 s.val then (1 : EReal) else 0

/-- After point n the table of sums holds the contributions of the blocks 0 .. n, by induction on the point. -/
theorem acc_sums (c : Dev nD) : ∀ (n : ℕ) (hn : n < cfg3.N) (s : Fin 128) (o : Fin 2),
    (accAt3 (F := Ideal) V c n hn).1 (ix2 s o)
      = ∑ k : Fin (n + 1), blkSum V c ⟨k.val, lt_of_lt_of_le k.isLt (Nat.succ_le_of_lt hn)⟩ s o
  | 0, hn, s, o => by
    rw [accAt3_zero]
    show k3_pay4 (F := Ideal) _ _ (k3_pay1 (F := Ideal)) (ix2 s o) = _
    rw [pay4_apply, pay1_apply, zero_add, Fin.sum_univ_castSucc (n := 0), Fin.sum_univ_zero, zero_add]
    rfl
  | n + 1, hn, s, o => by
    rw [accAt3_succ]
    show k3_pay4 (F := Ideal) _ _ _ (ix2 s o) = _
    rw [pay4_apply, acc_sums c n (Nat.lt_of_succ_lt hn) s o, Fin.sum_univ_castSucc (n := n + 1)]
    rfl

/-- The column of counts likewise. -/
theorem acc_cnt (c : Dev nD) : ∀ (n : ℕ) (hn : n < cfg3.N) (s : Fin 128),
    (accAt3 (F := Ideal) V c n hn).2 (ix2 s 0)
      = ∑ k : Fin (n + 1), blkCnt V c ⟨k.val, lt_of_lt_of_le k.isLt (Nat.succ_le_of_lt hn)⟩ s
  | 0, hn, s => by
    rw [accAt3_zero]
    show k3_pay5 (F := Ideal) _ (k3_pay2 (F := Ideal)) (ix2 s 0) = _
    rw [pay5_apply, pay2_apply, zero_add, Fin.sum_univ_castSucc (n := 0), Fin.sum_univ_zero, zero_add]
    rfl
  | n + 1, hn, s => by
    rw [accAt3_succ]
    show k3_pay5 (F := Ideal) _ _ (ix2 s 0) = _
    rw [pay5_apply, acc_cnt c n (Nat.lt_of_succ_lt hn) s, Fin.sum_univ_castSucc (n := n + 1)]
    rfl

/-- The accumulated table after the last point is the sum over all nodes of each group. -/
theorem sums_eq (c : Dev nD) (h : S100000x2.Idx → EReal) (bt : IVec S100000x1 32)
    (hh : V c main_v73 = h) (hb : V c main_v74 = bt) (s : Fin 128) (o : Fin 2) :
    Cert.Spec.poolSum (fun n => (bt (ix2 n 0)).toInt) (fun n f => h (ix2 n f)) s o
      = (accAt3 (F := Ideal) V c 19 lt19).1 (ix2 s o) := by
  rw [acc_sums V c 19 lt19 s o]
  unfold Cert.Spec.poolSum
  rw [sum_blocks]
  refine Finset.sum_congr rfl fun k _ => ?_
  unfold blkSum
  refine Finset.sum_congr rfl fun r _ => ?_
  rw [iblk3_0_apply V c h hh, iblk3_1_apply V c bt hb]
  exact (if_congr (word_eq_iff _ s) rfl rfl).symm

/-- The accumulated column after the last point is the number of nodes of each group. -/
theorem cnt_eq (c : Dev nD) (bt : IVec S100000x1 32) (hb : V c main_v74 = bt) (s : Fin 128) :
    Cert.Spec.poolCnt (fun n => (bt (ix2 n 0)).toInt) s = (accAt3 (F := Ideal) V c 19 lt19).2 (ix2 s 0) := by
  rw [acc_cnt V c 19 lt19 s]
  unfold Cert.Spec.poolCnt
  rw [sum_blocks]
  refine Finset.sum_congr rfl fun k _ => ?_
  unfold blkCnt
  refine Finset.sum_congr rfl fun r _ => ?_
  rw [iblk3_1_apply V c bt hb]
  exact (if_congr (word_eq_iff _ s) rfl rfl).symm

/-- The table of feature sums after the read-out: entry (s, o) is the sum of feature o over the nodes of group s. -/
theorem pool_val_sums (V : (c : Dev nD) → (b : Ref sig .tc) → Buf (Elt Ideal) ((c : Thread nD τ).loc b)) (c : Dev nD)
    (h : S100000x2.Idx → EReal) (bt : IVec S100000x1 32)
    (hh : V c main_v73 = h) (hb : V c main_v74 = bt) (s : Fin 128) (o : Fin 2) :
    (dat3 (F := Ideal) V c).arrAt 2 cfg3.N (ValueIdx.ix2 s o)
      = Cert.Spec.poolSum (fun n => (bt (ValueIdx.ix2 n 0)).toInt) (fun n f => h (ValueIdx.ix2 n f)) s o :=
  (congrFun (final3_2 V c) (ix2 s o)).trans (sums_eq V c h bt hh hb s o).symm

/-- The column of counts after the read-out: entry s is the number of nodes of group s. -/
theorem pool_val_cnt (V : (c : Dev nD) → (b : Ref sig .tc) → Buf (Elt Ideal) ((c : Thread nD τ).loc b)) (c : Dev nD)
    (h : S100000x2.Idx → EReal) (bt : IVec S100000x1 32)
    (hh : V c main_v73 = h) (hb : V c main_v74 = bt) (s : Fin 128) :
    (dat3 (F := Ideal) V c).arrAt 3 cfg3.N (ValueIdx.ix2 s 0)
      = Cert.Spec.poolCnt (fun n => (bt (ValueIdx.ix2 n 0)).toInt) s :=
  (congrFun (final3_3 V c) (ix2 s 0)).trans (cnt_eq V c bt hb s).symm

end Cert.KernelIdeal.Hand

end
-- ==== Proof.LibRowOps.lean ====
/-
  Host row operations read at an index, over the extended reals and arbitrary sizes: a scatter-add of E scalars
  into a vector of length N, a scatter-add of E rows into an N x C table, a gather of E rows out of an N x C table,
  and a one-row dynamic slice of an N x C table. A scatter index is read signed and not clamped (an update whose
  index is outside 0..N-1 lands nowhere); a gather or slice start is read signed and clamped into 0..N-1.
-/
import Idealize.ShloMosaic.PureOps.Ideal
import Idealize.ShloMosaic.Lib.ValueIdx

noncomputable section

namespace Cert.LibRowOps

open Idealize.ShloMosaic Idealize.ShloMosaic.ValueIdx

/-- The row a clamped signed start z selects in a table of N rows. -/
def clampRow (N : Nat) (hN : 0 < N) (z : Int) : Fin N := ⟨(min (max z 0) ((N - 1 : Nat) : Int)).toNat, by omega⟩

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

/-- An update lands at operand index i exactly when, on every operand axis, its signed start plus its window
    coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hh a
      rw [← hh]
      exact (Int.toNat_of_nonneg (h a).1).symm
    · intro hh
      funext a
      refine Fin.ext ?_
      show (d.start j idx a + (d.window j a : ℤ)).toNat = (i a).val
      rw [hh a]; rfl
  · rename_i h
    constructor
    · intro hh; cases hh
    · intro hh
      refine absurd (fun a => ?_) h
      rw [hh a]
      exact ⟨Int.natCast_nonneg _, by exact_mod_cast (i a).isLt⟩

/-- Rank 1, one scatter axis and no window: an update lands at n exactly when its signed index is n. -/
theorem vec_resultIdx?_iff {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) (idx : IVec ⟨2, ![E, 1]⟩ w) (e : Fin E) (n : Fin N) :
    d.resultIdx? (ix1 e) idx = some (ix1 n) ↔ (idx (ix2 e 0)).toInt = (n.val : ℤ) := by
  obtain ⟨uw, iw, sd, iv, wf⟩ := d
  simp only at hu hi hs hv
  subst hu hi hs hv
  rw [resultIdx?_eq_some_iff, Fin.forall_fin_one]
  have hstart : (ScatterDims.mk (s := ⟨1, ![N]⟩) (si := ⟨2, ![E, 1]⟩) (u := ⟨1, ![E]⟩) [] [0] [0] 1 wf).start (ix1 e) idx 0
      = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin : (ScatterDims.mk (s := ⟨1, ![N]⟩) (si := ⟨2, ![E, 1]⟩) (u := ⟨1, ![E]⟩) [] [0] [0] 1 wf).window (ix1 e) 0 = 0 := by
    unfold ScatterDims.window
    rw [dif_neg (by simp [Shape.kept])]
  rw [hstart, hwin]
  simp

/-- E scalars added into a vector of length N at signed, unclamped indices: entry n ends at its old value plus
    the updates whose index is n. -/
theorem scatterAdd_vec_apply {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e : Fin E, (if (idx (ix2 e 0)).toInt = (n.val : ℤ) then upd (ix1 e) else 0) := by
  unfold Ideal.hostScatterAdd
  congr 1
  rw [Finset.sum_filter, sum_idx1]
  refine Finset.sum_congr rfl fun e _ => ?_
  simp only [vec_resultIdx?_iff d hu hi hs hv idx e n]

/-- Rank 2, one scatter axis (the rows) and one window axis (the columns): the update at row e, column f' lands
    at (n, f) exactly when f' = f and row e's signed index is n. -/
theorem rows_resultIdx?_iff {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1) (idx : IVec ⟨2, ![E, 1]⟩ w) (e : Fin E) (f' f : Fin C) (n : Fin N) :
    d.resultIdx? (ix2 e f') idx = some (ix2 n f) ↔ f' = f ∧ (idx (ix2 e 0)).toInt = (n.val : ℤ) := by
  obtain ⟨uw, iw, sd, iv, wf⟩ := d
  simp only at hu hi hs hv
  subst hu hi hs hv
  rw [resultIdx?_eq_some_iff, Fin.forall_fin_two]
  have hstart0 : (ScatterDims.mk (s := ⟨2, ![N, C]⟩) (si := ⟨2, ![E, 1]⟩) (u := ⟨2, ![E, C]⟩) [1] [0] [0] 1 wf).start
      (ix2 e f') idx 0 = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin0 : (ScatterDims.mk (s := ⟨2, ![N, C]⟩) (si := ⟨2, ![E, 1]⟩) (u := ⟨2, ![E, C]⟩) [1] [0] [0] 1 wf).window
      (ix2 e f') 0 = 0 := by
    unfold ScatterDims.window
    rw [dif_neg (by simp [Shape.kept])]
  have hstart1 : (ScatterDims.mk (s := ⟨2, ![N, C]⟩) (si := ⟨2, ![E, 1]⟩) (u := ⟨2, ![E, C]⟩) [1] [0] [0] 1 wf).start
      (ix2 e f') idx 1 = 0 := by
    unfold ScatterDims.start
    rw [dif_neg (by simp)]
  have hwin1 : (ScatterDims.mk (s := ⟨2, ![N, C]⟩) (si := ⟨2, ![E, 1]⟩) (u := ⟨2, ![E, C]⟩) [1] [0] [0] 1 wf).window
      (ix2 e f') 1 = f'.val := by
    unfold ScatterDims.window
    rw [dif_pos (by simp [Shape.kept, List.finRange])]
    rfl
  rw [hstart0, hwin0, hstart1, hwin1]
  show (idx (ix2 e 0)).toInt + ((0 : ℕ) : ℤ) = (n.val : ℤ) ∧ (0 : ℤ) + (f'.val : ℤ) = (f.val : ℤ) ↔ _
  rw [Fin.ext_iff]
  constructor
  · rintro ⟨h1, h2⟩; exact ⟨by omega, by omega⟩
  · rintro ⟨h1, h2⟩; exact ⟨by omega, by omega⟩

/-- E rows added into an N x C table at signed, unclamped row indices. -/
theorem scatterAdd_rows_apply {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (upd : (⟨2, ![E, C]⟩ : Shape).Idx → EReal)
    (n : Fin N) (f : Fin C) :
    Ideal.hostScatterAdd d x idx upd (ix2 n f)
      = x (ix2 n f) + ∑ e : Fin E, (if (idx (ix2 e 0)).toInt = (n.val : ℤ) then upd (ix2 e f) else 0) := by
  unfold Ideal.hostScatterAdd
  congr 1
  rw [Finset.sum_filter, sum_idx2]
  refine Finset.sum_congr rfl fun e _ => ?_
  simp only [rows_resultIdx?_iff d hu hi hs hv idx e _ f n]
  rw [Finset.sum_eq_single f]
  · simp
  · intro f' _ hne
    rw [if_neg (fun h => hne h.1)]
  · intro h; exact absurd (Finset.mem_univ f) h

/-- E rows gathered out of an N x C table: row e of the result is the table's row at the clamped signed index. -/
theorem gather_rows_apply {α : Type} {N C E w : Nat} (hN : 0 < N) (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (hsz : d.sliceSizes = ![1, C])
    (x : (⟨2, ![N, C]⟩ : Shape).Idx → α) (idx : IVec ⟨2, ![E, 1]⟩ w) (e : Fin E) (f : Fin C) :
    Host.gather d x idx (ix2 e f) = x (ix2 (clampRow N hN (idx (ix2 e 0)).toInt) f) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix2 e f) idx a + GatherDims.batchCoord _ (ix2 e f) a + GatherDims.offCoord _ (ix2 e f) a = _
  rw [GatherDims.batchCoord_eq_zero _ _ _ List.not_mem_nil, Nat.add_zero]
  revert a
  rw [Fin.forall_fin_two]
  refine ⟨?_, ?_⟩
  · rw [GatherDims.offCoord_eq_zero _ _ _ (fun h => ((GatherDims.mem_sKept _ _).mp h).1 (List.mem_singleton.mpr rfl)),
      Nat.add_zero]
    unfold GatherDims.start
    rw [dif_pos (List.mem_singleton.mpr rfl)]
    have hsi : ∀ c, GatherDims.siIdx (s := ⟨2, ![N, C]⟩) (si := ⟨2, ![E, 1]⟩) (t := ⟨2, ![E, C]⟩)
        ⟨[1], [0], [], [], [0], 1, ![1, C], wf⟩ (ix2 e f) c = ix2 e 0 := by
      intro c
      funext b; refine Fin.ext ?_
      match b with
      | ⟨0, _⟩ => rfl
      | ⟨1, _⟩ => exact Nat.lt_one_iff.mp c.isLt
    rw [hsi]
    show min (idx (ix2 e 0)).toInt.toNat (N - 1) = (min (max (idx (ix2 e 0)).toInt 0) ((N - 1 : Nat) : Int)).toNat
    omega
  · unfold GatherDims.start
    rw [dif_neg (by simp), Nat.zero_add]
    rfl

/-- A one-row dynamic slice of an N x C table whose column start is 0: the row at the clamped signed start. -/
theorem dynamicSlice_row_apply {α : Type} {N C : Nat} (hN : 0 < N) (x : (⟨2, ![N, C]⟩ : Shape).Idx → α) (start : Fin 2 → Int)
    (h0 : start 1 = 0) (h : (⟨2, ![N, C]⟩ : Shape).Slices (fun _ => 0) ⟨2, ![1, C]⟩) (f : Fin C) :
    Host.dynamicSlice (s := ⟨2, ![N, C]⟩) ⟨2, ![1, C]⟩ x start h (ix2 0 f) = x (ix2 (clampRow N hN (start 0)) f) := by
  show x _ = x _
  congr 1
  funext a
  refine Fin.ext ?_
  match a with
  | ⟨0, _⟩ =>
    show (min (max (start 0) 0) ((N - 1 : Nat) : Int)).toNat + 0 = (min (max (start 0) 0) ((N - 1 : Nat) : Int)).toNat
    rfl
  | ⟨1, _⟩ =>
    show (min (max (start 1) 0) ((C - C : Nat) : Int)).toNat + f.val = f.val
    rw [h0]; simp

end Cert.LibRowOps

end
-- ==== Proof.KI.HostVal.lean ====
/-
  The value of the program's result array, read at an index through the five stretches of host operations and
  the four kernel calls.  Each stretch before a dense layer gathers the node table's rows by the wrapped source
  numbers, scales row e by the edge weight, and scatter-adds the rows into a zero table by the raw target numbers:
  that is the weighted aggregation of the table along the edges.  The dense layer multiplies by the weights, adds
  the bias and (for the first two layers) cuts below at zero.  The read-out sums and counts the nodes of each
  group, and the last stretch divides the sums by the counts, an empty group's count read as one.
-/
import proofs.«418470_j49907519979654_1_alg».proof.Proof.KI.Fold
import proofs.«418470_j49907519979654_1_alg».proof.Proof.KI.Prefix
import proofs.«418470_j49907519979654_1_alg».proof.Proof.Gen.KernelIdeal.Regions
import proofs.«418470_j49907519979654_1_alg».proof.Proof.KI.LinVal0
import proofs.«418470_j49907519979654_1_alg».proof.Proof.KI.LinVal1
import proofs.«418470_j49907519979654_1_alg».proof.Proof.KI.LinVal2
import proofs.«418470_j49907519979654_1_alg».proof.Proof.KI.PoolVal
import proofs.«418470_j49907519979654_1_alg».proof.Proof.Spec
import proofs.«418470_j49907519979654_1_alg».proof.Proof.LibRowOps
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)
open Idealize.ShloMosaic.ValueIdx

/-! ## The edge functions the specification takes -/

/-- The node an edge reads: its wrapped source number, clamped into the node range. -/
def srcK (a1 : IVec S2x3200000 32) : Fin 3300000 → Fin 100000 :=
  fun e => Cert.LibRowOps.clampRow 100000 (by decide) ((gidxK (F := Ideal) a1 : IVec S3300000x1 32) (ix2 e 0)).toInt

/-- The signed number of the node an edge adds into. -/
def dstK (a1 : IVec S2x3200000 32) : Fin 3300000 → ℤ :=
  fun e => ((didxK (F := Ideal) a1 : IVec S3300000x1 32) (ix2 e 0)).toInt

/-- The signed group number of a node. -/
def batK (a2 : IVec S100000 32) : Fin 100000 → ℤ := fun n => (a2 (ix1 n)).toInt

/-! ## Layout operations at an index -/

/-- A vector laid out as a column reads, at row e, the vector at e. -/
theorem col_apply {α : Type} {n : ℕ} (h1 : (⟨1, ![n]⟩ : Shape).BroadcastsInDim ⟨2, ![n, 1]⟩ ![0])
    (v : (⟨1, ![n]⟩ : Shape).Idx → α) (e : Fin n) :
    broadcastInDim ⟨2, ![n, 1]⟩ ![0] h1 v (ix2 e 0) = v (ix1 e) :=
  broadcastInDim_apply _ h1 v _ (ix1 e) (fun a => by
    obtain rfl : a = 0 := Subsingleton.elim _ _
    show e.val = if n = 1 then 0 else e.val
    have := e.isLt
    split <;> omega)

/-- A column spread over C columns reads, at (e, f), the column at row e. -/
theorem spread_apply {α : Type} {n C : ℕ} (h2 : (⟨2, ![n, 1]⟩ : Shape).BroadcastsInDim ⟨2, ![n, C]⟩ ![0, 1])
    (v : (⟨2, ![n, 1]⟩ : Shape).Idx → α) (e : Fin n) (f : Fin C) :
    broadcastInDim ⟨2, ![n, C]⟩ ![0, 1] h2 v (ix2 e f) = v (ix2 e 0) :=
  broadcastInDim_apply _ h2 v _ (ix2 e 0) (fun a => by
    match a with
    | ⟨0, _⟩ =>
      show e.val = if n = 1 then 0 else e.val
      have := e.isLt
      split <;> omega
    | ⟨1, _⟩ =>
      show (0 : ℕ) = if (1 : ℕ) = 1 then 0 else f.val
      rfl)

/-- The zero word of the 32-bit float format is the number zero. -/
theorem ofBits_zero_f32 : Ideal.ofBits .f32 0x00000000#32 = 0 := by simp [Ideal.ofBits, Ideal.ieee]

/-- A vector cast to a column reads, at row i, the vector at i. -/
theorem colCast_apply {α : Type} {a : ℕ} (x : (⟨1, ![a]⟩ : Shape).Idx → α)
    (h : (⟨1, ![a]⟩ : Shape).ShapeCasts ⟨2, ![a, 1]⟩) (i : Fin a) :
    shapeCast ⟨2, ![a, 1]⟩ x h (ix2 i 0) = x (ix1 i) :=
  shapeCast_apply x h _ _ (by
    rw [Shape.rowMajor_val_two, Shape.rowMajor_val_one]
    show i.val = i.val * 1 + 0
    omega)

/-! ## One aggregation stretch at an index -/

/-- Rows of a table gathered by a column of start numbers, row e scaled by the weight of e, and scatter-added into
    a zero table by a column of target numbers: entry (n, f) is the weighted sum, over the edges whose target
    number is n, of the table's entry at the clamped start row. -/
theorem agg_at {N E C : ℕ} (hN : 0 < N)
    (ds : ScatterDims ⟨2, ![N, C]⟩ ⟨2, ![E, 1]⟩ ⟨2, ![E, C]⟩)
    (hu : ds.updateWindowDims = [1]) (hi : ds.insertedWindowDims = [0]) (hs : ds.scatterDimsToOperandDims = [0])
    (hv : ds.indexVectorDim = 1)
    (dg : GatherDims ⟨2, ![N, C]⟩ ⟨2, ![E, 1]⟩ ⟨2, ![E, C]⟩)
    (ho : dg.offsetDims = [1]) (hc : dg.collapsedSliceDims = [0]) (hb : dg.operandBatchingDims = [])
    (hsb : dg.startIndicesBatchingDims = []) (hm : dg.startIndexMap = [0]) (hgv : dg.indexVectorDim = 1)
    (hsz : dg.sliceSizes = ![1, C])
    (hz : (⟨0, ![]⟩ : Shape).BroadcastsInDim ⟨2, ![N, C]⟩ ![])
    (h1 : (⟨1, ![E]⟩ : Shape).BroadcastsInDim ⟨2, ![E, 1]⟩ ![0])
    (h2 : (⟨2, ![E, 1]⟩ : Shape).BroadcastsInDim ⟨2, ![E, C]⟩ ![0, 1])
    (nrm : (⟨1, ![E]⟩ : Shape).Idx → EReal) (gi di : IVec ⟨2, ![E, 1]⟩ 32)
    (h : (⟨2, ![N, C]⟩ : Shape).Idx → EReal) (n : Fin N) (f : Fin C) :
    Host.scatterAdd (F := Ideal) (φ := .f32) ds
        (broadcastInDim ⟨2, ![N, C]⟩ ![] hz (constant (F := Ideal) S_ .f32 0x00000000#32)) di
        (mulf (F := Ideal) (φ := .f32)
          (broadcastInDim ⟨2, ![E, C]⟩ ![0, 1] h2 (broadcastInDim ⟨2, ![E, 1]⟩ ![0] h1 nrm))
          (Host.gather dg h gi)) (ix2 n f)
      = Cert.Spec.agg (fun e => nrm (ix1 e)) (fun e => Cert.LibRowOps.clampRow N hN (gi (ix2 e 0)).toInt)
          (fun e => (di (ix2 e 0)).toInt) (fun n f => h (ix2 n f)) n f := by
  refine (Cert.LibRowOps.scatterAdd_rows_apply ds hu hi hs hv _ di _ n f).trans ?_
  rw [broadcastInDim_scalar_apply, constant_apply, ofBits_zero_f32, zero_add]
  unfold Cert.Spec.agg
  refine Finset.sum_congr rfl fun e _ => ?_
  refine congrArg (fun z => if (di (ix2 e 0)).toInt = (n.val : ℤ) then z else 0) ?_
  refine (mulf_apply _ _ (ix2 e f)).trans ?_
  rw [spread_apply, col_apply, Cert.LibRowOps.gather_rows_apply hN dg ho hc hb hsb hm hgv hsz]

/-- Unfolds a stretch of host operations at one buffer: every operation's result at its own buffer is its
    function of its operands' contents, and at any other buffer what was there. -/
local macro "host_read" : tactic =>
  `(tactic| (after_results_simp
             repeat (first
               | rw [StableHlo.nullary_result] | rw [StableHlo.unary_result] | rw [StableHlo.binary_result]
               | rw [StableHlo.reshape_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide))))

variable (m : (ℓ : Loc nD τ sig) → Buf (Elt Ideal) ℓ)

/-! ## The launch contents, as the specification takes them -/

/-- The edge array on core c. -/
abbrev eK (c : Dev nD) : IVec S2x3200000 32 := m ((c : Thread nD τ).loc main_arg1)
/-- The edge weights. -/
abbrev nrmF (c : Dev nD) : Fin 3300000 → EReal := fun e => (nrmK (F := Ideal) (eK m c) : S3300000.Idx → EReal) (ix1 e)
/-- The node features. -/
abbrev h0F (c : Dev nD) : Fin 100000 → Fin 3 → EReal := fun n f => (m ((c : Thread nD τ).loc main_arg0) : S100000x3.Idx → EReal) (ix2 n f)
/-- The three weight matrices and bias vectors. -/
abbrev w1F (c : Dev nD) : Fin 3 → Fin 32 → EReal := fun k o => (m ((c : Thread nD τ).loc main_arg3) : S3x32.Idx → EReal) (ix2 k o)
abbrev b1F (c : Dev nD) : Fin 32 → EReal := fun o => (m ((c : Thread nD τ).loc main_arg4) : S32.Idx → EReal) (ix1 o)
abbrev w2F (c : Dev nD) : Fin 32 → Fin 64 → EReal := fun k o => (m ((c : Thread nD τ).loc main_arg5) : S32x64.Idx → EReal) (ix2 k o)
abbrev b2F (c : Dev nD) : Fin 64 → EReal := fun o => (m ((c : Thread nD τ).loc main_arg6) : S64.Idx → EReal) (ix1 o)
abbrev w3F (c : Dev nD) : Fin 64 → Fin 2 → EReal := fun k o => (m ((c : Thread nD τ).loc main_arg7) : S64x2.Idx → EReal) (ix2 k o)
abbrev b3F (c : Dev nD) : Fin 2 → EReal := fun o => (m ((c : Thread nD τ).loc main_arg8) : S2.Idx → EReal) (ix1 o)

/-- The node tables after the first, second and third layer. -/
def h1F (c : Dev nD) : Fin 100000 → Fin 32 → EReal :=
  Cert.Spec.relu (Cert.Spec.layerK (nrmF m c) (srcK (eK m c)) (dstK (eK m c)) (h0F m c) (w1F m c) (b1F m c))
def h2F (c : Dev nD) : Fin 100000 → Fin 64 → EReal :=
  Cert.Spec.relu (Cert.Spec.layerK (nrmF m c) (srcK (eK m c)) (dstK (eK m c)) (h1F m c) (w2F m c) (b2F m c))
def h3F (c : Dev nD) : Fin 100000 → Fin 2 → EReal :=
  Cert.Spec.layerK (nrmF m c) (srcK (eK m c)) (dstK (eK m c)) (h2F m c) (w3F m c) (b3F m c)

/-! ## The first stretch -/

/-- After the first stretch the weight vector holds the edge weights. -/
theorem W1_nrm (c : Dev nD) : W1 (F := Ideal) m c (Proc.devRef .tc main_v28) = nrmK (F := Ideal) (eK m c) := by
  show StableHlo.after hostOps0 (W0 m c) (Proc.devRef .tc main_v28) = _
  host_read
  rfl

/-- The source numbers with the self-loops. -/
theorem W1_esrc (c : Dev nD) : W1 (F := Ideal) m c (Proc.devRef .tc main_v3) = esrcK (F := Ideal) (eK m c) := by
  show StableHlo.after hostOps0 (W0 m c) (Proc.devRef .tc main_v3) = _
  host_read
  rfl

/-- The target numbers with the self-loops. -/
theorem W1_edst (c : Dev nD) : W1 (F := Ideal) m c (Proc.devRef .tc main_v6) = edstK (F := Ideal) (eK m c) := by
  show StableHlo.after hostOps0 (W0 m c) (Proc.devRef .tc main_v6) = _
  host_read
  rfl

/-- The first aggregated table, as the scatter-add of the scaled gathered rows. -/
theorem W1_v41 (c : Dev nD) :
    (W1 (F := Ideal) m c (Proc.devRef .tc main_v41) : S100000x3.Idx → EReal)
      = Host.scatterAdd (F := Ideal) (φ := .f32) scatter_S100000x3_S3300000x1_S3300000x3_1_0_0_1
          (broadcastInDim S100000x3 ![] bcast_S_S100000x3 (constant (F := Ideal) S_ .f32 0x00000000#32))
          (didxK (F := Ideal) (eK m c))
          (mulf (F := Ideal) (φ := .f32)
            (broadcastInDim S3300000x3 ![0, 1] bcast_S3300000x1_S3300000x3_0_1
              (broadcastInDim S3300000x1 ![0] bcast_S3300000_S3300000x1_0 (nrmK (F := Ideal) (eK m c))))
            (Host.gather gather_S100000x3_S3300000x1_S3300000x3_1_0_n_n_0_1_13
              (m ((c : Thread nD τ).loc main_arg0) : S100000x3.Idx → EReal) (gidxK (F := Ideal) (eK m c)))) := by
  show StableHlo.after hostOps0 (W0 m c) (Proc.devRef .tc main_v41) = _
  host_read
  rfl

/-- The first bias vector as a row. -/
theorem W1_v42 (c : Dev nD) :
    (W1 (F := Ideal) m c (Proc.devRef .tc main_v42) : S1x32.Idx → EReal)
      = shapeCast S1x32 (m ((c : Thread nD τ).loc main_arg4) : S32.Idx → EReal) shapeCasts_S32_S1x32 := by
  show StableHlo.after hostOps0 (W0 m c) (Proc.devRef .tc main_v42) = _
  host_read
  rfl

/-- The first weight matrix is as launched. -/
theorem W1_arg3 (c : Dev nD) : W1 (F := Ideal) m c (Proc.devRef .tc main_arg3) = m ((c : Thread nD τ).loc main_arg3) :=
  StableHlo.after_of_writes_sub hostOps0 _ hostOps0_writes (by decide)

/-- The first aggregated table at node n, feature f. -/
theorem W1_v41_at (c : Dev nD) (n : Fin 100000) (f : Fin 3) :
    (W1 (F := Ideal) m c (Proc.devRef .tc main_v41) : S100000x3.Idx → EReal) (ix2 n f)
      = Cert.Spec.agg (nrmF m c) (srcK (eK m c)) (dstK (eK m c)) (h0F m c) n f :=
  (congrFun (W1_v41 m c) (ix2 n f)).trans
    (agg_at (N := 100000) (E := 3300000) (C := 3) (by decide)
      scatter_S100000x3_S3300000x1_S3300000x3_1_0_0_1 rfl rfl rfl rfl
      gather_S100000x3_S3300000x1_S3300000x3_1_0_n_n_0_1_13 rfl rfl rfl rfl rfl rfl rfl
      bcast_S_S100000x3 bcast_S3300000_S3300000x1_0 bcast_S3300000x1_S3300000x3_0_1
      (nrmK (F := Ideal) (eK m c)) (gidxK (F := Ideal) (eK m c)) (didxK (F := Ideal) (eK m c))
      (m ((c : Thread nD τ).loc main_arg0)) n f)

/-! ## The first dense layer -/

/-- After the first call the output table holds the first layer's node table. -/
theorem W2_v43_at (c : Dev nD) (n : Fin 100000) (o : Fin 32) :
    (W2 (F := Ideal) m c (Proc.devRef .tc main_v43) : S100000x32.Idx → EReal) (ix2 n o) = h1F m c n o := by
  show (W2 (F := Ideal) m c (Proc.devRef .tc (Pipeline.arrRef spec0 (3 : Fin cfg0.W))) : S100000x32.Idx → EReal) (ix2 n o) = _
  rw [W2_arr]
  refine (lin_val0 (V1 m) c _ _ _ rfl rfl rfl n o).trans ?_
  have e1 : (fun (n : Fin 100000) (k : Fin 3) => (V1 m c main_v41 : S100000x3.Idx → EReal) (ix2 n k))
      = Cert.Spec.agg (nrmF m c) (srcK (eK m c)) (dstK (eK m c)) (h0F m c) :=
    funext fun n => funext fun k => W1_v41_at m c n k
  have e2 : (fun (k : Fin 3) (o : Fin 32) => (V1 m c main_arg3 : S3x32.Idx → EReal) (ix2 k o)) = w1F m c :=
    funext fun k => funext fun o => congrFun (W1_arg3 m c) (ix2 k o)
  have e3 : (V1 m c main_v42 : S1x32.Idx → EReal) (ix2 0 o) = b1F m c o :=
    (congrFun (W1_v42 m c) (ix2 0 o)).trans (shapeCast_a_1a_apply _ _ 0 o)
  rw [e1, e2, e3]
  rfl

/-! ## The second stretch -/

theorem W2_nrm (c : Dev nD) : W2 (F := Ideal) m c (Proc.devRef .tc main_v28) = nrmK (F := Ideal) (eK m c) :=
  (W2_of_ne m c main_v28 (by decide)).trans (W1_nrm m c)
theorem W2_esrc (c : Dev nD) : W2 (F := Ideal) m c (Proc.devRef .tc main_v3) = esrcK (F := Ideal) (eK m c) :=
  (W2_of_ne m c main_v3 (by decide)).trans (W1_esrc m c)
theorem W2_edst (c : Dev nD) : W2 (F := Ideal) m c (Proc.devRef .tc main_v6) = edstK (F := Ideal) (eK m c) :=
  (W2_of_ne m c main_v6 (by decide)).trans (W1_edst m c)
theorem W2_arg5 (c : Dev nD) : W2 (F := Ideal) m c (Proc.devRef .tc main_arg5) = m ((c : Thread nD τ).loc main_arg5) :=
  (W2_of_ne m c main_arg5 (by decide)).trans (StableHlo.after_of_writes_sub hostOps0 _ hostOps0_writes (by decide))
theorem W2_arg6 (c : Dev nD) : W2 (F := Ideal) m c (Proc.devRef .tc main_arg6) = m ((c : Thread nD τ).loc main_arg6) :=
  (W2_of_ne m c main_arg6 (by decide)).trans (StableHlo.after_of_writes_sub hostOps0 _ hostOps0_writes (by decide))

/-- The second aggregated table, as the scatter-add of the scaled gathered rows. -/
theorem W3_v56 (c : Dev nD) :
    (W3 (F := Ideal) m c (Proc.devRef .tc main_v56) : S100000x32.Idx → EReal)
      = Host.scatterAdd (F := Ideal) (φ := .f32) scatter_S100000x32_S3300000x1_S3300000x32_1_0_0_1
          (broadcastInDim S100000x32 ![] bcast_S_S100000x32 (constant (F := Ideal) S_ .f32 0x00000000#32))
          (didxK (F := Ideal) (eK m c))
          (mulf (F := Ideal) (φ := .f32)
            (broadcastInDim S3300000x32 ![0, 1] bcast_S3300000x1_S3300000x32_0_1
              (broadcastInDim S3300000x1 ![0] bcast_S3300000_S3300000x1_0 (nrmK (F := Ideal) (eK m c))))
            (Host.gather gather_S100000x32_S3300000x1_S3300000x32_1_0_n_n_0_1_132
              (W2 (F := Ideal) m c (Proc.devRef .tc main_v43) : S100000x32.Idx → EReal) (gidxK (F := Ideal) (eK m c)))) := by
  show StableHlo.after hostOps1 (W2 m c) (Proc.devRef .tc main_v56) = _
  host_read
  rw [W2_nrm m c, W2_esrc m c, W2_edst m c]
  rfl

/-- The second bias vector as a row. -/
theorem W3_v57 (c : Dev nD) :
    (W3 (F := Ideal) m c (Proc.devRef .tc main_v57) : S1x64.Idx → EReal)
      = shapeCast S1x64 (m ((c : Thread nD τ).loc main_arg6) : S64.Idx → EReal) shapeCasts_S64_S1x64 := by
  show StableHlo.after hostOps1 (W2 m c) (Proc.devRef .tc main_v57) = _
  host_read
  rw [W2_arg6 m c]
  rfl

/-- The second weight matrix is as launched. -/
theorem W3_arg5 (c : Dev nD) : W3 (F := Ideal) m c (Proc.devRef .tc main_arg5) = m ((c : Thread nD τ).loc main_arg5) :=
  (StableHlo.after_of_writes_sub hostOps1 _ hostOps1_writes (by decide)).trans (W2_arg5 m c)

/-- The second aggregated table at node n, feature f. -/
theorem W3_v56_at (c : Dev nD) (n : Fin 100000) (f : Fin 32) :
    (W3 (F := Ideal) m c (Proc.devRef .tc main_v56) : S100000x32.Idx → EReal) (ix2 n f)
      = Cert.Spec.agg (nrmF m c) (srcK (eK m c)) (dstK (eK m c)) (h1F m c) n f :=
  (congrFun (W3_v56 m c) (ix2 n f)).trans
    ((agg_at (N := 100000) (E := 3300000) (C := 32) (by decide)
      scatter_S100000x32_S3300000x1_S3300000x32_1_0_0_1 rfl rfl rfl rfl
      gather_S100000x32_S3300000x1_S3300000x32_1_0_n_n_0_1_132 rfl rfl rfl rfl rfl rfl rfl
      bcast_S_S100000x32 bcast_S3300000_S3300000x1_0 bcast_S3300000x1_S3300000x32_0_1
      (nrmK (F := Ideal) (eK m c)) (gidxK (F := Ideal) (eK m c)) (didxK (F := Ideal) (eK m c))
      (W2 (F := Ideal) m c (Proc.devRef .tc main_v43)) n f).trans
      (congrArg (fun h => Cert.Spec.agg (nrmF m c) (srcK (eK m c)) (dstK (eK m c)) h n f)
        (funext fun n => funext fun f => W2_v43_at m c n f)))

/-! ## The second dense layer -/

/-- After the second call the output table holds the second layer's node table. -/
theorem W4_v58_at (c : Dev nD) (n : Fin 100000) (o : Fin 64) :
    (W4 (F := Ideal) m c (Proc.devRef .tc main_v58) : S100000x64.Idx → EReal) (ix2 n o) = h2F m c n o := by
  show (W4 (F := Ideal) m c (Proc.devRef .tc (Pipeline.arrRef spec1 (3 : Fin cfg1.W))) : S100000x64.Idx → EReal) (ix2 n o) = _
  rw [W4_arr]
  refine (lin_val1 (V3 m) c _ _ _ rfl rfl rfl n o).trans ?_
  have e1 : (fun (n : Fin 100000) (k : Fin 32) => (V3 m c main_v56 : S100000x32.Idx → EReal) (ix2 n k))
      = Cert.Spec.agg (nrmF m c) (srcK (eK m c)) (dstK (eK m c)) (h1F m c) :=
    funext fun n => funext fun k => W3_v56_at m c n k
  have e2 : (fun (k : Fin 32) (o : Fin 64) => (V3 m c main_arg5 : S32x64.Idx → EReal) (ix2 k o)) = w2F m c :=
    funext fun k => funext fun o => congrFun (W3_arg5 m c) (ix2 k o)
  have e3 : (V3 m c main_v57 : S1x64.Idx → EReal) (ix2 0 o) = b2F m c o :=
    (congrFun (W3_v57 m c) (ix2 0 o)).trans (shapeCast_a_1a_apply _ _ 0 o)
  rw [e1, e2, e3]
  rfl

/-! ## The third stretch -/

theorem W4_nrm (c : Dev nD) : W4 (F := Ideal) m c (Proc.devRef .tc main_v28) = nrmK (F := Ideal) (eK m c) :=
  (W4_of_ne m c main_v28 (by decide)).trans
    ((StableHlo.after_of_writes_sub hostOps1 _ hostOps1_writes (by decide)).trans (W2_nrm m c))
theorem W4_esrc (c : Dev nD) : W4 (F := Ideal) m c (Proc.devRef .tc main_v3) = esrcK (F := Ideal) (eK m c) :=
  (W4_of_ne m c main_v3 (by decide)).trans
    ((StableHlo.after_of_writes_sub hostOps1 _ hostOps1_writes (by decide)).trans (W2_esrc m c))
theorem W4_edst (c : Dev nD) : W4 (F := Ideal) m c (Proc.devRef .tc main_v6) = edstK (F := Ideal) (eK m c) :=
  (W4_of_ne m c main_v6 (by decide)).trans
    ((StableHlo.after_of_writes_sub hostOps1 _ hostOps1_writes (by decide)).trans (W2_edst m c))
theorem W4_arg7 (c : Dev nD) : W4 (F := Ideal) m c (Proc.devRef .tc main_arg7) = m ((c : Thread nD τ).loc main_arg7) :=
  (W4_of_ne m c main_arg7 (by decide)).trans
    ((StableHlo.after_of_writes_sub hostOps1 _ hostOps1_writes (by decide)).trans
      ((W2_of_ne m c main_arg7 (by decide)).trans (StableHlo.after_of_writes_sub hostOps0 _ hostOps0_writes (by decide))))
theorem W4_arg8 (c : Dev nD) : W4 (F := Ideal) m c (Proc.devRef .tc main_arg8) = m ((c : Thread nD τ).loc main_arg8) :=
  (W4_of_ne m c main_arg8 (by decide)).trans
    ((StableHlo.after_of_writes_sub hostOps1 _ hostOps1_writes (by decide)).trans
      ((W2_of_ne m c main_arg8 (by decide)).trans (StableHlo.after_of_writes_sub hostOps0 _ hostOps0_writes (by decide))))
theorem W4_arg2 (c : Dev nD) : W4 (F := Ideal) m c (Proc.devRef .tc main_arg2) = m ((c : Thread nD τ).loc main_arg2) :=
  (W4_of_ne m c main_arg2 (by decide)).trans
    ((StableHlo.after_of_writes_sub hostOps1 _ hostOps1_writes (by decide)).trans
      ((W2_of_ne m c main_arg2 (by decide)).trans (StableHlo.after_of_writes_sub hostOps0 _ hostOps0_writes (by decide))))

/-- The third aggregated table, as the scatter-add of the scaled gathered rows. -/
theorem W5_v71 (c : Dev nD) :
    (W5 (F := Ideal) m c (Proc.devRef .tc main_v71) : S100000x64.Idx → EReal)
      = Host.scatterAdd (F := Ideal) (φ := .f32) scatter_S100000x64_S3300000x1_S3300000x64_1_0_0_1
          (broadcastInDim S100000x64 ![] bcast_S_S100000x64 (constant (F := Ideal) S_ .f32 0x00000000#32))
          (didxK (F := Ideal) (eK m c))
          (mulf (F := Ideal) (φ := .f32)
            (broadcastInDim S3300000x64 ![0, 1] bcast_S3300000x1_S3300000x64_0_1
              (broadcastInDim S3300000x1 ![0] bcast_S3300000_S3300000x1_0 (nrmK (F := Ideal) (eK m c))))
            (Host.gather gather_S100000x64_S3300000x1_S3300000x64_1_0_n_n_0_1_164
              (W4 (F := Ideal) m c (Proc.devRef .tc main_v58) : S100000x64.Idx → EReal) (gidxK (F := Ideal) (eK m c)))) := by
  show StableHlo.after hostOps2 (W4 m c) (Proc.devRef .tc main_v71) = _
  host_read
  rw [W4_nrm m c, W4_esrc m c, W4_edst m c]
  rfl

/-- The third bias vector as a row. -/
theorem W5_v72 (c : Dev nD) :
    (W5 (F := Ideal) m c (Proc.devRef .tc main_v72) : S1x2.Idx → EReal)
      = shapeCast S1x2 (m ((c : Thread nD τ).loc main_arg8) : S2.Idx → EReal) shapeCasts_S2_S1x2 := by
  show StableHlo.after hostOps2 (W4 m c) (Proc.devRef .tc main_v72) = _
  host_read
  rw [W4_arg8 m c]
  rfl

/-- The third weight matrix is as launched. -/
theorem W5_arg7 (c : Dev nD) : W5 (F := Ideal) m c (Proc.devRef .tc main_arg7) = m ((c : Thread nD τ).loc main_arg7) :=
  (StableHlo.after_of_writes_sub hostOps2 _ hostOps2_writes (by decide)).trans (W4_arg7 m c)

/-- The third aggregated table at node n, feature f. -/
theorem W5_v71_at (c : Dev nD) (n : Fin 100000) (f : Fin 64) :
    (W5 (F := Ideal) m c (Proc.devRef .tc main_v71) : S100000x64.Idx → EReal) (ix2 n f)
      = Cert.Spec.agg (nrmF m c) (srcK (eK m c)) (dstK (eK m c)) (h2F m c) n f :=
  (congrFun (W5_v71 m c) (ix2 n f)).trans
    ((agg_at (N := 100000) (E := 3300000) (C := 64) (by decide)
      scatter_S100000x64_S3300000x1_S3300000x64_1_0_0_1 rfl rfl rfl rfl
      gather_S100000x64_S3300000x1_S3300000x64_1_0_n_n_0_1_164 rfl rfl rfl rfl rfl rfl rfl
      bcast_S_S100000x64 bcast_S3300000_S3300000x1_0 bcast_S3300000x1_S3300000x64_0_1
      (nrmK (F := Ideal) (eK m c)) (gidxK (F := Ideal) (eK m c)) (didxK (F := Ideal) (eK m c))
      (W4 (F := Ideal) m c (Proc.devRef .tc main_v58)) n f).trans
      (congrArg (fun h => Cert.Spec.agg (nrmF m c) (srcK (eK m c)) (dstK (eK m c)) h n f)
        (funext fun n => funext fun f => W4_v58_at m c n f)))

/-! ## The third dense layer -/

/-- After the third call the output table holds the third layer's node table. -/
theorem W6_v73_at (c : Dev nD) (n : Fin 100000) (o : Fin 2) :
    (W6 (F := Ideal) m c (Proc.devRef .tc main_v73) : S100000x2.Idx → EReal) (ix2 n o) = h3F m c n o := by
  show (W6 (F := Ideal) m c (Proc.devRef .tc (Pipeline.arrRef spec2 (3 : Fin cfg2.W))) : S100000x2.Idx → EReal) (ix2 n o) = _
  rw [W6_arr]
  refine (lin_val2 (V5 m) c _ _ _ rfl rfl rfl n o).trans ?_
  have e1 : (fun (n : Fin 100000) (k : Fin 64) => (V5 m c main_v71 : S100000x64.Idx → EReal) (ix2 n k))
      = Cert.Spec.agg (nrmF m c) (srcK (eK m c)) (dstK (eK m c)) (h2F m c) :=
    funext fun n => funext fun k => W5_v71_at m c n k
  have e2 : (fun (k : Fin 64) (o : Fin 2) => (V5 m c main_arg7 : S64x2.Idx → EReal) (ix2 k o)) = w3F m c :=
    funext fun k => funext fun o => congrFun (W5_arg7 m c) (ix2 k o)
  have e3 : (V5 m c main_v72 : S1x2.Idx → EReal) (ix2 0 o) = b3F m c o :=
    (congrFun (W5_v72 m c) (ix2 0 o)).trans (shapeCast_a_1a_apply _ _ 0 o)
  rw [e1, e2, e3]
  rfl

/-! ## The group column, the read-out and the division -/

/-- The group numbers as a column. -/
theorem W7_v74 (c : Dev nD) :
    (W7 (F := Ideal) m c (Proc.devRef .tc main_v74) : IVec S100000x1 32)
      = shapeCast S100000x1 (m ((c : Thread nD τ).loc main_arg2) : IVec S100000 32) shapeCasts_S100000_S100000x1 := by
  show StableHlo.after hostOps3 (W6 m c) (Proc.devRef .tc main_v74) = _
  host_read
  rw [show W6 (F := Ideal) m c (Proc.devRef .tc main_arg2) = m ((c : Thread nD τ).loc main_arg2) from
    (W6_of_ne m c main_arg2 (by decide)).trans
      ((StableHlo.after_of_writes_sub hostOps2 _ hostOps2_writes (by decide)).trans (W4_arg2 m c))]
  rfl

/-- The third layer's node table is still there when the read-out starts. -/
theorem W7_v73 (c : Dev nD) :
    W7 (F := Ideal) m c (Proc.devRef .tc main_v73) = W6 (F := Ideal) m c (Proc.devRef .tc main_v73) :=
  StableHlo.after_of_writes_sub hostOps3 _ hostOps3_writes (by decide)

/-- The group sums after the read-out. -/
theorem W8_sums_at (c : Dev nD) (s : Fin 128) (o : Fin 2) :
    (W8 (F := Ideal) m c (Proc.devRef .tc main_v75_0) : S128x2.Idx → EReal) (ix2 s o)
      = Cert.Spec.poolSum (batK (m ((c : Thread nD τ).loc main_arg2))) (h3F m c) s o := by
  show (W8 (F := Ideal) m c (Proc.devRef .tc (Pipeline.arrRef spec3 (2 : Fin cfg3.W))) : S128x2.Idx → EReal) (ix2 s o) = _
  rw [W8_arr]
  refine (pool_val_sums (V7 m) c _ _ rfl rfl s o).trans ?_
  have e1 : (fun (n : Fin 100000) => ((V7 m c main_v74 : IVec S100000x1 32) (ix2 n 0)).toInt)
      = batK (m ((c : Thread nD τ).loc main_arg2)) :=
    funext fun n => congrArg BitVec.toInt ((congrFun (W7_v74 m c) (ix2 n 0)).trans (colCast_apply _ _ n))
  have e2 : (fun (n : Fin 100000) (f : Fin 2) => (V7 m c main_v73 : S100000x2.Idx → EReal) (ix2 n f)) = h3F m c :=
    funext fun n => funext fun f => (congrFun (W7_v73 m c) (ix2 n f)).trans (W6_v73_at m c n f)
  rw [e1, e2]

/-- The group counts after the read-out. -/
theorem W8_cnt_at (c : Dev nD) (s : Fin 128) :
    (W8 (F := Ideal) m c (Proc.devRef .tc main_v75_1) : S128x1.Idx → EReal) (ix2 s 0)
      = Cert.Spec.poolCnt (batK (m ((c : Thread nD τ).loc main_arg2))) s := by
  show (W8 (F := Ideal) m c (Proc.devRef .tc (Pipeline.arrRef spec3 (3 : Fin cfg3.W))) : S128x1.Idx → EReal) (ix2 s 0) = _
  rw [W8_arr]
  refine (pool_val_cnt (V7 m) c _ _ rfl rfl s).trans ?_
  have e1 : (fun (n : Fin 100000) => ((V7 m c main_v74 : IVec S100000x1 32) (ix2 n 0)).toInt)
      = batK (m ((c : Thread nD τ).loc main_arg2)) :=
    funext fun n => congrArg BitVec.toInt ((congrFun (W7_v74 m c) (ix2 n 0)).trans (colCast_apply _ _ n))
  rw [e1]

/-- The result array: the sums over the counts, a count below one read as one. -/
theorem W9_v79 (c : Dev nD) :
    (W9 (F := Ideal) m c (Proc.devRef .tc main_v79) : S128x2.Idx → EReal)
      = Host.divf (F := Ideal) (φ := .f32) (W8 (F := Ideal) m c (Proc.devRef .tc main_v75_0) : S128x2.Idx → EReal)
          (broadcastInDim S128x2 ![0, 1] bcast_S128x1_S128x2_0_1
            (maximumf (F := Ideal) (φ := .f32) (W8 (F := Ideal) m c (Proc.devRef .tc main_v75_1) : S128x1.Idx → EReal)
              (broadcastInDim S128x1 ![] bcast_S_S128x1 (constant (F := Ideal) S_ .f32 0x3F800000#32)))) := by
  show StableHlo.after hostOps4 (W8 m c) (Proc.devRef .tc main_v79) = _
  host_read

/-- The result at group s, column o is the group mean of the third layer's node table. -/
theorem W9_v79_at (c : Dev nD) (s : Fin 128) (o : Fin 2) :
    (W9 (F := Ideal) m c (Proc.devRef .tc main_v79) : S128x2.Idx → EReal) (ix2 s o)
      = Cert.Spec.meanPool (batK (m ((c : Thread nD τ).loc main_arg2))) (h3F m c) s o := by
  refine (congrFun (W9_v79 m c) (ix2 s o)).trans ?_
  refine (hostDivf_apply _ _ (ix2 s o)).trans ?_
  rw [spread_apply]
  refine (congrArg (Ideal.div _) (maximumf_apply _ _ (ix2 s 0))).trans ?_
  rw [broadcastInDim_scalar_apply, constant_apply, Ideal.ofBits_one_f32, W8_sums_at, W8_cnt_at]
  rfl

/-! ## The result -/

/-- The program's result at group s, column o: the specification's network on the launch contents of the nine
    arguments. -/
theorem kernel_value (c : Dev nD) (s : Fin 128) (o : Fin 2) :
    (W9 (F := Ideal) m c (Proc.devRef .tc main_v79) : S128x2.Idx → EReal) (ix2 s o)
      = Cert.Spec.netK
          (fun e => (nrmK (F := Ideal) (m ((c : Thread nD τ).loc main_arg1)) : S3300000.Idx → EReal) (ix1 e))
          (srcK (m ((c : Thread nD τ).loc main_arg1)))
          (dstK (m ((c : Thread nD τ).loc main_arg1)))
          (batK (m ((c : Thread nD τ).loc main_arg2)))
          (fun n f => (m ((c : Thread nD τ).loc main_arg0) : S100000x3.Idx → EReal) (ix2 n f))
          (fun k o => (m ((c : Thread nD τ).loc main_arg3) : S3x32.Idx → EReal) (ix2 k o))
          (fun o => (m ((c : Thread nD τ).loc main_arg4) : S32.Idx → EReal) (ix1 o))
          (fun k o => (m ((c : Thread nD τ).loc main_arg5) : S32x64.Idx → EReal) (ix2 k o))
          (fun o => (m ((c : Thread nD τ).loc main_arg6) : S64.Idx → EReal) (ix1 o))
          (fun k o => (m ((c : Thread nD τ).loc main_arg7) : S64x2.Idx → EReal) (ix2 k o))
          (fun o => (m ((c : Thread nD τ).loc main_arg8) : S2.Idx → EReal) (ix1 o))
          s o := by
  refine (W9_v79_at m c s o).trans ?_
  unfold Cert.Spec.netK h3F h2F h1F
  rfl

end Cert.KernelIdeal.Hand

end
-- ==== Proof.Algebra.lean ====
/-
  The algebra of the graph network over the extended reals, for arbitrary sizes.

  On real-valued data a finite sum of products of reals is again a real, and the positive part of a real is a
  real; so every layer of the network maps real tables to real tables.  On such data, aggregating along the edges
  and multiplying by a weight matrix commute: both are finite sums, the first over the edges (acting on the node
  axis), the second over the input features, and a double finite sum of reals may be taken in either order.
  Hence the aggregate-first layer and the multiply-first layer agree, and so do the two three-layer networks.
-/
import proofs.«418470_j49907519979654_1_alg».proof.Proof.Spec
import Mathlib.Data.EReal.Basic
import Mathlib.Algebra.BigOperators.Ring.Finset
import Mathlib.Algebra.BigOperators.Group.Finset.Basic
import Mathlib.Tactic.Ring

noncomputable section

namespace Cert.Spec

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice between a real and zero is the coercion of the same choice among the reals. -/
theorem coe_ite_zero (c : Prop) [Decidable c] (r : ℝ) :
    (if c then (r : EReal) else 0) = ((if c then r else 0 : ℝ) : EReal) := by
  split_ifs <;> simp

/-- A real vector is the coercion of a vector of reals. -/
theorem Real1.exists_eq {N : ℕ} {v : Fin N → EReal} (hv : Real1 v) :
    ∃ r : Fin N → ℝ, v = fun n => (r n : EReal) := by
  choose r hr using hv
  exact ⟨r, funext hr⟩

/-- A real table is the coercion of a table of reals. -/
theorem Real2.exists_eq {N C : ℕ} {h : Fin N → Fin C → EReal} (hh : Real2 h) :
    ∃ r : Fin N → Fin C → ℝ, h = fun n f => (r n f : EReal) := by
  choose r hr using hh
  exact ⟨r, funext fun n => funext fun f => hr n f⟩

/-- Aggregation of real tables with real edge weights, written among the reals. -/
theorem agg_coe {E N C : ℕ} (nr : Fin E → ℝ) (src : Fin E → Fin N) (dst : Fin E → ℤ)
    (hr : Fin N → Fin C → ℝ) (n : Fin N) (f : Fin C) :
    agg (fun e => (nr e : EReal)) src dst (fun n f => (hr n f : EReal)) n f
      = ((∑ e : Fin E, if dst e = (n.val : ℤ) then nr e * hr (src e) f else 0 : ℝ) : EReal) := by
  unfold agg
  rw [coe_sum]
  refine Finset.sum_congr rfl fun e _ => ?_
  rw [← EReal.coe_mul, coe_ite_zero]

/-- The matrix product of real tables, written among the reals. -/
theorem mm_coe {N K C : ℕ} (hr : Fin N → Fin K → ℝ) (Wr : Fin K → Fin C → ℝ) (n : Fin N) (o : Fin C) :
    mm (fun n k => (hr n k : EReal)) (fun k o => (Wr k o : EReal)) n o
      = ((∑ k : Fin K, hr n k * Wr k o : ℝ) : EReal) := by
  unfold mm
  rw [coe_sum]
  refine Finset.sum_congr rfl fun k _ => ?_
  rw [← EReal.coe_mul]

/-- Aggregating real node features with real edge weights gives real node features. -/
theorem agg_real {E N C : ℕ} (nrm : Fin E → EReal) (src : Fin E → Fin N) (dst : Fin E → ℤ)
    (h : Fin N → Fin C → EReal) (hn : Real1 nrm) (hh : Real2 h) : Real2 (agg nrm src dst h) := by
  obtain ⟨nr, rfl⟩ := hn.exists_eq
  obtain ⟨hr, rfl⟩ := hh.exists_eq
  intro n f
  exact ⟨_, agg_coe nr src dst hr n f⟩

/-- The matrix product of real tables is a real table. -/
theorem mm_real {N K C : ℕ} (h : Fin N → Fin K → EReal) (W : Fin K → Fin C → EReal)
    (hh : Real2 h) (hW : Real2 W) : Real2 (mm h W) := by
  obtain ⟨hr, rfl⟩ := hh.exists_eq
  obtain ⟨Wr, rfl⟩ := hW.exists_eq
  intro n o
  exact ⟨_, mm_coe hr Wr n o⟩

/-- The positive part of a real table is a real table. -/
theorem relu_real {N C : ℕ} (h : Fin N → Fin C → EReal) (hh : Real2 h) : Real2 (relu h) := by
  intro n o
  obtain ⟨r, hr⟩ := hh n o
  refine ⟨max r 0, ?_⟩
  unfold relu
  rw [hr, ← EReal.coe_zero]
  exact (EReal.coe_strictMono.monotone.map_max).symm

/-- Adding a real vector along the feature axis keeps a real table real. -/
theorem add_bias_real {N C : ℕ} (h : Fin N → Fin C → EReal) (b : Fin C → EReal)
    (hh : Real2 h) (hb : Real1 b) : Real2 (fun n o => h n o + b o) := by
  intro n o
  obtain ⟨r, hr⟩ := hh n o
  obtain ⟨s, hs⟩ := hb o
  exact ⟨r + s, by show h n o + b o = _; rw [hr, hs, EReal.coe_add]⟩

/-- An aggregate-first layer maps real data to a real table. -/
theorem layerK_real {E N K C : ℕ} (nrm : Fin E → EReal) (src : Fin E → Fin N) (dst : Fin E → ℤ)
    (h : Fin N → Fin K → EReal) (W : Fin K → Fin C → EReal) (b : Fin C → EReal)
    (hn : Real1 nrm) (hh : Real2 h) (hW : Real2 W) (hb : Real1 b) : Real2 (layerK nrm src dst h W b) :=
  add_bias_real _ b (mm_real _ W (agg_real nrm src dst h hn hh) hW) hb

/-- A multiply-first layer maps real data to a real table. -/
theorem layerR_real {E N K C : ℕ} (nrm : Fin E → EReal) (src : Fin E → Fin N) (dst : Fin E → ℤ)
    (h : Fin N → Fin K → EReal) (W : Fin K → Fin C → EReal) (b : Fin C → EReal)
    (hn : Real1 nrm) (hh : Real2 h) (hW : Real2 W) (hb : Real1 b) : Real2 (layerR nrm src dst h W b) :=
  add_bias_real _ b (agg_real nrm src dst _ hn (mm_real h W hh hW)) hb

/-- Among the reals, aggregation along the edges commutes with the matrix product: the double sum over the
input features and the edges is taken in either order, and a factor independent of the inner index moves out. -/
theorem real_agg_mm_comm {E N K C : ℕ} (nr : Fin E → ℝ) (src : Fin E → Fin N) (dst : Fin E → ℤ)
    (hr : Fin N → Fin K → ℝ) (Wr : Fin K → Fin C → ℝ) (n : Fin N) (o : Fin C) :
    (∑ k : Fin K, (∑ e : Fin E, if dst e = (n.val : ℤ) then nr e * hr (src e) k else 0) * Wr k o)
      = ∑ e : Fin E, if dst e = (n.val : ℤ) then nr e * ∑ k : Fin K, hr (src e) k * Wr k o else 0 := by
  simp only [Finset.sum_mul]
  rw [Finset.sum_comm]
  refine Finset.sum_congr rfl fun e _ => ?_
  split_ifs with hc
  · rw [Finset.mul_sum]
    refine Finset.sum_congr rfl fun k _ => ?_
    ring
  · simp

/-- On real-valued data the matrix product of the aggregated features is the aggregate of the matrix product. -/
theorem mm_agg_eq_agg_mm {E N K C : ℕ} (nrm : Fin E → EReal) (src : Fin E → Fin N) (dst : Fin E → ℤ)
    (h : Fin N → Fin K → EReal) (W : Fin K → Fin C → EReal)
    (hn : Real1 nrm) (hh : Real2 h) (hW : Real2 W) :
    mm (agg nrm src dst h) W = agg nrm src dst (mm h W) := by
  obtain ⟨nr, rfl⟩ := hn.exists_eq
  obtain ⟨hr, rfl⟩ := hh.exists_eq
  obtain ⟨Wr, rfl⟩ := hW.exists_eq
  funext n o
  have h1 : agg (fun e => (nr e : EReal)) src dst (fun n f => (hr n f : EReal))
      = fun n f => ((∑ e : Fin E, if dst e = (n.val : ℤ) then nr e * hr (src e) f else 0 : ℝ) : EReal) :=
    funext fun n => funext fun f => agg_coe nr src dst hr n f
  have h2 : mm (fun n k => (hr n k : EReal)) (fun k o => (Wr k o : EReal))
      = fun n o => ((∑ k : Fin K, hr n k * Wr k o : ℝ) : EReal) :=
    funext fun n => funext fun o => mm_coe hr Wr n o
  rw [h1, h2, mm_coe, agg_coe, real_agg_mm_comm]

/-- On real-valued data the aggregate-first layer and the multiply-first layer agree. -/
theorem layerK_eq_layerR {E N K C : ℕ} (nrm : Fin E → EReal) (src : Fin E → Fin N) (dst : Fin E → ℤ)
    (h : Fin N → Fin K → EReal) (W : Fin K → Fin C → EReal) (b : Fin C → EReal)
    (hn : Real1 nrm) (hh : Real2 h) (hW : Real2 W) :
    layerK nrm src dst h W b = layerR nrm src dst h W b := by
  funext n o
  unfold layerK layerR
  rw [mm_agg_eq_agg_mm nrm src dst h W hn hh hW]

/-- On real-valued data the aggregate-first network and the multiply-first network agree: the layer law is used
three times, each layer's output being real and so admissible to the next. -/
theorem netK_eq_netR {E N G C0 C1 C2 C3 : ℕ} (nrm : Fin E → EReal) (src : Fin E → Fin N) (dst : Fin E → ℤ)
    (bat : Fin N → ℤ) (x : Fin N → Fin C0 → EReal) (W1 : Fin C0 → Fin C1 → EReal) (b1 : Fin C1 → EReal)
    (W2 : Fin C1 → Fin C2 → EReal) (b2 : Fin C2 → EReal) (W3 : Fin C2 → Fin C3 → EReal) (b3 : Fin C3 → EReal)
    (hn : Real1 nrm) (hx : Real2 x) (hW1 : Real2 W1) (hb1 : Real1 b1) (hW2 : Real2 W2) (hb2 : Real1 b2)
    (hW3 : Real2 W3) :
    netK (G := G) nrm src dst bat x W1 b1 W2 b2 W3 b3 = netR nrm src dst bat x W1 b1 W2 b2 W3 b3 := by
  unfold netK netR
  have e1 : layerK nrm src dst x W1 b1 = layerR nrm src dst x W1 b1 :=
    layerK_eq_layerR nrm src dst x W1 b1 hn hx hW1
  have r1 : Real2 (relu (layerR nrm src dst x W1 b1)) :=
    relu_real _ (layerR_real nrm src dst x W1 b1 hn hx hW1 hb1)
  have e2 : layerK nrm src dst (relu (layerR nrm src dst x W1 b1)) W2 b2
      = layerR nrm src dst (relu (layerR nrm src dst x W1 b1)) W2 b2 :=
    layerK_eq_layerR nrm src dst _ W2 b2 hn r1 hW2
  have r2 : Real2 (relu (layerR nrm src dst (relu (layerR nrm src dst x W1 b1)) W2 b2)) :=
    relu_real _ (layerR_real nrm src dst _ W2 b2 hn r1 hW2 hb2)
  have e3 := layerK_eq_layerR nrm src dst
    (relu (layerR nrm src dst (relu (layerR nrm src dst x W1 b1)) W2 b2)) W3 b3 hn r2 hW3
  rw [e1, e2, e3]

end Cert.Spec

end
-- ==== Proof.LibVecGather.lean ====
/-
  A host gather out of a rank-1 table, read at an index, for arbitrary sizes and any element type: E scalars are
  gathered out of a vector of length N, the e-th one from the position that the e-th start index selects. A start
  index is read signed and clamped into 0..N-1.
-/
import Idealize.ShloMosaic.PureOps.Ideal
import Idealize.ShloMosaic.Lib.ValueIdx
import proofs.«418470_j49907519979654_1_alg».proof.Proof.LibRowOps

noncomputable section

namespace Cert.LibVecGather

open Idealize.ShloMosaic Idealize.ShloMosaic.ValueIdx Cert.LibRowOps

/-- E scalars gathered out of a vector of length N (the one operand axis collapsed, no offset axis, no batching
    axis, one start-index component per result entry): entry e of the result is the vector's entry at the clamped
    signed start index of e. -/
theorem gather_vec_apply {α : Type} {N E w : Nat} (hN : 0 < N) (d : GatherDims ⟨1, ![N]⟩ ⟨2, ![E, 1]⟩ ⟨1, ![E]⟩)
    (ho : d.offsetDims = []) (hc : d.collapsedSliceDims = [0]) (hb : d.operandBatchingDims = [])
    (hsb : d.startIndicesBatchingDims = []) (hm : d.startIndexMap = [0]) (hv : d.indexVectorDim = 1)
    (hsz : d.sliceSizes = ![1])
    (x : (⟨1, ![N]⟩ : Shape).Idx → α) (idx : IVec ⟨2, ![E, 1]⟩ w) (e : Fin E) :
    Host.gather d x idx (ix1 e) = x (ix1 (clampRow N hN (idx (ix2 e 0)).toInt)) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix1 e) idx a + GatherDims.batchCoord _ (ix1 e) a + GatherDims.offCoord _ (ix1 e) a = _
  rw [GatherDims.batchCoord_eq_zero _ _ _ List.not_mem_nil, Nat.add_zero]
  revert a
  rw [Fin.forall_fin_one]
  -- the one operand axis is collapsed: no offset coordinate, and the start is the clamped start index
  rw [GatherDims.offCoord_eq_zero _ _ _ (fun h => ((GatherDims.mem_sKept _ _).mp h).1 (List.mem_singleton.mpr rfl)),
    Nat.add_zero]
  unfold GatherDims.start
  rw [dif_pos (List.mem_singleton.mpr rfl)]
  have hsi : ∀ c, GatherDims.siIdx (s := ⟨1, ![N]⟩) (si := ⟨2, ![E, 1]⟩) (t := ⟨1, ![E]⟩)
      ⟨[], [0], [], [], [0], 1, ![1], wf⟩ (ix1 e) c = ix2 e 0 := by
    intro c
    funext b; refine Fin.ext ?_
    match b with
    | ⟨0, _⟩ => rfl
    | ⟨1, _⟩ => exact Nat.lt_one_iff.mp c.isLt
  rw [hsi]
  show min (idx (ix2 e 0)).toInt.toNat (N - 1) = (min (max (idx (ix2 e 0)).toInt 0) ((N - 1 : Nat) : Int)).toNat
  omega

end Cert.LibVecGather

end
-- ==== Proof.KI.NormReal.lean ====
/-
  Every edge weight of the program is a real number.  The inverse root degree of node n is
  rsqrt (max (0 + the number of edges whose target number is n) 1): the count is a finite sum of zeros and ones,
  a real; its maximum with 1 is a real r >= 1; and the inverse root of a positive real is the real (sqrt r)^-1.
  An edge's weight is the product of two such values, read at the clamped wrapped source and target numbers.
-/
import proofs.«418470_j49907519979654_1_alg».proof.Proof.KI.Prefix
import proofs.«418470_j49907519979654_1_alg».proof.Proof.Spec
import proofs.«418470_j49907519979654_1_alg».proof.Proof.Algebra
import proofs.«418470_j49907519979654_1_alg».proof.Proof.LibRowOps
import proofs.«418470_j49907519979654_1_alg».proof.Proof.LibVecGather
import Idealize.ShloMosaic.PureOps.Ideal
import Idealize.ShloMosaic.PureOps.Ideal.Laws
import Idealize.ShloMosaic.Lib.ValueIdx
import Idealize.ShloMosaic.Lib.IdealHost

noncomputable section

namespace Cert.KernelIdeal.Hand

open Cert.KernelIdeal Cert.KernelIdeal.Gen
open Idealize.ShloMosaic Idealize.ShloMosaic.ValueIdx

/-- The inverse root of the maximum of a count and 1 is a real: the count of the indices with a property is a
    real t, max t 1 is positive, and rsqrt of a positive real r is (sqrt r)^-1. -/
theorem rsqrt_count_real {E : ℕ} (c : Fin E → Prop) [DecidablePred c] :
    ∃ r : ℝ, Ideal.rsqrt (max ((0 : EReal) + ∑ e : Fin E, if c e then (1 : EReal) else 0) 1) = (r : EReal) := by
  have hs : (∑ e : Fin E, if c e then (1 : EReal) else 0)
      = ((∑ e : Fin E, if c e then (1 : ℝ) else 0 : ℝ) : EReal) := by
    rw [Cert.Spec.coe_sum]
    refine Finset.sum_congr rfl fun e _ => ?_
    split_ifs <;> simp
  rw [hs, zero_add, ← EReal.coe_one, ← EReal.coe_strictMono.monotone.map_max]
  have hpos : (0 : ℝ) < max (∑ e : Fin E, if c e then (1 : ℝ) else 0) 1 := lt_of_lt_of_le one_pos (le_max_right _ _)
  rw [Ideal.rsqrt_coe, if_neg (not_lt.2 hpos.le), if_neg hpos.ne']
  exact ⟨_, rfl⟩

/-- A scatter-add of ones into zeros, its maximum with one, and the inverse root, read at an entry: a real. -/
theorem rsqrt_max_scatter_real {N E w : ℕ} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x one : (⟨1, ![N]⟩ : Shape).Idx → EReal) (idx : IVec ⟨2, ![E, 1]⟩ w) (upd : (⟨1, ![E]⟩ : Shape).Idx → EReal)
    (hx : ∀ i, x i = 0) (hupd : ∀ j, upd j = 1) (hone : ∀ i, one i = 1) (n : Fin N) :
    ∃ r : ℝ, Ideal.rsqrt (max (Ideal.hostScatterAdd d x idx upd (ix1 n)) (one (ix1 n))) = (r : EReal) := by
  rw [Cert.LibRowOps.scatterAdd_vec_apply d hu hi hs hv, hx, hone]
  simp only [hupd]
  exact rsqrt_count_real _

/-- The same fact with the host operations spelled as a program spells them. -/
theorem hostRsqrt_max_scatter_real {N E w : ℕ} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x one : FVec Ideal ⟨1, ![N]⟩ .f32) (idx : IVec ⟨2, ![E, 1]⟩ w) (upd : FVec Ideal ⟨1, ![E]⟩ .f32)
    (hx : ∀ i, x i = (0 : EReal)) (hupd : ∀ j, upd j = (1 : EReal)) (hone : ∀ i, one i = (1 : EReal)) (n : Fin N) :
    ∃ r : ℝ, Host.rsqrt (maximumf (Host.scatterAdd d x idx upd) one) (ix1 n) = (r : EReal) :=
  rsqrt_max_scatter_real d hu hi hs hv x one idx upd hx hupd hone n

/-- Each node's inverse root degree is a real number. -/
theorem dinvK_real (a1 : (⟨S2x3200000, .i32⟩ : BufTy).Contents (Elt Ideal)) (n : Fin 100000) :
    ∃ r : ℝ, dinvK (F := Ideal) a1 (ix1 n) = (r : EReal) := by
  unfold dinvK
  refine hostRsqrt_max_scatter_real scatter_S100000_S3300000x1_S3300000_n_0_0_1 rfl rfl rfl rfl _ _ _ _ ?_ ?_ ?_ n
  · intro i
    rw [broadcastInDim_scalar_apply, constant_apply, Ideal.ofBits_zero_f32]
  · intro j
    rw [broadcastInDim_scalar_apply, constant_apply, Ideal.ofBits_one_f32]
  · intro i
    rw [broadcastInDim_scalar_apply, constant_apply, Ideal.ofBits_one_f32]

/-- The product of two entries gathered out of a real vector is a real. -/
theorem mul_gather_real {N E w : ℕ} (hN : 0 < N) (d : GatherDims ⟨1, ![N]⟩ ⟨2, ![E, 1]⟩ ⟨1, ![E]⟩)
    (ho : d.offsetDims = []) (hc : d.collapsedSliceDims = [0]) (hb : d.operandBatchingDims = [])
    (hsb : d.startIndicesBatchingDims = []) (hm : d.startIndexMap = [0]) (hv : d.indexVectorDim = 1)
    (hsz : d.sliceSizes = ![1])
    (x : FVec Ideal ⟨1, ![N]⟩ .f32) (i1 i2 : IVec ⟨2, ![E, 1]⟩ w)
    (hx : ∀ n : Fin N, ∃ r : ℝ, x (ix1 n) = (r : EReal)) (e : Fin E) :
    ∃ r : ℝ, mulf (Host.gather d x i1) (Host.gather d x i2) (ix1 e) = (r : EReal) := by
  rw [mulf_apply, Cert.LibVecGather.gather_vec_apply hN d ho hc hb hsb hm hv hsz,
    Cert.LibVecGather.gather_vec_apply hN d ho hc hb hsb hm hv hsz]
  obtain ⟨r1, h1⟩ := hx (Cert.LibRowOps.clampRow N hN (i1 (ix2 e 0)).toInt)
  obtain ⟨r2, h2⟩ := hx (Cert.LibRowOps.clampRow N hN (i2 (ix2 e 0)).toInt)
  rw [h1, h2, ← EReal.coe_mul]
  exact ⟨_, rfl⟩

/-- Each edge's weight is a real number. -/
theorem nrmK_real (a1 : (⟨S2x3200000, .i32⟩ : BufTy).Contents (Elt Ideal)) :
    Cert.Spec.Real1 (fun e : Fin 3300000 => nrmK (F := Ideal) a1 (ValueIdx.ix1 e)) := by
  intro e
  show ∃ r : ℝ, nrmK (F := Ideal) a1 (ix1 e) = (r : EReal)
  unfold nrmK
  exact mul_gather_real (by norm_num) gather_S100000_S3300000x1_S3300000_n_0_n_n_0_1_1 rfl rfl rfl rfl rfl rfl rfl _ _ _
    (dinvK_real a1) e

end Cert.KernelIdeal.Hand

end
-- ==== Proof.RefRead.lean ====
/-
  The reference's generated run and read-at-an-index lemmas, gathered under one import for the modules that
  read the reference's result.
-/
import proofs.«418470_j49907519979654_1_alg».proof.Proof.Gen.ReferenceIdeal.Run
import proofs.«418470_j49907519979654_1_alg».proof.Proof.Gen.ReferenceIdeal.Read
-- ==== Proof.RefVal.lean ====
/-
  The reference program's result read at an index.  The reference computes, for every edge, a weight (the product of
  the inverse square roots of the clamped degrees of its two ends), and three times over: a dense product of the node
  table with a weight matrix, a gather of the product's rows at the edges' sources, a scaling by the edge weights, a
  scatter-add of the scaled rows at the edges' targets into a zero table, and the addition of a bias row (the first two
  times followed by the positive part).  Last it adds the node rows into their groups, counts the nodes of each group,
  and divides the sums by the counts clamped below at one.  Read at (group s, column o) this is the multiply-first
  network of the specification at the edge weights, sources, targets and group numbers the program itself computes.
-/
import proofs.«418470_j49907519979654_1_alg».proof.Proof.RefRead
import proofs.«418470_j49907519979654_1_alg».proof.Proof.Spec
import proofs.«418470_j49907519979654_1_alg».proof.Proof.LibRowOps
import Idealize.ShloMosaic.Lib.IdealHost

noncomputable section

namespace Cert.RefVal

open Cert.ReferenceIdeal Idealize.ShloMosaic Idealize.ShloMosaic.TcCoe Idealize.SL.Sem Idealize.ShloMosaic.StableHlo
  Idealize.ShloMosaic.ValueIdx

/-! ## The edge data the program computes from the edge array -/

/-- The weight of every edge: the product of the two gathered inverse-root degrees. -/
def nrmR (a1 : IVec S2x3200000 32) : S3300000.Idx → EReal := Read.val_main_v28 (F := Ideal) a1

/-- The source index of every edge, a negative one wrapped by the node count, as a column. -/
def gidxR (a1 : IVec S2x3200000 32) : IVec S3300000x1 32 := Read.val_main_v36 (F := Ideal) a1

/-- The raw target index of every edge, as a column. -/
def didxR (a1 : IVec S2x3200000 32) : IVec S3300000x1 32 := Read.val_main_v41 (F := Ideal) a1

/-- The later layers wrap the source index again, by the same operations. -/
theorem gidxR_eq54 (a1 : IVec S2x3200000 32) : Read.val_main_v54 (F := Ideal) a1 = gidxR a1 := rfl
theorem gidxR_eq72 (a1 : IVec S2x3200000 32) : Read.val_main_v72 (F := Ideal) a1 = gidxR a1 := rfl
/-- The target column is broadcast afresh before every scatter. -/
theorem didxR_eq9 (a1 : IVec S2x3200000 32) : Read.val_main_v9 (F := Ideal) a1 = didxR a1 := rfl
theorem didxR_eq59 (a1 : IVec S2x3200000 32) : Read.val_main_v59 (F := Ideal) a1 = didxR a1 := rfl
theorem didxR_eq77 (a1 : IVec S2x3200000 32) : Read.val_main_v77 (F := Ideal) a1 = didxR a1 := rfl

/-- The node an edge reads: its wrapped source index, clamped into the node range. -/
def srcR (a1 : IVec S2x3200000 32) : Fin 3300000 → Fin 100000 :=
  fun e => Cert.LibRowOps.clampRow 100000 (by decide) ((gidxR a1) (ix2 e 0)).toInt

/-- The signed number of the node an edge adds into. -/
def dstR (a1 : IVec S2x3200000 32) : Fin 3300000 → ℤ := fun e => ((didxR a1) (ix2 e 0)).toInt

/-- The signed group number of a node. -/
def batR (a2 : IVec S100000 32) : Fin 100000 → ℤ := fun n => (a2 (ix1 n)).toInt

/-- The weight of edge e. -/
abbrev nrmE (a1 : IVec S2x3200000 32) : Fin 3300000 → EReal := fun e => nrmR a1 (ix1 e)

/-- At exact extended-real values the host's accumulating scatter is the operand plus the sum of the updates that land
    on each element. -/
theorem scatterAdd_eq {s si u : Shape} {w : Nat} {φ : FTy} (d : ScatterDims s si u) (x : FVec Ideal s φ)
    (idx : IVec si w) (upd : FVec Ideal u φ) :
    Host.scatterAdd d x idx upd = Ideal.hostScatterAdd d x idx upd := by
  unfold Host.scatterAdd
  exact Ideal.hostScatterAdd_def d .single x idx upd

section Layers

variable (a0 : FVec Ideal S100000x3 .f32) (a1 : IVec S2x3200000 32) (a2 : IVec S100000 32)
  (a3 : FVec Ideal S3x32 .f32) (a4 : FVec Ideal S32 .f32) (a5 : FVec Ideal S32x64 .f32) (a6 : FVec Ideal S64 .f32)
  (a7 : FVec Ideal S64x2 .f32) (a8 : FVec Ideal S2 .f32)

/-! ## Layer 1 -/

/-- The first dense product at (n, o). -/
theorem v29_at (n : Fin 100000) (o : Fin 32) :
    Read.val_main_v29 (F := Ideal) a0 a3 (ix2 n o)
      = Cert.Spec.mm (fun n f => a0 (ix2 n f)) (fun k o => a3 (ix2 k o)) n o := by
  rw [Read.val_main_v29_apply]
  unfold Cert.Spec.mm
  refine Finset.sum_congr rfl fun k _ => ?_
  have el : Read.lidx_main_v29 (ix2 n o) k = ix2 n k := funext fun a => by match a with | ⟨0, _⟩ => rfl | ⟨1, _⟩ => rfl
  have er : Read.ridx_main_v29 (ix2 n o) k = ix2 k o := funext fun a => by match a with | ⟨0, _⟩ => rfl | ⟨1, _⟩ => rfl
  rw [el, er]

/-- The edge weights broadcast along the 32 columns. -/
theorem v38_at (e : Fin 3300000) (f : Fin 32) :
    Read.val_main_v38 (F := Ideal) a1 (ix2 e f) = nrmR a1 (ix1 e) := by
  rw [Read.val_main_v38_apply, Read.val_main_v30_apply]
  exact congrArg (Read.val_main_v28 (F := Ideal) a1) (funext fun a => by match a with | ⟨0, _⟩ => rfl)

/-- The product's rows gathered at the edges' sources. -/
theorem v37_at (e : Fin 3300000) (f : Fin 32) :
    Read.val_main_v37 (F := Ideal) a0 a1 a3 (ix2 e f)
      = Read.val_main_v29 (F := Ideal) a0 a3 (ix2 (srcR a1 e) f) := by
  unfold Read.val_main_v37
  exact Cert.LibRowOps.gather_rows_apply (by decide) gather_S100000x32_S3300000x1_S3300000x32_1_0_n_n_0_1_132
    rfl rfl rfl rfl rfl rfl rfl _ _ e f

/-- The zero table the first scatter adds into. -/
theorem v40_zero (i : S100000x32.Idx) : Read.val_main_v40 (F := Ideal) i = 0 := by
  rw [Read.val_main_v40_apply, Read.val_main_cst_7_apply, Ideal.ofBits_def, Ideal.ofBits_zero_f32]

/-- The first aggregation at (n, f). -/
theorem v42_at (n : Fin 100000) (f : Fin 32) :
    Read.val_main_v42 (F := Ideal) a0 a1 a3 (ix2 n f)
      = Cert.Spec.agg (nrmE a1) (srcR a1) (dstR a1)
          (Cert.Spec.mm (fun n f => a0 (ix2 n f)) (fun k o => a3 (ix2 k o))) n f := by
  unfold Read.val_main_v42
  rw [scatterAdd_eq, Cert.LibRowOps.scatterAdd_rows_apply _ rfl rfl rfl rfl, v40_zero, zero_add]
  unfold Cert.Spec.agg dstR didxR
  refine Finset.sum_congr rfl fun e _ => ?_
  rw [Read.val_main_v39_apply, Ideal.mulf_def, v38_at, v37_at, v29_at]

/-- The first bias row broadcast down the nodes. -/
theorem v44_at (n : Fin 100000) (f : Fin 32) : Read.val_main_v44 (F := Ideal) a4 (ix2 n f) = a4 (ix1 f) := by
  rw [Read.val_main_v44_apply, Read.val_main_v43_apply]
  exact congrArg a4 (funext fun a => by match a with | ⟨0, _⟩ => rfl)

/-- The zero table the first positive part compares with. -/
theorem call0_zero (i : S100000x32.Idx) : Read.val_main_call0_v0 (F := Ideal) i = 0 := by
  rw [Read.val_main_call0_v0_apply, Read.val_main_call0_cst_apply, Ideal.ofBits_def, Ideal.ofBits_zero_f32]

/-- The first hidden table: the positive part of the first multiply-first layer. -/
def tab1 : Fin 100000 → Fin 32 → EReal :=
  Cert.Spec.relu (Cert.Spec.layerR (nrmE a1) (srcR a1) (dstR a1) (fun n f => a0 (ix2 n f)) (fun k o => a3 (ix2 k o))
    (fun o => a4 (ix1 o)))

theorem v46_at (n : Fin 100000) (f : Fin 32) :
    Read.val_main_v46 (F := Ideal) a0 a1 a3 a4 (ix2 n f) = tab1 a0 a1 a3 a4 n f := by
  unfold tab1 Cert.Spec.relu Cert.Spec.layerR
  rw [Read.val_main_v46_apply, Ideal.maximumf_def, Read.val_main_v45_apply, Ideal.addf_def, v42_at, v44_at, call0_zero]

/-! ## Layer 2 -/

/-- The second dense product at (n, o). -/
theorem v47_at (n : Fin 100000) (o : Fin 64) :
    Read.val_main_v47 (F := Ideal) a0 a1 a3 a4 a5 (ix2 n o)
      = Cert.Spec.mm (tab1 a0 a1 a3 a4) (fun k o => a5 (ix2 k o)) n o := by
  rw [Read.val_main_v47_apply]
  unfold Cert.Spec.mm
  refine Finset.sum_congr rfl fun k _ => ?_
  have el : Read.lidx_main_v47 (ix2 n o) k = ix2 n k := funext fun a => by match a with | ⟨0, _⟩ => rfl | ⟨1, _⟩ => rfl
  have er : Read.ridx_main_v47 (ix2 n o) k = ix2 k o := funext fun a => by match a with | ⟨0, _⟩ => rfl | ⟨1, _⟩ => rfl
  rw [el, er, v46_at]

/-- The edge weights broadcast along the 64 columns. -/
theorem v56_at (e : Fin 3300000) (f : Fin 64) :
    Read.val_main_v56 (F := Ideal) a1 (ix2 e f) = nrmR a1 (ix1 e) := by
  rw [Read.val_main_v56_apply, Read.val_main_v48_apply]
  exact congrArg (Read.val_main_v28 (F := Ideal) a1) (funext fun a => by match a with | ⟨0, _⟩ => rfl)

/-- The second product's rows gathered at the edges' sources. -/
theorem v55_at (e : Fin 3300000) (f : Fin 64) :
    Read.val_main_v55 (F := Ideal) a0 a1 a3 a4 a5 (ix2 e f)
      = Read.val_main_v47 (F := Ideal) a0 a1 a3 a4 a5 (ix2 (srcR a1 e) f) := by
  unfold Read.val_main_v55
  rw [gidxR_eq54]
  exact Cert.LibRowOps.gather_rows_apply (by decide) gather_S100000x64_S3300000x1_S3300000x64_1_0_n_n_0_1_164
    rfl rfl rfl rfl rfl rfl rfl _ _ e f

/-- The zero table the second scatter adds into. -/
theorem v58_zero (i : S100000x64.Idx) : Read.val_main_v58 (F := Ideal) i = 0 := by
  rw [Read.val_main_v58_apply, Read.val_main_cst_10_apply, Ideal.ofBits_def, Ideal.ofBits_zero_f32]

/-- The second aggregation at (n, f). -/
theorem v60_at (n : Fin 100000) (f : Fin 64) :
    Read.val_main_v60 (F := Ideal) a0 a1 a3 a4 a5 (ix2 n f)
      = Cert.Spec.agg (nrmE a1) (srcR a1) (dstR a1)
          (Cert.Spec.mm (tab1 a0 a1 a3 a4) (fun k o => a5 (ix2 k o))) n f := by
  unfold Read.val_main_v60
  rw [didxR_eq59, scatterAdd_eq, Cert.LibRowOps.scatterAdd_rows_apply _ rfl rfl rfl rfl, v58_zero, zero_add]
  unfold Cert.Spec.agg dstR
  refine Finset.sum_congr rfl fun e _ => ?_
  rw [Read.val_main_v57_apply, Ideal.mulf_def, v56_at, v55_at, v47_at]

/-- The second bias row broadcast down the nodes. -/
theorem v62_at (n : Fin 100000) (f : Fin 64) : Read.val_main_v62 (F := Ideal) a6 (ix2 n f) = a6 (ix1 f) := by
  rw [Read.val_main_v62_apply, Read.val_main_v61_apply]
  exact congrArg a6 (funext fun a => by match a with | ⟨0, _⟩ => rfl)

/-- The zero table the second positive part compares with. -/
theorem call1_zero (i : S100000x64.Idx) : Read.val_main_call1_v0 (F := Ideal) i = 0 := by
  rw [Read.val_main_call1_v0_apply, Read.val_main_call1_cst_apply, Ideal.ofBits_def, Ideal.ofBits_zero_f32]

/-- The second hidden table: the positive part of the second multiply-first layer. -/
def tab2 : Fin 100000 → Fin 64 → EReal :=
  Cert.Spec.relu (Cert.Spec.layerR (nrmE a1) (srcR a1) (dstR a1) (tab1 a0 a1 a3 a4) (fun k o => a5 (ix2 k o))
    (fun o => a6 (ix1 o)))

theorem v64_at (n : Fin 100000) (f : Fin 64) :
    Read.val_main_v64 (F := Ideal) a0 a1 a3 a4 a5 a6 (ix2 n f) = tab2 a0 a1 a3 a4 a5 a6 n f := by
  unfold tab2 Cert.Spec.relu Cert.Spec.layerR
  rw [Read.val_main_v64_apply, Ideal.maximumf_def, Read.val_main_v63_apply, Ideal.addf_def, v60_at, v62_at, call1_zero]

/-! ## Layer 3 -/

/-- The third dense product at (n, o). -/
theorem v65_at (n : Fin 100000) (o : Fin 2) :
    Read.val_main_v65 (F := Ideal) a0 a1 a3 a4 a5 a6 a7 (ix2 n o)
      = Cert.Spec.mm (tab2 a0 a1 a3 a4 a5 a6) (fun k o => a7 (ix2 k o)) n o := by
  rw [Read.val_main_v65_apply]
  unfold Cert.Spec.mm
  refine Finset.sum_congr rfl fun k _ => ?_
  have el : Read.lidx_main_v65 (ix2 n o) k = ix2 n k := funext fun a => by match a with | ⟨0, _⟩ => rfl | ⟨1, _⟩ => rfl
  have er : Read.ridx_main_v65 (ix2 n o) k = ix2 k o := funext fun a => by match a with | ⟨0, _⟩ => rfl | ⟨1, _⟩ => rfl
  rw [el, er, v64_at]

/-- The edge weights broadcast along the 2 columns. -/
theorem v74_at (e : Fin 3300000) (f : Fin 2) :
    Read.val_main_v74 (F := Ideal) a1 (ix2 e f) = nrmR a1 (ix1 e) := by
  rw [Read.val_main_v74_apply, Read.val_main_v66_apply]
  exact congrArg (Read.val_main_v28 (F := Ideal) a1) (funext fun a => by match a with | ⟨0, _⟩ => rfl)

/-- The third product's rows gathered at the edges' sources. -/
theorem v73_at (e : Fin 3300000) (f : Fin 2) :
    Read.val_main_v73 (F := Ideal) a0 a1 a3 a4 a5 a6 a7 (ix2 e f)
      = Read.val_main_v65 (F := Ideal) a0 a1 a3 a4 a5 a6 a7 (ix2 (srcR a1 e) f) := by
  unfold Read.val_main_v73
  rw [gidxR_eq72]
  exact Cert.LibRowOps.gather_rows_apply (by decide) gather_S100000x2_S3300000x1_S3300000x2_1_0_n_n_0_1_12
    rfl rfl rfl rfl rfl rfl rfl _ _ e f

/-- The zero table the third scatter adds into. -/
theorem v76_zero (i : S100000x2.Idx) : Read.val_main_v76 (F := Ideal) i = 0 := by
  rw [Read.val_main_v76_apply, Read.val_main_cst_13_apply, Ideal.ofBits_def, Ideal.ofBits_zero_f32]

/-- The third aggregation at (n, f). -/
theorem v78_at (n : Fin 100000) (f : Fin 2) :
    Read.val_main_v78 (F := Ideal) a0 a1 a3 a4 a5 a6 a7 (ix2 n f)
      = Cert.Spec.agg (nrmE a1) (srcR a1) (dstR a1)
          (Cert.Spec.mm (tab2 a0 a1 a3 a4 a5 a6) (fun k o => a7 (ix2 k o))) n f := by
  unfold Read.val_main_v78
  rw [didxR_eq77, scatterAdd_eq, Cert.LibRowOps.scatterAdd_rows_apply _ rfl rfl rfl rfl, v76_zero, zero_add]
  unfold Cert.Spec.agg dstR
  refine Finset.sum_congr rfl fun e _ => ?_
  rw [Read.val_main_v75_apply, Ideal.mulf_def, v74_at, v73_at, v65_at]

/-- The third bias row broadcast down the nodes. -/
theorem v80_at (n : Fin 100000) (f : Fin 2) : Read.val_main_v80 (F := Ideal) a8 (ix2 n f) = a8 (ix1 f) := by
  rw [Read.val_main_v80_apply, Read.val_main_v79_apply]
  exact congrArg a8 (funext fun a => by match a with | ⟨0, _⟩ => rfl)

/-- The output table: the third multiply-first layer, with no positive part. -/
def tab3 : Fin 100000 → Fin 2 → EReal :=
  Cert.Spec.layerR (nrmE a1) (srcR a1) (dstR a1) (tab2 a0 a1 a3 a4 a5 a6) (fun k o => a7 (ix2 k o))
    (fun o => a8 (ix1 o))

theorem v81_at (n : Fin 100000) (f : Fin 2) :
    Read.val_main_v81 (F := Ideal) a0 a1 a3 a4 a5 a6 a7 a8 (ix2 n f) = tab3 a0 a1 a3 a4 a5 a6 a7 a8 n f := by
  unfold tab3 Cert.Spec.layerR
  rw [Read.val_main_v81_apply, Ideal.addf_def, v78_at, v80_at]

/-! ## The group means -/

/-- The group numbers as a column, for the sums. -/
theorem v83_at (n : Fin 100000) : Read.val_main_v83 (F := Ideal) a2 (ix2 n 0) = a2 (ix1 n) := by
  rw [Read.val_main_v83_apply]
  exact congrArg a2 (funext fun a => by match a with | ⟨0, _⟩ => rfl)

/-- The group numbers as a column, for the counts. -/
theorem v87_at (n : Fin 100000) : Read.val_main_v87 (F := Ideal) a2 (ix2 n 0) = a2 (ix1 n) := by
  rw [Read.val_main_v87_apply]
  exact congrArg a2 (funext fun a => by match a with | ⟨0, _⟩ => rfl)

/-- The zero table the group sums start from. -/
theorem v82_zero (i : S128x2.Idx) : Read.val_main_v82 (F := Ideal) i = 0 := by
  rw [Read.val_main_v82_apply, Read.val_main_cst_14_apply, Ideal.ofBits_def, Ideal.ofBits_zero_f32]

/-- The zero vector the group counts start from. -/
theorem v86_zero (i : S128.Idx) : Read.val_main_v86 (F := Ideal) i = 0 := by
  rw [Read.val_main_v86_apply, Read.val_main_cst_16_apply, Ideal.ofBits_def, Ideal.ofBits_zero_f32]

/-- Every node counts once. -/
theorem v85_one (i : S100000.Idx) : Read.val_main_v85 (F := Ideal) i = 1 := by
  rw [Read.val_main_v85_apply, Read.val_main_cst_15_apply, Ideal.ofBits_def, Ideal.ofBits_one_f32]

/-- The counts are clamped below at one. -/
theorem v89_one (i : S128.Idx) : Read.val_main_v89 (F := Ideal) i = 1 := by
  rw [Read.val_main_v89_apply, Read.val_main_cst_17_apply, Ideal.ofBits_def, Ideal.ofBits_one_f32]

/-- The group sums at (s, o). -/
theorem v84_at (s : Fin 128) (o : Fin 2) :
    Read.val_main_v84 (F := Ideal) a0 a1 a2 a3 a4 a5 a6 a7 a8 (ix2 s o)
      = Cert.Spec.poolSum (batR a2) (tab3 a0 a1 a3 a4 a5 a6 a7 a8) s o := by
  unfold Read.val_main_v84
  rw [scatterAdd_eq, Cert.LibRowOps.scatterAdd_rows_apply _ rfl rfl rfl rfl, v82_zero, zero_add]
  unfold Cert.Spec.poolSum batR
  refine Finset.sum_congr rfl fun n _ => ?_
  rw [v83_at, v81_at]

/-- The group counts at s. -/
theorem v88_at (s : Fin 128) :
    Read.val_main_v88 (F := Ideal) a2 (ix1 s) = Cert.Spec.poolCnt (batR a2) s := by
  unfold Read.val_main_v88
  rw [scatterAdd_eq, Cert.LibRowOps.scatterAdd_vec_apply _ rfl rfl rfl rfl, v86_zero, zero_add]
  unfold Cert.Spec.poolCnt batR
  refine Finset.sum_congr rfl fun n _ => ?_
  rw [v87_at, v85_one]

/-- The clamped counts broadcast along the 2 columns. -/
theorem v92_at (s : Fin 128) (o : Fin 2) :
    Read.val_main_v92 (F := Ideal) a2 (ix2 s o) = max (Cert.Spec.poolCnt (batR a2) s) 1 := by
  rw [Read.val_main_v92_apply, Read.val_main_v91_apply]
  have e : Read.idx_main_v91 (Read.idx_main_v92 (ix2 s o)) = ix1 s := funext fun a => by match a with | ⟨0, _⟩ => rfl
  rw [e, Read.val_main_v90_apply, Ideal.maximumf_def, v88_at, v89_one]

/-- The program's result at (s, o), over arbitrary argument arrays. -/
theorem v93_at (s : Fin 128) (o : Fin 2) :
    Read.val_main_v93 (F := Ideal) a0 a1 a2 a3 a4 a5 a6 a7 a8 (ix2 s o)
      = Cert.Spec.netR (fun e => nrmR a1 (ix1 e)) (srcR a1) (dstR a1) (batR a2) (fun n f => a0 (ix2 n f))
          (fun k o => a3 (ix2 k o)) (fun o => a4 (ix1 o)) (fun k o => a5 (ix2 k o)) (fun o => a6 (ix1 o))
          (fun k o => a7 (ix2 k o)) (fun o => a8 (ix1 o)) s o := by
  rw [Read.val_main_v93_apply, Ideal.hostDivf_def, v84_at, v92_at]
  rfl

end Layers

/-- The reference's result at (group s, column o) is the multiply-first network of the specification at the edge
    weights, sources, targets and group numbers the program computes, over the argument arrays' launch contents. -/
theorem ref_value (m : (ℓ : Loc nD τ sig) → Buf (Elt Ideal) ℓ) (c : Dev nD) (s : Fin 128) (o : Fin 2) :
    Cert.ReferenceIdeal.Value.res_main_v93 (F := Ideal) m c (ix2 s o)
      = Cert.Spec.netR (fun e => nrmR (m ((c.tc : Thread nD τ).loc main_arg1)) (ix1 e))
          (srcR (m ((c.tc : Thread nD τ).loc main_arg1))) (dstR (m ((c.tc : Thread nD τ).loc main_arg1)))
          (batR (m ((c.tc : Thread nD τ).loc main_arg2)))
          (fun n f => m ((c.tc : Thread nD τ).loc main_arg0) (ix2 n f))
          (fun k o => m ((c.tc : Thread nD τ).loc main_arg3) (ix2 k o))
          (fun o => m ((c.tc : Thread nD τ).loc main_arg4) (ix1 o))
          (fun k o => m ((c.tc : Thread nD τ).loc main_arg5) (ix2 k o))
          (fun o => m ((c.tc : Thread nD τ).loc main_arg6) (ix1 o))
          (fun k o => m ((c.tc : Thread nD τ).loc main_arg7) (ix2 k o))
          (fun o => m ((c.tc : Thread nD τ).loc main_arg8) (ix1 o)) s o := by
  rw [Read.val_main_v93_eq]
  exact v93_at _ _ _ _ _ _ _ _ _ s o

end Cert.RefVal

end
-- ==== Proof.PrefixEq.lean ====
/-
  The two programs compute the edge-dependent data by the same operations in the same order: the kernel side's
  edge weights, wrapped source column and raw target column are, as functions of the edge array, the reference's.
-/
import proofs.«418470_j49907519979654_1_alg».proof.Proof.KI.Prefix
import proofs.«418470_j49907519979654_1_alg».proof.Proof.RefRead
import Idealize.ShloMosaic.PureOps.Ideal

noncomputable section

namespace Cert.PrefixEq

open Cert.KernelIdeal Cert.KernelIdeal.Hand
open Idealize.ShloMosaic Idealize.ShloMosaic.TcCoe Idealize.SL.Sem

theorem nrm_eq (a1 : (⟨S2x3200000, .i32⟩ : BufTy).Contents (Elt Ideal)) :
    nrmK (F := Ideal) a1 = Cert.ReferenceIdeal.Read.val_main_v28 (F := Ideal) a1 := rfl

theorem gidx_eq (a1 : (⟨S2x3200000, .i32⟩ : BufTy).Contents (Elt Ideal)) :
    gidxK (F := Ideal) a1 = Cert.ReferenceIdeal.Read.val_main_v36 (F := Ideal) a1 := rfl

theorem didx_eq (a1 : (⟨S2x3200000, .i32⟩ : BufTy).Contents (Elt Ideal)) :
    didxK (F := Ideal) a1 = Cert.ReferenceIdeal.Read.val_main_v41 (F := Ideal) a1 := rfl

end Cert.PrefixEq

end
-- ==== Proof.Finite.lean ====
/-
  From the precondition to real-valued data.  The precondition says, of each float argument x, that every entry
  satisfies |x| < +infinity, the conjunction over all entries and all arguments being 1.  An extended real whose
  absolute value max x (-x) is below the top element is neither infinity, so it is a real number.
-/
import proofs.«418470_j49907519979654_1_alg».proof.Defs
import proofs.«418470_j49907519979654_1_alg».proof.Proof.Gen.Pre_finite_inputs
import proofs.«418470_j49907519979654_1_alg».proof.Proof.Spec
import Idealize.ShloMosaic.Lib.ReduceAll
import Idealize.ShloMosaic.Lib.ValueIdx

noncomputable section

namespace Cert.Finite

open Idealize.ShloMosaic Idealize.ShloMosaic.ValueIdx Idealize.SL.Sem

/-- The scalar shape has one index. -/
instance : Subsingleton (Cert.Pre_finite_inputs.S_.Idx) := ⟨fun a b => funext fun d => d.elim0⟩

/-- One value: if |x| < +infinity holds (the comparison answers 1), x is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- One argument: if the conjunction over all entries of |x| < +infinity is 1, every entry of x is real. -/
theorem real_of_all {s : Shape} {axes : List (Fin s.rank)} (x bc : FVec Ideal s .f32)
    (hbc : ∀ i, bc i = FloatOps.ofBits (F := Ideal) .f32 0x7F800000#32)
    (init : IVec Cert.Pre_finite_inputs.S_ 1) (hr : s.ReducesTo axes Cert.Pre_finite_inputs.S_)
    (hu : 0 < Cert.Pre_finite_inputs.S_.numel)
    (e : Host.reduce IntOp.andi (cmpf .olt (Host.absf x) bc) init hr hu ix0 = 1#1) (i : s.Idx) :
    ∃ r : ℝ, (x i : EReal) = (r : EReal) := by
  have hi := Host.reduce_andi_all _ init hr hu ix0 e i
  have hi' : Ideal.cmp .olt (max (x i : EReal) (-(x i : EReal))) (bc i) = 1#1 := hi
  rw [hbc] at hi'
  exact real_of_abs_lt_inf _ hi'

/-- Under the precondition every float argument of the program is real-valued. -/
theorem real_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.Real2 (fun n f => m ((c.tc : Thread Cert.KernelIdeal.nD Cert.KernelIdeal.τ).loc Cert.KernelIdeal.main_arg0) (ix2 n f))
    ∧ Cert.Spec.Real2 (fun k o => m ((c.tc : Thread Cert.KernelIdeal.nD Cert.KernelIdeal.τ).loc Cert.KernelIdeal.main_arg3) (ix2 k o))
    ∧ Cert.Spec.Real1 (fun o => m ((c.tc : Thread Cert.KernelIdeal.nD Cert.KernelIdeal.τ).loc Cert.KernelIdeal.main_arg4) (ix1 o))
    ∧ Cert.Spec.Real2 (fun k o => m ((c.tc : Thread Cert.KernelIdeal.nD Cert.KernelIdeal.τ).loc Cert.KernelIdeal.main_arg5) (ix2 k o))
    ∧ Cert.Spec.Real1 (fun o => m ((c.tc : Thread Cert.KernelIdeal.nD Cert.KernelIdeal.τ).loc Cert.KernelIdeal.main_arg6) (ix1 o))
    ∧ Cert.Spec.Real2 (fun k o => m ((c.tc : Thread Cert.KernelIdeal.nD Cert.KernelIdeal.τ).loc Cert.KernelIdeal.main_arg7) (ix2 k o))
    ∧ Cert.Spec.Real1 (fun o => m ((c.tc : Thread Cert.KernelIdeal.nD Cert.KernelIdeal.τ).loc Cert.KernelIdeal.main_arg8) (ix1 o)) := by
  have h0 := congrFun (h c) ix0
  dsimp only [Cert.Pre_finite_inputs.fn, Cert.Pre_finite_inputs.fn_part1] at h0
  -- the conjunction of the seven per-argument conjuncts, split from the outside in
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  refine ⟨fun n f => ?_, fun k o => ?_, fun o => ?_, fun k o => ?_, fun o => ?_, fun k o => ?_, fun o => ?_⟩
  · exact real_of_all _ _ (fun _ => rfl) _ _ _ e0 (ix2 n f)
  · exact real_of_all _ _ (fun _ => rfl) _ _ _ e3 (ix2 k o)
  · exact real_of_all _ _ (fun _ => rfl) _ _ _ e4 (ix1 o)
  · exact real_of_all _ _ (fun _ => rfl) _ _ _ e5 (ix2 k o)
  · exact real_of_all _ _ (fun _ => rfl) _ _ _ e6 (ix1 o)
  · exact real_of_all _ _ (fun _ => rfl) _ _ _ e7 (ix2 k o)
  · exact real_of_all _ _ (fun _ => rfl) _ _ _ e8 (ix1 o)

end Cert.Finite

end
-- ==== Proof.lean ====
/-
  The certificate of the three-layer graph convolution with mean read-out against its reference.

  Both programs aggregate node features along 3300000 weighted edges (the given edges and one self-loop per node),
  three times, and average the final features over 128 groups of nodes.  The kernel aggregates the input of each
  layer and multiplies by the weight matrix afterwards (in a gridded kernel call, with bias and positive part);
  the reference multiplies first and aggregates the product.  Over the reals these agree because aggregation is a
  linear map on the node axis and the weights act on the feature axis; all data are real because the inputs are
  finite and every edge weight is a product of inverse root degrees of numbers at least one.  The read-out is a
  segment sum in the reference and, in the kernel, a product with the 0/1 matrix "node n belongs to group s",
  accumulated over twenty row blocks; both divide by max (count, 1).

  The frames: the kernel program is run as five stretches of host operations and four gridded kernel calls over the
  pipeline library's segment theorem; the reference is its generated run.
-/
import proofs.«418470_j49907519979654_1_alg».proof.Defs
import proofs.«418470_j49907519979654_1_alg».proof.Proof.Gen.Kernel
import proofs.«418470_j49907519979654_1_alg».proof.Proof.Gen.KernelIdeal
import proofs.«418470_j49907519979654_1_alg».proof.Proof.Gen.ReferenceIdeal
import proofs.«418470_j49907519979654_1_alg».proof.Proof.Gen.Pre_finite_inputs
import proofs.«418470_j49907519979654_1_alg».proof.Proof.K.Run
import proofs.«418470_j49907519979654_1_alg».proof.Proof.KI.Run
import proofs.«418470_j49907519979654_1_alg».proof.Proof.KI.HostVal
import proofs.«418470_j49907519979654_1_alg».proof.Proof.KI.NormReal
import proofs.«418470_j49907519979654_1_alg».proof.Proof.RefRead
import proofs.«418470_j49907519979654_1_alg».proof.Proof.RefVal
import proofs.«418470_j49907519979654_1_alg».proof.Proof.PrefixEq
import proofs.«418470_j49907519979654_1_alg».proof.Proof.Algebra
import proofs.«418470_j49907519979654_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level program runs to the end, faults nowhere and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference is a host program: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, the reference's result array is the kernel program's: entry by entry
    both are the network of the specification — aggregate-first on one side, multiply-first on the other, equal on
    real data — at the same edge weights, sources, targets and group numbers. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v93 (F := Ideal) m' c
      = Cert.KernelIdeal.Hand.W9 (F := Ideal) m c (Proc.devRef .tc Cert.KernelIdeal.main_v79) := by
  funext i
  obtain ⟨s, o, rfl⟩ : ∃ (s : Fin 128) (o : Fin 2), i = ix2 s o := ⟨i 0, i 1, eq_ix2 i⟩
  obtain ⟨r0, r3, r4, r5, r6, r7, r8⟩ := Cert.Finite.real_of_pre m hpre c
  have hn := Cert.KernelIdeal.Hand.nrmK_real (m ((c.tc : Thread Cert.KernelIdeal.nD Cert.KernelIdeal.τ).loc Cert.KernelIdeal.main_arg1))
  refine (Cert.RefVal.ref_value m' c s o).trans ?_
  refine Eq.trans ?_ (Cert.KernelIdeal.Hand.kernel_value m c s o).symm
  rw [h0, h1, h2, h3, h4, h5, h6, h7, h8]
  refine Eq.trans ?_ (congrFun (congrFun (Cert.Spec.netK_eq_netR (G := 128) _ _ _ _ _ _ _ _ _ _ _ hn r0 r3 r4 r5 r6 r7) s) o).symm
  rfl

/-- The two idealized programs, from memories agreeing on the arguments, both run and end with equal results. -/
theorem algebraic : Cert.algebraic_KernelIdeal_ReferenceIdeal := by
  intro m ρ m' ρ' hpre hagree
  refine ⟨fun c => Cert.KernelIdeal.Hand.W9 (F := Ideal) m c (Proc.devRef .tc Cert.KernelIdeal.main_v79),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  exact result_eq m m' hpre c h0 h1 h2 h3 h4 h5 h6 h7 h8

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
